-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1280x1024 .f32 .bf16
  ∧ IdealRules.truncf_extf.Statement Cert.KernelIdeal.S1024x128 .f32 .bf16
  ∧ IdealRules.truncf_extf.Statement Cert.KernelIdeal.S1024x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S10000x128 : Shape := ⟨2, ![10000, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_

variable [Facts]

def fn {F : FTy → Type} [FloatOps F] (main_arg0 : FVec F S8192x128 .f32) (main_arg1 : IVec S8192 32) (main_arg2 : FVec F S10000x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S10000x128 .f32 := Host.absf main_arg2
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  main_v8
-- ==== Kernel.lean ====
abbrev S8192x128 : Shape := ⟨2, ![8192, 128]⟩
abbrev S8192 : Shape := ⟨1, ![8192]⟩
abbrev S10000x128 : Shape := ⟨2, ![10000, 128]⟩
abbrev S_ : Shape := ⟨0, ![]⟩
abbrev S10240x128 : Shape := ⟨2, ![10240, 128]⟩
abbrev S10240 : Shape := ⟨1, ![10240]⟩
abbrev S1x10240 : Shape := ⟨2, ![1, 10240]⟩
abbrev S1x8192 : Shape := ⟨2, ![1, 8192]⟩
abbrev S8192x10000 : Shape := ⟨2, ![8192, 10000]⟩
abbrev S1x10000 : Shape := ⟨2, ![1, 10000]⟩
abbrev S1280x128 : Shape := ⟨2, ![1280, 128]⟩
abbrev S1x1280 : Shape := ⟨2, ![1, 1280]⟩
abbrev S1024x1280 : Shape := ⟨2, ![1024, 1280]⟩
abbrev S1024x128 : Shape := ⟨2, ![1024, 128]⟩
abbrev S1x1024 : Shape := ⟨2, ![1, 1024]⟩
abbrev S1024 : Shape := ⟨1, ![1024]⟩
abbrev S1024x1 : Shape := ⟨2, ![1024, 1]⟩
abbrev S1280x1 : Shape := ⟨2, ![1280, 1]⟩
abbrev S1280x1024 : Shape := ⟨2, ![1280, 1024]⟩
abbrev S1280 : Shape := ⟨1, ![1280]⟩
abbrev S10000 : Shape := ⟨1, ![10000]⟩

abbrev nBuf : Space → Nat
  | .hbm => 18
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S10000x128, .f32⟩
  | .hbm, ⟨3, _⟩ => ⟨S_, .i32⟩
  | .hbm, ⟨4, _⟩ => ⟨S_, .f32⟩
  | .hbm, ⟨5, _⟩ => ⟨S10240x128, .f32⟩
  | .hbm, ⟨6, _⟩ => ⟨S10240x128, .f32⟩
  | .hbm, ⟨7, _⟩ => ⟨S_, .f32⟩
  | .hbm, ⟨8, _⟩ => ⟨S10240, .f32⟩
  | .hbm, ⟨9, _⟩ => ⟨S1x10240, .f32⟩
  | .hbm, ⟨10, _⟩ => ⟨S_, .f32⟩
  | .hbm, ⟨11, _⟩ => ⟨S10240x128, .f32⟩
  | .hbm, ⟨12, _⟩ => ⟨S10240x128, .f32⟩
  | .hbm, ⟨13, _⟩ => ⟨S1x8192, .i32⟩
  | .hbm, ⟨14, _⟩ => ⟨S8192x10000, .f32⟩
  | .hbm, ⟨15, _⟩ => ⟨S10000x128, .f32⟩
  | .hbm, ⟨16, _⟩ => ⟨S1x10000, .f32⟩
  | .hbm, ⟨17, _⟩ => ⟨S10000, .f32⟩
  | .local _ .vmem, ⟨0, _⟩ => ⟨S8192x128, .f32⟩
  | .local _ .vmem, ⟨1, _⟩ => ⟨S1x8192, .i32⟩
  | .local _ .vmem, ⟨2, _⟩ => ⟨S1280x128, .f32⟩
  | .local _ .vmem, ⟨3, _⟩ => ⟨S1280x128, .f32⟩
  | .local _ .vmem, ⟨4, _⟩ => ⟨S1x1280, .f32⟩
  | .local _ .vmem, ⟨5, _⟩ => ⟨S1x1280, .f32⟩
  | .local _ .vmem, ⟨6, _⟩ => ⟨S1024x1280, .f32⟩
  | .local _ .vmem, ⟨7, _⟩ => ⟨S1024x1280, .f32⟩
  | .local _ .vmem, ⟨8, _⟩ => ⟨S1280x128, .f32⟩
  | .local _ .vmem, ⟨9, _⟩ => ⟨S1280x128, .f32⟩
  | .local _ .vmem, ⟨10, _⟩ => ⟨S1x1280, .f32⟩
  | .local _ .vmem, ⟨11, _⟩ => ⟨S1x1280, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v8 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_off2 (i : grid0.Coords) : Fin 2 → Nat :=
  let c0_1 : Index := 0#32
  let arg1 : BitVec 32 := BitVec.ofNat 32 (i 1).val
  let c1024_i32 : BitVec 32 := 1024#32
  let v3 : BitVec 32 := Scalar.muli arg1 c1024_i32
  let v4 : BitVec 32 := v3
  let v7 : Index := Scalar.indexCast v4
  ![0, v7.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x8192 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1280x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  pads_S10000x128_S10240x128_02400_000 : S10000x128.Pads (![0, 0] : Fin 2 → Nat) ![240, 0] ![0, 0] S10240x128
  h_S_ : 0 < S_.numel
  reducesTo_S10240x128_S10240_d1 : S10240x128.ReducesTo [1] S10240
  bcast_S10240_S1x10240_1 : S10240.BroadcastsInDim S1x10240 (![1] : Fin 1 → Fin S1x10240.rank)
  bcast_S_S10240x128 : S_.BroadcastsInDim S10240x128 (![] : Fin 0 → Fin S10240x128.rank)
  shapeCasts_S8192_S1x8192 : S8192.ShapeCasts S1x8192
  inb_S1280x128_S1280x128_0_0 : ∀ a, (![0, 0] : Fin 2 → Nat) a + S1280x128.size a ≤ S1280x128.size a
  h_S1280x128 : 0 < S1280x128.numel
  inb_S1x1280_S1x1280_0_0 : ∀ a, (![0, 0] : Fin 2 → Nat) a + S1x1280.size a ≤ S1x1280.size a
  h_S1x1280 : 0 < S1x1280.numel
  h_S1024x128 : 0 < S1024x128.numel
  h_S1x1024 : 0 < S1x1024.numel
  shapeCasts_S1x1024_S1x1024 : S1x1024.ShapeCasts S1x1024
  shapeCasts_S1280x128_S1280x128 : S1280x128.ShapeCasts S1280x128
  shapeCasts_S1x1280_S1x1280 : S1x1280.ShapeCasts S1x1280
  reduces_S1024x128_S1024 : S1024x128.Reduces [1] S1024
  shapeCasts_S1024_S1024x1 : S1024.ShapeCasts S1024x1
  bitsLt_bf16_f32 : FTy.bits .bf16 < FTy.bits .f32
  broadcasts_S1024x1_S1024x1280 : S1024x1.Broadcasts S1024x1280
  broadcasts_S1x1280_S1024x1280 : S1x1280.Broadcasts S1024x1280
  inb_S1024x1280_S1024x1280_0_0 : ∀ a, (![0, 0] : Fin 2 → Nat) a + S1024x1280.size a ≤ S1024x1280.size a
  h_S1024x1280 : 0 < S1024x1280.numel
  iota_S1280x1_d0_w32 : S1280x1.Iotas .tc 32 [0]
  broadcasts_S1280x1_S1280x1024 : S1280x1.Broadcasts S1280x1024
  broadcasts_S1x1024_S1280x1024 : S1x1024.Broadcasts S1280x1024
  natLt_1_32 : 1 < 32
  reduces_S1280x1024_S1280 : S1280x1024.Reduces [1] S1280
  shapeCasts_S1280_S1280x1 : S1280.ShapeCasts S1280x1
  transposes_S1280x1_p1_0_S1x1280 : S1280x1.Transposes [1, 0] S1x1280
  shapeCasts_S1x10000_S10000 : S1x10000.ShapeCasts S10000
  dot_S1024x128_S1280x128_S1024x1280_1_1_0_0_n_n_wf : DotDims.WF S1024x128 S1280x128 S1024x1280 [1] [1] [0] [0] [] []
  dot_S1280x1024_S1024x128_S1280x128_1_0_0_1_n_n_wf : DotDims.WF S1280x1024 S1024x128 S1280x128 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S8192x128.size a
  k0_off2_inb : ∀ i : grid0.Coords, ∀ a, (k0_off2 i) a + S1x1024.size a ≤ S1x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192.size a ≤ S1x8192.size a
  hwx0_1 : ∀ i : grid0.Coords, EltTy.bits .i32 = 32 ∨ (Rect.block (s := S1x8192) S1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1280x128.size a ≤ S10240x128.size a
  hwx0_2 : ∀ i : grid0.Coords, EltTy.bits .f32 = 32 ∨ (Rect.block (s := S10240x128) S1280x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1280.size a ≤ S1x10240.size a
  hwx0_3 : ∀ i : grid0.Coords, EltTy.bits .f32 = 32 ∨ (Rect.block (s := S1x10240) S1x1280.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1024x1280.size a < S8192x10000.size a
  hwx0_4 : ∀ i : grid0.Coords, EltTy.bits .f32 = 32 ∨ (Rect.unit (s := S8192x10000) (fun a => cc0_transform_4 i a * S1024x1280.size a) (fun a => (Pipeline.Clip.of (cc0_transform_4 i a) (S1024x1280.size a) (S8192x10000.size a)).extent (S1024x1280.size a)) fun a => Pipeline.Clip.inb (Pipeline.Clip.ok_of (hstart0_4 i a))).WholeWords (EltTy.packing .f32)
  hwxs0_4 : ∀ i : grid0.Coords, EltTy.bits .f32 = 32 ∨ (Rect.unit (s := S1024x1280) (fun _ => 0) (fun a => (Pipeline.Clip.of (cc0_transform_4 i a) (S1024x1280.size a) (S8192x10000.size a)).extent (S1024x1280.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1280x128.size a < S10000x128.size a
  hwx0_5 : ∀ i : grid0.Coords, EltTy.bits .f32 = 32 ∨ (Rect.unit (s := S10000x128) (fun a => cc0_transform_5 i a * S1280x128.size a) (fun a => (Pipeline.Clip.of (cc0_transform_5 i a) (S1280x128.size a) (S10000x128.size a)).extent (S1280x128.size a)) fun a => Pipeline.Clip.inb (Pipeline.Clip.ok_of (hstart0_5 i a))).WholeWords (EltTy.packing .f32)
  hwxs0_5 : ∀ i : grid0.Coords, EltTy.bits .f32 = 32 ∨ (Rect.unit (s := S1280x128) (fun _ => 0) (fun a => (Pipeline.Clip.of (cc0_transform_5 i a) (S1280x128.size a) (S10000x128.size a)).extent (S1280x128.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1x1280.size a < S1x10000.size a
  hwx0_6 : ∀ i : grid0.Coords, EltTy.bits .f32 = 32 ∨ (Rect.unit (s := S1x10000) (fun a => cc0_transform_6 i a * S1x1280.size a) (fun a => (Pipeline.Clip.of (cc0_transform_6 i a) (S1x1280.size a) (S1x10000.size a)).extent (S1x1280.size a)) fun a => Pipeline.Clip.inb (Pipeline.Clip.ok_of (hstart0_6 i a))).WholeWords (EltTy.packing .f32)
  hwxs0_6 : ∀ i : grid0.Coords, EltTy.bits .f32 = 32 ∨ (Rect.unit (s := S1x1280) (fun _ => 0) (fun a => (Pipeline.Clip.of (cc0_transform_6 i a) (S1x1280.size a) (S1x10000.size a)).extent (S1x1280.size a)) fun a => (Nat.zero_add _).trans_le (Pipeline.Clip.extent_le (Pipeline.Clip.ok_of (hstart0_6 i a)))).WholeWords (EltTy.packing .f32)

variable [Facts₀]

def dot_S1024x128_S1280x128_S1024x1280_1_1_0_0_n_n : DotDims S1024x128 S1280x128 S1024x1280 where
  lhsContracting := [1]
  rhsContracting := [1]
  lhsNonContracting := [0]
  rhsNonContracting := [0]
  lhsBatch := []
  rhsBatch := []
  wf := dot_S1024x128_S1280x128_S1024x1280_1_1_0_0_n_n_wf
def dot_S1280x1024_S1024x128_S1280x128_1_0_0_1_n_n : DotDims S1280x1024 S1024x128 S1280x128 where
  lhsContracting := [1]
  rhsContracting := [0]
  lhsNonContracting := [0]
  rhsNonContracting := [1]
  lhsBatch := []
  rhsBatch := []
  wf := dot_S1280x1024_S1024x128_S1280x128_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1280x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1280.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpecClip (Memref.whole main_v7_0) S1024x1280.size cc0_transform_4 reads0_4 true false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v7_1) S1280x128.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v7_2) S1x1280.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S10000x128 : Shape := ⟨2, ![10000, 128]⟩
abbrev S_ : Shape := ⟨0, ![]⟩
abbrev S8192x1 : Shape := ⟨2, ![8192, 1]⟩
abbrev S10000 : Shape := ⟨1, ![10000]⟩
abbrev S1x10000 : Shape := ⟨2, ![1, 10000]⟩
abbrev S8192x10000 : Shape := ⟨2, ![8192, 10000]⟩

abbrev nBuf : Space → Nat
  | .hbm => 33
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S10000x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S10000x128, .f32⟩
  | .hbm, ⟨8, _⟩ => ⟨S_, .f32⟩
  | .hbm, ⟨9, _⟩ => ⟨S10000, .f32⟩
  | .hbm, ⟨10, _⟩ => ⟨S1x10000, .f32⟩
  | .hbm, ⟨11, _⟩ => ⟨S8192x10000, .f32⟩
  | .hbm, ⟨12, _⟩ => ⟨S8192x10000, .f32⟩
  | .hbm, ⟨13, _⟩ => ⟨S8192x10000, .f32⟩
  | .hbm, ⟨14, _⟩ => ⟨S8192x10000, .f32⟩
  | .hbm, ⟨15, _⟩ => ⟨S_, .f32⟩
  | .hbm, ⟨16, _⟩ => ⟨S8192x10000, .f32⟩
  | .hbm, ⟨17, _⟩ => ⟨S8192x10000, .f32⟩
  | .hbm, ⟨18, _⟩ => ⟨S8192x10000, .f32⟩
  | .hbm, ⟨19, _⟩ => ⟨S_, .f32⟩
  | .hbm, ⟨20, _⟩ => ⟨S8192x10000, .f32⟩
  | .hbm, ⟨21, _⟩ => ⟨S8192x10000, .f32⟩
  | .hbm, ⟨22, _⟩ => ⟨S8192x10000, .f32⟩
  | .hbm, ⟨23, _⟩ => ⟨S_, .f32⟩
  | .hbm, ⟨24, _⟩ => ⟨S10000x128, .f32⟩
  | .hbm, ⟨25, _⟩ => ⟨S8192x1, .i32⟩
  | .hbm, ⟨26, _⟩ => ⟨S10000x128, .f32⟩
  | .hbm, ⟨27, _⟩ => ⟨S_, .f32⟩
  | .hbm, ⟨28, _⟩ => ⟨S8192, .f32⟩
  | .hbm, ⟨29, _⟩ => ⟨S_, .f32⟩
  | .hbm, ⟨30, _⟩ => ⟨S10000, .f32⟩
  | .hbm, ⟨31, _⟩ => ⟨S8192x1, .i32⟩
  | .hbm, ⟨32, _⟩ => ⟨S10000, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  reducesTo_S10000x128_S10000_d1 : S10000x128.ReducesTo [1] S10000
  bcast_S10000_S1x10000_1 : S10000.BroadcastsInDim S1x10000 (![1] : Fin 1 → Fin S1x10000.rank)
  bcast_S8192x1_S8192x10000_0_1 : S8192x1.BroadcastsInDim S8192x10000 (![0, 1] : Fin 2 → Fin S8192x10000.rank)
  bcast_S1x10000_S8192x10000_0_1 : S1x10000.BroadcastsInDim S8192x10000 (![0, 1] : Fin 2 → Fin S8192x10000.rank)
  bcast_S_S8192x10000 : S_.BroadcastsInDim S8192x10000 (![] : Fin 0 → Fin S8192x10000.rank)
  bcast_S_S10000x128 : S_.BroadcastsInDim S10000x128 (![] : Fin 0 → Fin S10000x128.rank)
  bcast_S_S8192 : S_.BroadcastsInDim S8192 (![] : Fin 0 → Fin S8192.rank)
  bcast_S_S10000 : S_.BroadcastsInDim S10000 (![] : Fin 0 → Fin S10000.rank)
  dot_S8192x128_S10000x128_S8192x10000_1_1_0_0_n_n_wf : DotDims.WF S8192x128 S10000x128 S8192x10000 [1] [1] [0] [0] [] []
  scatter_S10000x128_S8192x1_S8192x128_1_0_0_1_wf : ScatterDims.WF S10000x128 S8192x1 S8192x128 [1] [0] [0] 1
  scatter_S10000_S8192x1_S8192_n_0_0_1_wf : ScatterDims.WF S10000 S8192x1 S8192 [] [0] [0] 1

variable [Facts₀]

def dot_S8192x128_S10000x128_S8192x10000_1_1_0_0_n_n : DotDims S8192x128 S10000x128 S8192x10000 where
  lhsContracting := [1]
  rhsContracting := [1]
  lhsNonContracting := [0]
  rhsNonContracting := [0]
  lhsBatch := []
  rhsBatch := []
  wf := dot_S8192x128_S10000x128_S8192x10000_1_1_0_0_n_n_wf
def scatter_S10000x128_S8192x1_S8192x128_1_0_0_1 : ScatterDims S10000x128 S8192x1 S8192x128 where
  updateWindowDims := [1]
  insertedWindowDims := [0]
  scatterDimsToOperandDims := [0]
  indexVectorDim := 1
  wf := scatter_S10000x128_S8192x1_S8192x128_1_0_0_1_wf
def scatter_S10000_S8192x1_S8192_n_0_0_1 : ScatterDims S10000 S8192x1 S8192 where
  updateWindowDims := []
  insertedWindowDims := [0]
  scatterDimsToOperandDims := [0]
  indexVectorDim := 1
  wf := scatter_S10000_S8192x1_S8192_n_0_0_1_wf

class Facts : Prop extends Facts₀ where

variable [Facts]
-- ==== Proof.KIData.lean ====
/-
  What the kernel's staging buffers hold after its body at each grid point, as functions of the blocks the
  body is handed, and the pipeline's proof data over them. Point t is (class tile t / 8, batch tile t % 8).
  The scores block is recomputed at every point from the batch tile, the doubled prototype tile and the
  prototypes' squared lengths. The class-sum block and the class-count block are running sums over the eight
  batch tiles of one class tile: started from zero at batch tile 0, increased by the batch tile's
  contribution at every point, so after batch tile 7 they hold the class tile's totals.
-/
import proofs.«414162_j54133767799349_3_alg».proof.Proof.Gen.KernelIdeal.Frame
import proofs.«414162_j54133767799349_3_alg».proof.Proof.Gen.KernelIdeal.Skeleton

set_option maxRecDepth 16384

noncomputable section

namespace Cert.KernelIdeal.Gen

open Idealize.ShloMosaic Idealize.ShloMosaic.TcCoe
open Idealize.SL Idealize.SL.RA Idealize.SL.BI
open scoped Idealize.SL.BI
open Idealize.SL.Sem
open Idealize.ShloMosaic.Pipeline (Dat Cfg Window)

variable {F : FTy → Type} [FloatOps F]

/-- The 1024 batch rows of batch tile `i 1`, cut out of the resident batch. -/
def etile (i : grid0.Coords) (x0 : Vec F S8192x128 .f32) : Vec F S1024x128 .f32 :=
  View.ld x0 (Rect.unit (s := S8192x128) (k0_off1 i) S1024x128.size (k0_off1_inb i))

/-- The 1024 labels of batch tile `i 1`, cut out of the resident label row. -/
def ltile (i : grid0.Coords) (x1 : Vec F S1x8192 .i32) : Vec F S1x1024 .i32 :=
  View.ld x1 (Rect.unit (s := S1x8192) (k0_off2 i) S1x1024.size (k0_off2_inb i))

/-- The scores block of a point: from the batch tile, the doubled prototype tile `x2` and the prototypes'
    squared lengths `x3`. -/
def out4 (i : grid0.Coords) (x0 : Vec F S8192x128 .f32) (x2 : Vec F S1280x128 .f32) (x3 : Vec F S1x1280 .f32) :
    Vec F S1024x1280 .f32 :=
  k0_pay6 (etile i x0) x2 x3

/-- The class-sum block after a point: the block `y` found there plus the point's batch tile's contribution. -/
def out5 (i : grid0.Coords) (x0 : Vec F S8192x128 .f32) (x1 : Vec F S1x8192 .i32) (y : Vec F S1280x128 .f32) :
    Vec F S1280x128 .f32 :=
  k0_pay2 (etile i x0) (k0_pay5 (etile i x0)) (k0_pay8 i (ltile i x1)) y

/-- The class-count block after a point: the block `y` found there plus the point's batch tile's counts. -/
def out6 (i : grid0.Coords) (x1 : Vec F S1x8192 .i32) (y : Vec F S1x1280 .f32) : Vec F S1x1280 .f32 :=
  k0_pay1 (k0_pay9 i (ltile i x1)) y

variable (m : (ℓ : Loc nD τ sig) → Buf (Elt F) ℓ)

/-- The resident batch, the resident label row, the doubled prototype tile and the squared lengths at a point,
    at their literal types. -/
abbrev eblk (c : Dev nD) (t : Fin cfg0.N) : Vec F S8192x128 .f32 := iblk m c 0 t
abbrev lblk (c : Dev nD) (t : Fin cfg0.N) : Vec F S1x8192 .i32 := iblk m c 1 t
abbrev pblk (c : Dev nD) (t : Fin cfg0.N) : Vec F S1280x128 .f32 := iblk m c 2 t
abbrev qblk (c : Dev nD) (t : Fin cfg0.N) : Vec F S1x1280 .f32 := iblk m c 3 t

/-- The class-sum block after the body at position `n`: at batch tile 0 the point's contribution over zero, later
    over what the point before left. -/
def acc5 (c : Dev nD) : (n : ℕ) → n < cfg0.N → Vec F S1280x128 .f32
  | 0, hn => out5 (grid0.coords ⟨0, hn⟩) (eblk m c ⟨0, hn⟩) (lblk m c ⟨0, hn⟩) (k0_pay3 (F := F))
  | n + 1, hn =>
    if (n + 1) % 8 = 0 then
      out5 (grid0.coords ⟨n + 1, hn⟩) (eblk m c ⟨n + 1, hn⟩) (lblk m c ⟨n + 1, hn⟩) (k0_pay3 (F := F))
    else
      out5 (grid0.coords ⟨n + 1, hn⟩) (eblk m c ⟨n + 1, hn⟩) (lblk m c ⟨n + 1, hn⟩) (acc5 c n (Nat.lt_of_succ_lt hn))

/-- The class-count block after the body at position `n`, likewise. -/
def acc6 (c : Dev nD) : (n : ℕ) → n < cfg0.N → Vec F S1x1280 .f32
  | 0, hn => out6 (grid0.coords ⟨0, hn⟩) (lblk m c ⟨0, hn⟩) (k0_pay4 (F := F))
  | n + 1, hn =>
    if (n + 1) % 8 = 0 then
      out6 (grid0.coords ⟨n + 1, hn⟩) (lblk m c ⟨n + 1, hn⟩) (k0_pay4 (F := F))
    else
      out6 (grid0.coords ⟨n + 1, hn⟩) (lblk m c ⟨n + 1, hn⟩) (acc6 c n (Nat.lt_of_succ_lt hn))

/-- At batch tile 0 the running class sum restarts from zero. -/
theorem acc5_reset (c : Dev nD) (t : Fin cfg0.N) (h0 : t.val % 8 = 0) :
    acc5 m c t.val t.isLt = out5 (grid0.coords t) (eblk m c t) (lblk m c t) (k0_pay3 (F := F)) := by
  obtain ⟨n, hn⟩ := t
  cases n with
  | zero => rfl
  | succ n => exact (if_pos h0).trans rfl

/-- At a later batch tile it grows from what the point before left. -/
theorem acc5_step (c : Dev nD) (t : Fin cfg0.N) (h0 : ¬t.val % 8 = 0) :
    acc5 m c t.val t.isLt = out5 (grid0.coords t) (eblk m c t) (lblk m c t)
      (acc5 m c (t.val - 1) (Nat.lt_of_le_of_lt (Nat.sub_le _ _) t.isLt)) := by
  obtain ⟨n, hn⟩ := t
  cases n with
  | zero => exact absurd (Nat.zero_mod _) h0
  | succ n => exact (if_neg h0).trans rfl

theorem acc6_reset (c : Dev nD) (t : Fin cfg0.N) (h0 : t.val % 8 = 0) :
    acc6 m c t.val t.isLt = out6 (grid0.coords t) (lblk m c t) (k0_pay4 (F := F)) := by
  obtain ⟨n, hn⟩ := t
  cases n with
  | zero => rfl
  | succ n => exact (if_pos h0).trans rfl

theorem acc6_step (c : Dev nD) (t : Fin cfg0.N) (h0 : ¬t.val % 8 = 0) :
    acc6 m c t.val t.isLt = out6 (grid0.coords t) (lblk m c t)
      (acc6 m c (t.val - 1) (Nat.lt_of_le_of_lt (Nat.sub_le _ _) t.isLt)) := by
  obtain ⟨n, hn⟩ := t
  cases n with
  | zero => exact absurd (Nat.zero_mod _) h0
  | succ n => exact (if_neg h0).trans rfl

/-- The proof data of the one pipeline on core `c`: the arrays as the region finds them; after the body at point
    `t` each input's buffer at its block, the scores' buffer at the point's scores, the class sums' and counts'
    buffers at the running sums; the scoped rest as invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (grid0.coords t) (eblk m c t) (pblk m c t) (qblk m c t)
    | ⟨5, _⟩ => acc5 m c t.val t.isLt
    | ⟨6, _⟩ => acc6 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out4 (grid0.coords t) (eblk m c t) (pblk m c t) (qblk m c t) := by dsimp only [dats]
theorem after0_5 (c : Dev nD) (t : Fin cfg0.N) : (dats m 0 c).after 5 t = acc5 m c t.val t.isLt := by dsimp only [dats]
theorem after0_6 (c : Dev nD) (t : Fin cfg0.N) : (dats m 0 c).after 6 t = acc6 m c t.val t.isLt := by dsimp only [dats]

end Cert.KernelIdeal.Gen

end
-- ==== Proof.KIBody.lean ====
/-
  The kernel's body at every grid point, and the program's run around it. At batch tile 0 the body zeroes the
  class-sum and class-count blocks before it adds the tile's contribution; at a later batch tile it adds to what the
  point before left. The last class tile's blocks reach past the arrays' ends: of what a point leaves in such a block
  only the rows inside the array are kept for the next point, and a row of the new block depends only on the same row
  of the old one, so the rows inside the array are the running sums whatever the other rows hold.
-/
import proofs.«414162_j54133767799349_3_alg».proof.Proof.KIData
import Idealize.ShloMosaic.Lib.Pipeline.FrameBody
import Idealize.ShloMosaic.Lib.Pipeline.Value
import Idealize.ShloMosaic.Lib.Pipeline.FrameSuffix
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's one branch: taken exactly at batch tile 0. -/
abbrev cond0 (i : grid0.Coords) : Prop :=
  (Scalar.cmpi .ne (Scalar.extui (Scalar.cmpi .eq (BitVec.ofNat 32 (i 1).val) 0#32)) 0#32) = 1#1

theorem hcond0 : ∀ t : Fin cfg0.N, cond0 (grid0.coords t) ↔ t.val % 8 = 0 :=
  (by decide +kernel : ∀ t : Fin grid0.N, cond0 (grid0.coords t) ↔ t.val % 8 = 0)

/-! ## The body's run in its two cases

On whole staging buffers, the inputs' at their contents: at batch tile 0 the class-sum and class-count buffers may hold
anything and end at the tile's contribution over zero; at a later batch tile they hold `y5`, `y6` and end at the
contribution over those. The scores' buffer ends at the point's scores either way. -/

set_option maxHeartbeats 1000000 in
theorem kernelRun_A (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S1280x128 .f32) (harg4 : arg4.IsWhole) (arg5 : Memref sig .tc .vmem S1x1280 .f32) (harg5 : arg5.IsWhole) (arg6 : Memref sig .tc .vmem S1024x1280 .f32) (harg6 : arg6.IsWhole) (arg7 : Memref sig .tc .vmem S1280x128 .f32) (harg7 : arg7.IsWhole) (arg8 : Memref sig .tc .vmem S1x1280 .f32) (harg8 : arg8.IsWhole) (hc0 : cond0 i)
    (x0 : Vec F S8192x128 .f32) (x1 : Vec F S1x8192 .i32) (x2 : Vec F S1280x128 .f32) (x3 : Vec F S1x1280 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (out4 i x0 x2 x3)
                ∗ owns (c : Thread nD τ) arg7 fullShare (out5 i x0 x1 (k0_pay3 (F := F)))
                ∗ owns (c : Thread nD τ) arg8 fullShare (out6 i x1 (k0_pay4 (F := F)))) -∗ K ⟨⟩))
          ⊢ wp frame (wpE (defs₀ (F := F)) Variants.none c none) E (cc0__kernel i arg2 harg2 arg3 harg3 arg4 harg4 arg5 harg5 arg6 harg6 arg7 harg7 arg8 harg8) K := by
    intro E K
    have hz : (![0, 0] : Fin 2 → Nat) = fun _ => 0 := funext fun a => by fin_cases a <;> rfl
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_eq_canon _ _ _ (fun y => ⟨_, List.mem_singleton_self _, View.mem_set_unit_zero hz inb_S1024x1280_S1024x1280_0_0 y⟩), View.canon_unit_zero hz]
      simp only [View.readAt_eq_ld, harg2.read_unread, harg4.read_unread, harg5.read_unread, View.ld_unit_zero (S := S1280x128) hz, View.ld_unit_zero (S := S1x1280) hz]
      rfl
    isplitl [H5]
    · iexists _; isplitr; swap; · iexact H5
      ipureintro
      sl_unfold_words
      rw [View.read_writes_eq_canon _ _ _ (fun y => ⟨_, List.mem_cons_self, View.mem_set_unit_zero hz inb_S1280x128_S1280x128_0_0 y⟩), View.canon_cons_unit_zero (S := S1280x128) hz]
      simp only [View.readAt_eq_ld, harg2.read_unread, harg3.read_unread, View.readCov_unit_zero (S := S1280x128) _ hz]
      rfl
    iexists _; isplitr; swap; · iexact H6
    ipureintro
    sl_unfold_words
    rw [View.read_writes_eq_canon _ _ _ (fun y => ⟨_, List.mem_cons_self, View.mem_set_unit_zero hz inb_S1x1280_S1x1280_0_0 y⟩), View.canon_cons_unit_zero (S := S1x1280) hz]
    simp only [View.readAt_eq_ld, harg3.read_unread, View.readCov_unit_zero (S := S1x1280) _ hz]
    rfl

set_option maxHeartbeats 1000000 in
theorem kernelRun_B (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S1280x128 .f32) (harg4 : arg4.IsWhole) (arg5 : Memref sig .tc .vmem S1x1280 .f32) (harg5 : arg5.IsWhole) (arg6 : Memref sig .tc .vmem S1024x1280 .f32) (harg6 : arg6.IsWhole) (arg7 : Memref sig .tc .vmem S1280x128 .f32) (harg7 : arg7.IsWhole) (arg8 : Memref sig .tc .vmem S1x1280 .f32) (harg8 : arg8.IsWhole) (hc0 : ¬cond0 i)
    (x0 : Vec F S8192x128 .f32) (x1 : Vec F S1x8192 .i32) (x2 : Vec F S1280x128 .f32) (x3 : Vec F S1x1280 .f32) (y5 : Vec F S1280x128 .f32) (y6 : Vec F S1x1280 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y5 ∗ owns (c : Thread nD τ) arg8 fullShare y6
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (out4 i x0 x2 x3)
                ∗ owns (c : Thread nD τ) arg7 fullShare (out5 i x0 x1 y5)
                ∗ owns (c : Thread nD τ) arg8 fullShare (out6 i x1 y6)) -∗ K ⟨⟩))
          ⊢ wp frame (wpE (defs₀ (F := F)) Variants.none c none) E (cc0__kernel i arg2 harg2 arg3 harg3 arg4 harg4 arg5 harg5 arg6 harg6 arg7 harg7 arg8 harg8) K := by
    intro E K
    have hz : (![0, 0] : Fin 2 → Nat) = fun _ => 0 := funext fun a => by fin_cases a <;> rfl
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_eq_canon _ _ _ (fun y => ⟨_, List.mem_singleton_self _, View.mem_set_unit_zero hz inb_S1024x1280_S1024x1280_0_0 y⟩), View.canon_unit_zero hz]
      simp only [View.readAt_eq_ld, harg2.read_unread, harg4.read_unread, harg5.read_unread, View.ld_unit_zero (S := S1280x128) hz, View.ld_unit_zero (S := S1x1280) hz]
      rfl
    isplitl [H5]
    · iexists _; isplitr; swap; · iexact H5
      ipureintro
      sl_unfold_words
      rw [View.read_writes_eq_canon _ _ _ (fun y => ⟨_, List.mem_singleton_self _, View.mem_set_unit_zero hz inb_S1280x128_S1280x128_0_0 y⟩), View.canon_unit_zero hz]
      simp only [View.readAt_eq_ld, harg2.read_unread, harg3.read_unread, harg7.read_unread, View.ld_unit_zero (S := S1280x128) hz]
      rfl
    iexists _; isplitr; swap; · iexact H6
    ipureintro
    sl_unfold_words
    rw [View.read_writes_eq_canon _ _ _ (fun y => ⟨_, List.mem_singleton_self _, View.mem_set_unit_zero hz inb_S1x1280_S1x1280_0_0 y⟩), View.canon_unit_zero hz]
    simp only [View.readAt_eq_ld, harg3.read_unread, harg8.read_unread, View.ld_unit_zero (S := S1x1280) hz]
    rfl

/-! ## Within one class tile the clipped blocks are cut alike, and a row of a running block depends on the same row only -/

theorem xsize5_pred : ∀ t : Fin cfg0.N, t.val % 8 ≠ 0 → ∀ a,
    (cfg0.win 5).xsize (grid0.coords ⟨t.val - 1, Nat.lt_of_le_of_lt (Nat.sub_le _ _) t.isLt⟩) a = (cfg0.win 5).xsize (grid0.coords t) a :=
  (by decide +kernel : ∀ t : Fin grid0.N, t.val % 8 ≠ 0 → ∀ a : Fin 2,
    win0_5.xsize (grid0.coords ⟨t.val - 1, Nat.lt_of_le_of_lt (Nat.sub_le _ _) t.isLt⟩) a = win0_5.xsize (grid0.coords t) a)

theorem xsize6_pred : ∀ t : Fin cfg0.N, t.val % 8 ≠ 0 → ∀ a,
    (cfg0.win 6).xsize (grid0.coords ⟨t.val - 1, Nat.lt_of_le_of_lt (Nat.sub_le _ _) t.isLt⟩) a = (cfg0.win 6).xsize (grid0.coords t) a :=
  (by decide +kernel : ∀ t : Fin grid0.N, t.val % 8 ≠ 0 → ∀ a : Fin 2,
    win0_6.xsize (grid0.coords ⟨t.val - 1, Nat.lt_of_le_of_lt (Nat.sub_le _ _) t.isLt⟩) a = win0_6.xsize (grid0.coords t) a)

/-- Two class-sum blocks that agree at an entry still agree there after a point's contribution is added. -/
theorem out5_congr (i : grid0.Coords) (x0 : Vec F S8192x128 .f32) (x1 : Vec F S1x8192 .i32) (y y' : Vec F S1280x128 .f32)
    (k : S1280x128.Idx) (h : y k = y' k) : out5 i x0 x1 y k = out5 i x0 x1 y' k := by
  unfold out5 k0_pay2
  rw [shapeCast_self, shapeCast_self]
  show FloatOps.addf (y k) _ = FloatOps.addf (y' k) _
  rw [h]

/-- The same for the class counts. -/
theorem out6_congr (i : grid0.Coords) (x1 : Vec F S1x8192 .i32) (y y' : Vec F S1x1280 .f32)
    (k : S1x1280.Idx) (h : y k = y' k) : out6 i x1 y k = out6 i x1 y' k := by
  unfold out6 k0_pay1
  rw [shapeCast_self, shapeCast_self]
  show FloatOps.addf (y k) _ = FloatOps.addf (y' k) _
  rw [h]

/-- Each input's buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a later batch tile the class-sum buffer holds, on its part inside the array, what the point before left
    there: the buffer was not written back between, and within a class tile the part inside the array is the same. -/
theorem before0_5_step (c : Dev nD) (t : Fin cfg0.N) (h0 : ¬t.val % 8 = 0) (d)
    (j : ((cfg0.win 5).xblock (grid0.coords t)).Idx) :
    (dats m 0 c).before 5 t d ((cfg0.win 5).xinj (grid0.coords t) j)
      = acc5 m c (t.val - 1) (Nat.lt_of_le_of_lt (Nat.sub_le _ _) t.isLt) ((cfg0.win 5).xinj (grid0.coords t) j) := by
  have hN : t.val < 64 := lt_of_lt_of_eq t.isLt (show cfg0.N = 64 from N_0)
  rw [Dat.before_out_acc _ 5 rfl t (by omega)
    (Bool.eq_false_iff.mpr fun h => by have := (flush0_5 _).mp h; dsimp only at this; omega) (fun _ => rfl)]
  unfold Dat.kept
  rw [after0_5]
  have hm : (cfg0.win 5).moved (grid0.coords ⟨t.val - 1, Nat.lt_of_le_of_lt (Nat.sub_le _ _) t.isLt⟩) ((cfg0.win 5).xinj (grid0.coords t) j) = true :=
    ((cfg0.win 5).moved_iff _ _).mpr fun a => by rw [xsize5_pred t h0 a]; exact (j a).isLt
  unfold Window.fill
  rw [dif_pos hm]

theorem before0_6_step (c : Dev nD) (t : Fin cfg0.N) (h0 : ¬t.val % 8 = 0) (d)
    (j : ((cfg0.win 6).xblock (grid0.coords t)).Idx) :
    (dats m 0 c).before 6 t d ((cfg0.win 6).xinj (grid0.coords t) j)
      = acc6 m c (t.val - 1) (Nat.lt_of_le_of_lt (Nat.sub_le _ _) t.isLt) ((cfg0.win 6).xinj (grid0.coords t) j) := by
  have hN : t.val < 64 := lt_of_lt_of_eq t.isLt (show cfg0.N = 64 from N_0)
  rw [Dat.before_out_acc _ 6 rfl t (by omega)
    (Bool.eq_false_iff.mpr fun h => by have := (flush0_6 _).mp h; dsimp only at this; omega) (fun _ => rfl)]
  unfold Dat.kept
  rw [after0_6]
  have hm : (cfg0.win 6).moved (grid0.coords ⟨t.val - 1, Nat.lt_of_le_of_lt (Nat.sub_le _ _) t.isLt⟩) ((cfg0.win 6).xinj (grid0.coords t) j) = true :=
    ((cfg0.win 6).moved_iff _ _).mpr fun a => by rw [xsize6_pred t h0 a]; exact (j a).isLt
  unfold Window.fill
  rw [dif_pos hm]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: each clipped output's buffer stated on its part inside the array. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare ((cfg0.win 4).fill (grid0.coords t) d ((cfg0.win 4).cut (grid0.coords t) ((dats m 0 c).after 4 t))))
    ∗ (∃ d, owns (c : Thread nD τ) (st0_5 t) fullShare ((cfg0.win 5).fill (grid0.coords t) d ((cfg0.win 5).cut (grid0.coords t) ((dats m 0 c).after 5 t))))
    ∗ (∃ d, owns (c : Thread nD τ) (st0_6 t) fullShare ((cfg0.win 6).fill (grid0.coords t) d ((cfg0.win 6).cut (grid0.coords t) ((dats m 0 c).after 6 t)))))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h0 : t.val % 8 = 0
  · rw [acc5_reset m c t h0, acc6_reset m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun_A c (grid0.coords t) _ _ _ _ _ _ _ _ _ _ _ _ _ _ ((hcond0 t).mpr h0) (eblk m c t) (lblk m c t) (pblk m c t) (qblk m c t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists (out4 (grid0.coords t) (eblk m c t) (pblk m c t) (qblk m c t))
      rw [Window.fill_cut]; iexact H4
    isplitl [H5]
    · iexists (out5 (grid0.coords t) (eblk m c t) (lblk m c t) (k0_pay3 (F := F)))
      rw [Window.fill_cut]; iexact H5
    iexists (out6 (grid0.coords t) (lblk m c t) (k0_pay4 (F := F)))
    rw [Window.fill_cut]; iexact H6
  · rw [acc5_step m c t h0, acc6_step m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun_B c (grid0.coords t) _ _ _ _ _ _ _ _ _ _ _ _ _ _ (fun h => h0 ((hcond0 t).mp h)) (eblk m c t) (lblk m c t) (pblk m c t) (qblk m c t)
      ((dats m 0 c).before 5 t d5) ((dats m 0 c).before 6 t d6)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists (out4 (grid0.coords t) (eblk m c t) (pblk m c t) (qblk m c t))
      rw [Window.fill_cut]; iexact H4
    isplitl [H5]
    · iexists (out5 (grid0.coords t) (eblk m c t) (lblk m c t) ((dats m 0 c).before 5 t d5))
      rw [Window.fill_congr_cut (w := cfg0.win 5) (grid0.coords t) (funext fun j =>
        out5_congr (grid0.coords t) (eblk m c t) (lblk m c t) _ _ _ (before0_5_step m c t h0 d5 j))]
      iexact H5
    iexists (out6 (grid0.coords t) (lblk m c t) ((dats m 0 c).before 6 t d6))
    rw [Window.fill_congr_cut (w := cfg0.win 6) (grid0.coords t) (funext fun j =>
      out6_congr (grid0.coords t) (lblk m c t) _ _ _ (before0_6_step m c t h0 d6 j))]
    iexact H6

/-- The body obligation at every point, each clipped output's buffer stated on its part inside the array. -/
theorem body_obligation (c : Dev nD) :
    BodyObligationLoose (dats (F := F) m 0 c) (defs₀ (F := F)) Variants.none () Set.univ := fun t => by
  rw [bigSep_W0, bigSep_W0]
  exact sound_body m c t

set_option backward.isDefEq.respectTransparency.types false in
/-- Every weakly fair execution of the program terminates, with every array of the pipeline at what the proof data
    computes and every other buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Gen

end
-- ==== Proof.KBData.lean ====
/-
  What the kernel's staging buffers hold after its body at each grid point, as functions of the blocks the
  body is handed, and the pipeline's proof data over them. Point t is (class tile t / 8, batch tile t % 8).
  The scores block is recomputed at every point from the batch tile, the doubled prototype tile and the
  prototypes' squared lengths. The class-sum block and the class-count block are running sums over the eight
  batch tiles of one class tile: started from zero at batch tile 0, increased by the batch tile's
  contribution at every point, so after batch tile 7 they hold the class tile's totals.
-/
import proofs.«414162_j54133767799349_3_alg».proof.Proof.Gen.Kernel.Frame
import proofs.«414162_j54133767799349_3_alg».proof.Proof.Gen.Kernel.Skeleton

set_option maxRecDepth 16384

noncomputable section

namespace Cert.Kernel.Gen

open Idealize.ShloMosaic Idealize.ShloMosaic.TcCoe
open Idealize.SL Idealize.SL.RA Idealize.SL.BI
open scoped Idealize.SL.BI
open Idealize.SL.Sem
open Idealize.ShloMosaic.Pipeline (Dat Cfg Window)

variable {F : FTy → Type} [FloatOps F]

/-- The 1024 batch rows of batch tile `i 1`, cut out of the resident batch. -/
def etile (i : grid0.Coords) (x0 : Vec F S8192x128 .f32) : Vec F S1024x128 .f32 :=
  View.ld x0 (Rect.unit (s := S8192x128) (k0_off1 i) S1024x128.size (k0_off1_inb i))

/-- The 1024 labels of batch tile `i 1`, cut out of the resident label row. -/
def ltile (i : grid0.Coords) (x1 : Vec F S1x8192 .i32) : Vec F S1x1024 .i32 :=
  View.ld x1 (Rect.unit (s := S1x8192) (k0_off2 i) S1x1024.size (k0_off2_inb i))

/-- The scores block of a point: from the batch tile, the doubled prototype tile `x2` and the prototypes'
    squared lengths `x3`. -/
def out4 (i : grid0.Coords) (x0 : Vec F S8192x128 .f32) (x2 : Vec F S1280x128 .f32) (x3 : Vec F S1x1280 .f32) :
    Vec F S1024x1280 .f32 :=
  k0_pay6 (etile i x0) x2 x3

/-- The class-sum block after a point: the block `y` found there plus the point's batch tile's contribution. -/
def out5 (i : grid0.Coords) (x0 : Vec F S8192x128 .f32) (x1 : Vec F S1x8192 .i32) (y : Vec F S1280x128 .f32) :
    Vec F S1280x128 .f32 :=
  k0_pay2 (etile i x0) (k0_pay5 (etile i x0)) (k0_pay7 i (ltile i x1)) y

/-- The class-count block after a point: the block `y` found there plus the point's batch tile's counts. -/
def out6 (i : grid0.Coords) (x1 : Vec F S1x8192 .i32) (y : Vec F S1x1280 .f32) : Vec F S1x1280 .f32 :=
  k0_pay1 (k0_pay8 i (ltile i x1)) y

variable (m : (ℓ : Loc nD τ sig) → Buf (Elt F) ℓ)

/-- The resident batch, the resident label row, the doubled prototype tile and the squared lengths at a point,
    at their literal types. -/
abbrev eblk (c : Dev nD) (t : Fin cfg0.N) : Vec F S8192x128 .f32 := iblk m c 0 t
abbrev lblk (c : Dev nD) (t : Fin cfg0.N) : Vec F S1x8192 .i32 := iblk m c 1 t
abbrev pblk (c : Dev nD) (t : Fin cfg0.N) : Vec F S1280x128 .f32 := iblk m c 2 t
abbrev qblk (c : Dev nD) (t : Fin cfg0.N) : Vec F S1x1280 .f32 := iblk m c 3 t

/-- The class-sum block after the body at position `n`: at batch tile 0 the point's contribution over zero, later
    over what the point before left. -/
def acc5 (c : Dev nD) : (n : ℕ) → n < cfg0.N → Vec F S1280x128 .f32
  | 0, hn => out5 (grid0.coords ⟨0, hn⟩) (eblk m c ⟨0, hn⟩) (lblk m c ⟨0, hn⟩) (k0_pay3 (F := F))
  | n + 1, hn =>
    if (n + 1) % 8 = 0 then
      out5 (grid0.coords ⟨n + 1, hn⟩) (eblk m c ⟨n + 1, hn⟩) (lblk m c ⟨n + 1, hn⟩) (k0_pay3 (F := F))
    else
      out5 (grid0.coords ⟨n + 1, hn⟩) (eblk m c ⟨n + 1, hn⟩) (lblk m c ⟨n + 1, hn⟩) (acc5 c n (Nat.lt_of_succ_lt hn))

/-- The class-count block after the body at position `n`, likewise. -/
def acc6 (c : Dev nD) : (n : ℕ) → n < cfg0.N → Vec F S1x1280 .f32
  | 0, hn => out6 (grid0.coords ⟨0, hn⟩) (lblk m c ⟨0, hn⟩) (k0_pay4 (F := F))
  | n + 1, hn =>
    if (n + 1) % 8 = 0 then
      out6 (grid0.coords ⟨n + 1, hn⟩) (lblk m c ⟨n + 1, hn⟩) (k0_pay4 (F := F))
    else
      out6 (grid0.coords ⟨n + 1, hn⟩) (lblk m c ⟨n + 1, hn⟩) (acc6 c n (Nat.lt_of_succ_lt hn))

/-- At batch tile 0 the running class sum restarts from zero. -/
theorem acc5_reset (c : Dev nD) (t : Fin cfg0.N) (h0 : t.val % 8 = 0) :
    acc5 m c t.val t.isLt = out5 (grid0.coords t) (eblk m c t) (lblk m c t) (k0_pay3 (F := F)) := by
  obtain ⟨n, hn⟩ := t
  cases n with
  | zero => rfl
  | succ n => exact (if_pos h0).trans rfl

/-- At a later batch tile it grows from what the point before left. -/
theorem acc5_step (c : Dev nD) (t : Fin cfg0.N) (h0 : ¬t.val % 8 = 0) :
    acc5 m c t.val t.isLt = out5 (grid0.coords t) (eblk m c t) (lblk m c t)
      (acc5 m c (t.val - 1) (Nat.lt_of_le_of_lt (Nat.sub_le _ _) t.isLt)) := by
  obtain ⟨n, hn⟩ := t
  cases n with
  | zero => exact absurd (Nat.zero_mod _) h0
  | succ n => exact (if_neg h0).trans rfl

theorem acc6_reset (c : Dev nD) (t : Fin cfg0.N) (h0 : t.val % 8 = 0) :
    acc6 m c t.val t.isLt = out6 (grid0.coords t) (lblk m c t) (k0_pay4 (F := F)) := by
  obtain ⟨n, hn⟩ := t
  cases n with
  | zero => rfl
  | succ n => exact (if_pos h0).trans rfl

theorem acc6_step (c : Dev nD) (t : Fin cfg0.N) (h0 : ¬t.val % 8 = 0) :
    acc6 m c t.val t.isLt = out6 (grid0.coords t) (lblk m c t)
      (acc6 m c (t.val - 1) (Nat.lt_of_le_of_lt (Nat.sub_le _ _) t.isLt)) := by
  obtain ⟨n, hn⟩ := t
  cases n with
  | zero => exact absurd (Nat.zero_mod _) h0
  | succ n => exact (if_neg h0).trans rfl

/-- The proof data of the one pipeline on core `c`: the arrays as the region finds them; after the body at point
    `t` each input's buffer at its block, the scores' buffer at the point's scores, the class sums' and counts'
    buffers at the running sums; the scoped rest as invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (grid0.coords t) (eblk m c t) (pblk m c t) (qblk m c t)
    | ⟨5, _⟩ => acc5 m c t.val t.isLt
    | ⟨6, _⟩ => acc6 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out4 (grid0.coords t) (eblk m c t) (pblk m c t) (qblk m c t) := by dsimp only [dats]
theorem after0_5 (c : Dev nD) (t : Fin cfg0.N) : (dats m 0 c).after 5 t = acc5 m c t.val t.isLt := by dsimp only [dats]
theorem after0_6 (c : Dev nD) (t : Fin cfg0.N) : (dats m 0 c).after 6 t = acc6 m c t.val t.isLt := by dsimp only [dats]

end Cert.Kernel.Gen

end
-- ==== Proof.KBBody.lean ====
/-
  The kernel's body at every grid point, and the program's run around it. At batch tile 0 the body zeroes the
  class-sum and class-count blocks before it adds the tile's contribution; at a later batch tile it adds to what the
  point before left. The last class tile's blocks reach past the arrays' ends: of what a point leaves in such a block
  only the rows inside the array are kept for the next point, and a row of the new block depends only on the same row
  of the old one, so the rows inside the array are the running sums whatever the other rows hold.
-/
import proofs.«414162_j54133767799349_3_alg».proof.Proof.KBData
import Idealize.ShloMosaic.Lib.Pipeline.FrameBody
import Idealize.ShloMosaic.Lib.Pipeline.Value
import Idealize.ShloMosaic.Lib.Pipeline.FrameSuffix
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's one branch: taken exactly at batch tile 0. -/
abbrev cond0 (i : grid0.Coords) : Prop :=
  (Scalar.cmpi .ne (Scalar.extui (Scalar.cmpi .eq (BitVec.ofNat 32 (i 1).val) 0#32)) 0#32) = 1#1

theorem hcond0 : ∀ t : Fin cfg0.N, cond0 (grid0.coords t) ↔ t.val % 8 = 0 :=
  (by decide +kernel : ∀ t : Fin grid0.N, cond0 (grid0.coords t) ↔ t.val % 8 = 0)

/-! ## The body's run in its two cases

On whole staging buffers, the inputs' at their contents: at batch tile 0 the class-sum and class-count buffers may hold
anything and end at the tile's contribution over zero; at a later batch tile they hold `y5`, `y6` and end at the
contribution over those. The scores' buffer ends at the point's scores either way. -/

set_option maxHeartbeats 1000000 in
theorem kernelRun_A (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S1280x128 .f32) (harg4 : arg4.IsWhole) (arg5 : Memref sig .tc .vmem S1x1280 .f32) (harg5 : arg5.IsWhole) (arg6 : Memref sig .tc .vmem S1024x1280 .f32) (harg6 : arg6.IsWhole) (arg7 : Memref sig .tc .vmem S1280x128 .f32) (harg7 : arg7.IsWhole) (arg8 : Memref sig .tc .vmem S1x1280 .f32) (harg8 : arg8.IsWhole) (hc0 : cond0 i)
    (x0 : Vec F S8192x128 .f32) (x1 : Vec F S1x8192 .i32) (x2 : Vec F S1280x128 .f32) (x3 : Vec F S1x1280 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (out4 i x0 x2 x3)
                ∗ owns (c : Thread nD τ) arg7 fullShare (out5 i x0 x1 (k0_pay3 (F := F)))
                ∗ owns (c : Thread nD τ) arg8 fullShare (out6 i x1 (k0_pay4 (F := F)))) -∗ K ⟨⟩))
          ⊢ wp frame (wpE (defs₀ (F := F)) Variants.none c none) E (cc0__kernel i arg2 harg2 arg3 harg3 arg4 harg4 arg5 harg5 arg6 harg6 arg7 harg7 arg8 harg8) K := by
    intro E K
    have hz : (![0, 0] : Fin 2 → Nat) = fun _ => 0 := funext fun a => by fin_cases a <;> rfl
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_eq_canon _ _ _ (fun y => ⟨_, List.mem_singleton_self _, View.mem_set_unit_zero hz inb_S1024x1280_S1024x1280_0_0 y⟩), View.canon_unit_zero hz]
      simp only [View.readAt_eq_ld, harg2.read_unread, harg4.read_unread, harg5.read_unread, View.ld_unit_zero (S := S1280x128) hz, View.ld_unit_zero (S := S1x1280) hz]
      rfl
    isplitl [H5]
    · iexists _; isplitr; swap; · iexact H5
      ipureintro
      sl_unfold_words
      rw [View.read_writes_eq_canon _ _ _ (fun y => ⟨_, List.mem_cons_self, View.mem_set_unit_zero hz inb_S1280x128_S1280x128_0_0 y⟩), View.canon_cons_unit_zero (S := S1280x128) hz]
      simp only [View.readAt_eq_ld, harg2.read_unread, harg3.read_unread, View.readCov_unit_zero (S := S1280x128) _ hz]
      rfl
    iexists _; isplitr; swap; · iexact H6
    ipureintro
    sl_unfold_words
    rw [View.read_writes_eq_canon _ _ _ (fun y => ⟨_, List.mem_cons_self, View.mem_set_unit_zero hz inb_S1x1280_S1x1280_0_0 y⟩), View.canon_cons_unit_zero (S := S1x1280) hz]
    simp only [View.readAt_eq_ld, harg3.read_unread, View.readCov_unit_zero (S := S1x1280) _ hz]
    rfl

set_option maxHeartbeats 1000000 in
theorem kernelRun_B (c : Dev nD) (i : grid0.Coords) (arg2 : Memref sig .tc .vmem S8192x128 .f32) (harg2 : arg2.IsWhole) (arg3 : Memref sig .tc .vmem S1x8192 .i32) (harg3 : arg3.IsWhole) (arg4 : Memref sig .tc .vmem S1280x128 .f32) (harg4 : arg4.IsWhole) (arg5 : Memref sig .tc .vmem S1x1280 .f32) (harg5 : arg5.IsWhole) (arg6 : Memref sig .tc .vmem S1024x1280 .f32) (harg6 : arg6.IsWhole) (arg7 : Memref sig .tc .vmem S1280x128 .f32) (harg7 : arg7.IsWhole) (arg8 : Memref sig .tc .vmem S1x1280 .f32) (harg8 : arg8.IsWhole) (hc0 : ¬cond0 i)
    (x0 : Vec F S8192x128 .f32) (x1 : Vec F S1x8192 .i32) (x2 : Vec F S1280x128 .f32) (x3 : Vec F S1x1280 .f32) (y5 : Vec F S1280x128 .f32) (y6 : Vec F S1x1280 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare y5 ∗ owns (c : Thread nD τ) arg8 fullShare y6
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare (out4 i x0 x2 x3)
                ∗ owns (c : Thread nD τ) arg7 fullShare (out5 i x0 x1 y5)
                ∗ owns (c : Thread nD τ) arg8 fullShare (out6 i x1 y6)) -∗ K ⟨⟩))
          ⊢ wp frame (wpE (defs₀ (F := F)) Variants.none c none) E (cc0__kernel i arg2 harg2 arg3 harg3 arg4 harg4 arg5 harg5 arg6 harg6 arg7 harg7 arg8 harg8) K := by
    intro E K
    have hz : (![0, 0] : Fin 2 → Nat) = fun _ => 0 := funext fun a => by fin_cases a <;> rfl
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; swap; · iexact H4
      ipureintro
      rw [View.read_writes_eq_canon _ _ _ (fun y => ⟨_, List.mem_singleton_self _, View.mem_set_unit_zero hz inb_S1024x1280_S1024x1280_0_0 y⟩), View.canon_unit_zero hz]
      simp only [View.readAt_eq_ld, harg2.read_unread, harg4.read_unread, harg5.read_unread, View.ld_unit_zero (S := S1280x128) hz, View.ld_unit_zero (S := S1x1280) hz]
      rfl
    isplitl [H5]
    · iexists _; isplitr; swap; · iexact H5
      ipureintro
      sl_unfold_words
      rw [View.read_writes_eq_canon _ _ _ (fun y => ⟨_, List.mem_singleton_self _, View.mem_set_unit_zero hz inb_S1280x128_S1280x128_0_0 y⟩), View.canon_unit_zero hz]
      simp only [View.readAt_eq_ld, harg2.read_unread, harg3.read_unread, harg7.read_unread, View.ld_unit_zero (S := S1280x128) hz]
      rfl
    iexists _; isplitr; swap; · iexact H6
    ipureintro
    sl_unfold_words
    rw [View.read_writes_eq_canon _ _ _ (fun y => ⟨_, List.mem_singleton_self _, View.mem_set_unit_zero hz inb_S1x1280_S1x1280_0_0 y⟩), View.canon_unit_zero hz]
    simp only [View.readAt_eq_ld, harg3.read_unread, harg8.read_unread, View.ld_unit_zero (S := S1x1280) hz]
    rfl

/-! ## Within one class tile the clipped blocks are cut alike, and a row of a running block depends on the same row only -/

theorem xsize5_pred : ∀ t : Fin cfg0.N, t.val % 8 ≠ 0 → ∀ a,
    (cfg0.win 5).xsize (grid0.coords ⟨t.val - 1, Nat.lt_of_le_of_lt (Nat.sub_le _ _) t.isLt⟩) a = (cfg0.win 5).xsize (grid0.coords t) a :=
  (by decide +kernel : ∀ t : Fin grid0.N, t.val % 8 ≠ 0 → ∀ a : Fin 2,
    win0_5.xsize (grid0.coords ⟨t.val - 1, Nat.lt_of_le_of_lt (Nat.sub_le _ _) t.isLt⟩) a = win0_5.xsize (grid0.coords t) a)

theorem xsize6_pred : ∀ t : Fin cfg0.N, t.val % 8 ≠ 0 → ∀ a,
    (cfg0.win 6).xsize (grid0.coords ⟨t.val - 1, Nat.lt_of_le_of_lt (Nat.sub_le _ _) t.isLt⟩) a = (cfg0.win 6).xsize (grid0.coords t) a :=
  (by decide +kernel : ∀ t : Fin grid0.N, t.val % 8 ≠ 0 → ∀ a : Fin 2,
    win0_6.xsize (grid0.coords ⟨t.val - 1, Nat.lt_of_le_of_lt (Nat.sub_le _ _) t.isLt⟩) a = win0_6.xsize (grid0.coords t) a)

/-- Two class-sum blocks that agree at an entry still agree there after a point's contribution is added. -/
theorem out5_congr (i : grid0.Coords) (x0 : Vec F S8192x128 .f32) (x1 : Vec F S1x8192 .i32) (y y' : Vec F S1280x128 .f32)
    (k : S1280x128.Idx) (h : y k = y' k) : out5 i x0 x1 y k = out5 i x0 x1 y' k := by
  unfold out5 k0_pay2
  rw [shapeCast_self, shapeCast_self]
  show FloatOps.addf (y k) _ = FloatOps.addf (y' k) _
  rw [h]

/-- The same for the class counts. -/
theorem out6_congr (i : grid0.Coords) (x1 : Vec F S1x8192 .i32) (y y' : Vec F S1x1280 .f32)
    (k : S1x1280.Idx) (h : y k = y' k) : out6 i x1 y k = out6 i x1 y' k := by
  unfold out6 k0_pay1
  rw [shapeCast_self, shapeCast_self]
  show FloatOps.addf (y k) _ = FloatOps.addf (y' k) _
  rw [h]

/-- Each input's buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a later batch tile the class-sum buffer holds, on its part inside the array, what the point before left
    there: the buffer was not written back between, and within a class tile the part inside the array is the same. -/
theorem before0_5_step (c : Dev nD) (t : Fin cfg0.N) (h0 : ¬t.val % 8 = 0) (d)
    (j : ((cfg0.win 5).xblock (grid0.coords t)).Idx) :
    (dats m 0 c).before 5 t d ((cfg0.win 5).xinj (grid0.coords t) j)
      = acc5 m c (t.val - 1) (Nat.lt_of_le_of_lt (Nat.sub_le _ _) t.isLt) ((cfg0.win 5).xinj (grid0.coords t) j) := by
  have hN : t.val < 64 := lt_of_lt_of_eq t.isLt (show cfg0.N = 64 from N_0)
  rw [Dat.before_out_acc _ 5 rfl t (by omega)
    (Bool.eq_false_iff.mpr fun h => by have := (flush0_5 _).mp h; dsimp only at this; omega) (fun _ => rfl)]
  unfold Dat.kept
  rw [after0_5]
  have hm : (cfg0.win 5).moved (grid0.coords ⟨t.val - 1, Nat.lt_of_le_of_lt (Nat.sub_le _ _) t.isLt⟩) ((cfg0.win 5).xinj (grid0.coords t) j) = true :=
    ((cfg0.win 5).moved_iff _ _).mpr fun a => by rw [xsize5_pred t h0 a]; exact (j a).isLt
  unfold Window.fill
  rw [dif_pos hm]

theorem before0_6_step (c : Dev nD) (t : Fin cfg0.N) (h0 : ¬t.val % 8 = 0) (d)
    (j : ((cfg0.win 6).xblock (grid0.coords t)).Idx) :
    (dats m 0 c).before 6 t d ((cfg0.win 6).xinj (grid0.coords t) j)
      = acc6 m c (t.val - 1) (Nat.lt_of_le_of_lt (Nat.sub_le _ _) t.isLt) ((cfg0.win 6).xinj (grid0.coords t) j) := by
  have hN : t.val < 64 := lt_of_lt_of_eq t.isLt (show cfg0.N = 64 from N_0)
  rw [Dat.before_out_acc _ 6 rfl t (by omega)
    (Bool.eq_false_iff.mpr fun h => by have := (flush0_6 _).mp h; dsimp only at this; omega) (fun _ => rfl)]
  unfold Dat.kept
  rw [after0_6]
  have hm : (cfg0.win 6).moved (grid0.coords ⟨t.val - 1, Nat.lt_of_le_of_lt (Nat.sub_le _ _) t.isLt⟩) ((cfg0.win 6).xinj (grid0.coords t) j) = true :=
    ((cfg0.win 6).moved_iff _ _).mpr fun a => by rw [xsize6_pred t h0 a]; exact (j a).isLt
  unfold Window.fill
  rw [dif_pos hm]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: each clipped output's buffer stated on its part inside the array. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare ((cfg0.win 4).fill (grid0.coords t) d ((cfg0.win 4).cut (grid0.coords t) ((dats m 0 c).after 4 t))))
    ∗ (∃ d, owns (c : Thread nD τ) (st0_5 t) fullShare ((cfg0.win 5).fill (grid0.coords t) d ((cfg0.win 5).cut (grid0.coords t) ((dats m 0 c).after 5 t))))
    ∗ (∃ d, owns (c : Thread nD τ) (st0_6 t) fullShare ((cfg0.win 6).fill (grid0.coords t) d ((cfg0.win 6).cut (grid0.coords t) ((dats m 0 c).after 6 t)))))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h0 : t.val % 8 = 0
  · rw [acc5_reset m c t h0, acc6_reset m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun_A c (grid0.coords t) _ _ _ _ _ _ _ _ _ _ _ _ _ _ ((hcond0 t).mpr h0) (eblk m c t) (lblk m c t) (pblk m c t) (qblk m c t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists (out4 (grid0.coords t) (eblk m c t) (pblk m c t) (qblk m c t))
      rw [Window.fill_cut]; iexact H4
    isplitl [H5]
    · iexists (out5 (grid0.coords t) (eblk m c t) (lblk m c t) (k0_pay3 (F := F)))
      rw [Window.fill_cut]; iexact H5
    iexists (out6 (grid0.coords t) (lblk m c t) (k0_pay4 (F := F)))
    rw [Window.fill_cut]; iexact H6
  · rw [acc5_step m c t h0, acc6_step m c t h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun_B c (grid0.coords t) _ _ _ _ _ _ _ _ _ _ _ _ _ _ (fun h => h0 ((hcond0 t).mp h)) (eblk m c t) (lblk m c t) (pblk m c t) (qblk m c t)
      ((dats m 0 c).before 5 t d5) ((dats m 0 c).before 6 t d6)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]
    · iexists (out4 (grid0.coords t) (eblk m c t) (pblk m c t) (qblk m c t))
      rw [Window.fill_cut]; iexact H4
    isplitl [H5]
    · iexists (out5 (grid0.coords t) (eblk m c t) (lblk m c t) ((dats m 0 c).before 5 t d5))
      rw [Window.fill_congr_cut (w := cfg0.win 5) (grid0.coords t) (funext fun j =>
        out5_congr (grid0.coords t) (eblk m c t) (lblk m c t) _ _ _ (before0_5_step m c t h0 d5 j))]
      iexact H5
    iexists (out6 (grid0.coords t) (lblk m c t) ((dats m 0 c).before 6 t d6))
    rw [Window.fill_congr_cut (w := cfg0.win 6) (grid0.coords t) (funext fun j =>
      out6_congr (grid0.coords t) (lblk m c t) _ _ _ (before0_6_step m c t h0 d6 j))]
    iexact H6

/-- The body obligation at every point, each clipped output's buffer stated on its part inside the array. -/
theorem body_obligation (c : Dev nD) :
    BodyObligationLoose (dats (F := F) m 0 c) (defs₀ (F := F)) Variants.none () Set.univ := fun t => by
  rw [bigSep_W0, bigSep_W0]
  exact sound_body m c t

set_option backward.isDefEq.respectTransparency.types false in
/-- Every weakly fair execution of the program terminates, with every array of the pipeline at what the proof data
    computes and every other buffer as the lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Gen

end
-- ==== Proof.Spec.lean ====
/-
  The three results of the nearest-prototype step as whole-array functions of the arguments, over the
  extended reals: for every batch row and every class the negated squared distance of the row to the class's
  prototype, clamped at zero from above; for every class the sum of the batch rows labelled with it; for every
  class the number of such rows. A label is read signed, and a label that names no class counts for none.
-/
import Idealize.ShloMosaic.PureOps.Ideal
import Idealize.ShloMosaic.Lib.ValueIdx

open scoped BigOperators

noncomputable section

namespace Cert.Spec

open Idealize.ShloMosaic Idealize.ShloMosaic.ValueIdx

/-- The batch: 8192 rows of 128 coordinates. -/
abbrev SE : Shape := ⟨2, ![8192, 128]⟩
/-- One label per batch row. -/
abbrev SL : Shape := ⟨1, ![8192]⟩
/-- The prototypes: 10000 classes of 128 coordinates. -/
abbrev SP : Shape := ⟨2, ![10000, 128]⟩
/-- One score per batch row and class. -/
abbrev SS : Shape := ⟨2, ![8192, 10000]⟩
/-- One count per class. -/
abbrev SC : Shape := ⟨1, ![10000]⟩

/-- The float 2.0 as both programs spell it. -/
def two : EReal := Ideal.ofBits .f32 0x40000000#32

/-- The squared length of batch row `b`. -/
def sqE (e : SE.Idx → EReal) (b : Fin 8192) : EReal := ∑ d : Fin 128, e (ix2 b d) * e (ix2 b d)
/-- The squared length of prototype `j`. -/
def sqP (p : SP.Idx → EReal) (j : Fin 10000) : EReal := ∑ d : Fin 128, p (ix2 j d) * p (ix2 j d)
/-- The inner product of batch row `b` with prototype `j`. -/
def dotEP (e : SE.Idx → EReal) (p : SP.Idx → EReal) (b : Fin 8192) (j : Fin 10000) : EReal :=
  ∑ d : Fin 128, e (ix2 b d) * p (ix2 j d)

/-- The score of row `b` against class `j`: minus the squared distance |e_b|² + |p_j|² − 2 e_b·p_j, the distance
    clamped below at zero. -/
def scoreAt (e : SE.Idx → EReal) (p : SP.Idx → EReal) (b : Fin 8192) (j : Fin 10000) : EReal :=
  -(max ((sqE e b + sqP p j) - two * dotEP e p b j) 0)

/-- All scores. -/
def scores (e : SE.Idx → EReal) (p : SP.Idx → EReal) : SS.Idx → EReal :=
  fun i => scoreAt e p ⟨(i 0).val, (i 0).isLt⟩ ⟨(i 1).val, (i 1).isLt⟩

/-- Batch row `b` carries the label of class `j` (the label word read as a signed integer). -/
def Labelled (lab : SL.Idx → BitVec 32) (b : Fin 8192) (j : Fin 10000) : Prop := (lab (ix1 b)).toInt = (j.val : Int)

instance (lab : SL.Idx → BitVec 32) (b : Fin 8192) (j : Fin 10000) : Decidable (Labelled lab b j) := by
  unfold Labelled; infer_instance

/-- Coordinate `d` of the sum of the batch rows labelled `j`. -/
def updateAt (e : SE.Idx → EReal) (lab : SL.Idx → BitVec 32) (j : Fin 10000) (d : Fin 128) : EReal :=
  ∑ b : Fin 8192, if Labelled lab b j then e (ix2 b d) else 0

/-- All class sums. -/
def updates (e : SE.Idx → EReal) (lab : SL.Idx → BitVec 32) : SP.Idx → EReal :=
  fun i => updateAt e lab ⟨(i 0).val, (i 0).isLt⟩ ⟨(i 1).val, (i 1).isLt⟩

/-- The number of batch rows labelled `j`. -/
def countAt (lab : SL.Idx → BitVec 32) (j : Fin 10000) : EReal :=
  ∑ b : Fin 8192, if Labelled lab b j then (1 : EReal) else 0

/-- All class counts. -/
def counts (lab : SL.Idx → BitVec 32) : SC.Idx → EReal :=
  fun i => countAt lab ⟨(i 0).val, (i 0).isLt⟩

end Cert.Spec

end
-- ==== Proof.LibRealClosure.lean ====
/-
  Real-valuedness of extended-real arrays: closure of "is a real number" (neither +∞ nor −∞) under the
  operations a network's programs apply, stated both for the plain extended-real operation and for the
  operation as a program spells it at the ideal float values; with it the values of a few bit patterns,
  the power v ^ (-1/2) at v ≥ 1, the exponential, column maxima and minima, and the min–max normalisation.
-/
import Idealize.ShloMosaic.PureOps.Ideal
import Idealize.ShloMosaic.PureOps.Ideal.Laws
import Idealize.ShloMosaic.Lib.ValueIdx
import Mathlib.Data.EReal.Inv
import Mathlib.Analysis.SpecialFunctions.Pow.Real
import Mathlib.Data.Finset.Fold

open scoped BigOperators

namespace RealClosure

open Idealize.ShloMosaic Idealize.ShloMosaic.ValueIdx

/-- An extended real that is a real number. -/
@[reducible] def IsReal (x : EReal) : Prop := ∃ r : ℝ, x = (r : EReal)

/-! ## Basic facts -/

theorem isReal_coe (r : ℝ) : IsReal (r : EReal) := ⟨r, rfl⟩
theorem isReal_zero : IsReal 0 := ⟨0, rfl⟩
theorem isReal_one : IsReal 1 := ⟨1, rfl⟩
theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r
theorem isReal_of_ne {x : EReal} (hb : x ≠ ⊥) (ht : x ≠ ⊤) : IsReal x :=
  ⟨x.toReal, (EReal.coe_toReal ht hb).symm⟩
theorem isReal_iff {x : EReal} : IsReal x ↔ x ≠ ⊥ ∧ x ≠ ⊤ :=
  ⟨fun h => ⟨h.ne_bot, h.ne_top⟩, fun h => isReal_of_ne h.1 h.2⟩
theorem IsReal.coe_toReal {x : EReal} (h : IsReal x) : (x.toReal : EReal) = x :=
  EReal.coe_toReal h.ne_top h.ne_bot
/-- A real-valued family is the coercion of a family of reals. -/
theorem exists_real_fun {ι : Sort*} {f : ι → EReal} (h : ∀ i, IsReal (f i)) : ∃ g : ι → ℝ, f = fun i => (g i : EReal) :=
  ⟨fun i => (f i).toReal, funext fun i => (h i).coe_toReal.symm⟩

/-! ## The plain operations of the extended reals -/

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption
theorem IsReal.ite {p : Prop} [Decidable p] {x y : EReal} (hx : IsReal x) (hy : IsReal y) :
    IsReal (if p then x else y) := by
  split_ifs <;> assumption
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))
theorem isReal_sum_univ {ι : Type*} [Fintype ι] (f : ι → EReal) (h : ∀ i, IsReal (f i)) :
    IsReal (∑ i, f i) := isReal_sum _ f fun i _ => h i
/-- A sum of reals is the real sum. -/
theorem coe_finset_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]
/-- A sum over a set with an element, of positive reals, is positive. -/
theorem sum_pos_of_isReal {ι : Type*} (s : Finset ι) (f : ι → EReal) (h : ∀ i ∈ s, IsReal (f i))
    (hp : ∀ i ∈ s, 0 < f i) (hne : s.Nonempty) : 0 < ∑ i ∈ s, f i := by
  have e : ∑ i ∈ s, f i = ((∑ i ∈ s, (f i).toReal : ℝ) : EReal) := by
    rw [coe_finset_sum]
    exact Finset.sum_congr rfl fun i hi => (h i hi).coe_toReal.symm
  rw [e]
  exact EReal.coe_pos.2 (Finset.sum_pos (fun i hi => EReal.toReal_pos (hp i hi) (h i hi).ne_top) hne)

/-! ## The same operations as a program spells them at the ideal values -/

section Fields
variable {φ : FTy} {x y : Ideal φ}

theorem isReal_addf (hx : IsReal x) (hy : IsReal y) : IsReal (FloatOps.addf x y) := hx.add hy
theorem isReal_subf (hx : IsReal x) (hy : IsReal y) : IsReal (FloatOps.subf x y) := hx.sub hy
theorem isReal_mulf (hx : IsReal x) (hy : IsReal y) : IsReal (FloatOps.mulf x y) := hx.mul hy
theorem isReal_negf (hx : IsReal x) : IsReal (FloatOps.negf x) := hx.neg
theorem isReal_hostNegf (hx : IsReal x) : IsReal (FloatOps.hostNegf x) := hx.neg
theorem isReal_maximumf (hx : IsReal x) (hy : IsReal y) : IsReal (FloatOps.maximumf x y) := hx.max hy
theorem isReal_minimumf (hx : IsReal x) (hy : IsReal y) : IsReal (FloatOps.minimumf x y) := hx.min hy
theorem isReal_select {x y : EReal} (c : BitVec 1) (hx : IsReal x) (hy : IsReal y) : IsReal (Scalar.select c x y) := by
  unfold Scalar.select; split_ifs <;> assumption
theorem isReal_sitofp {w : Nat} (b : BitVec w) : IsReal (FloatOps.sitofp (F := Ideal) φ b) := ⟨_, rfl⟩
theorem isReal_uitofp {w : Nat} (b : BitVec w) : IsReal (FloatOps.uitofp (F := Ideal) φ b) := ⟨_, rfl⟩
theorem isReal_extf (ψ : FTy) (h : φ.bits < ψ.bits) (hx : IsReal x) : IsReal (FloatOps.extf ψ h x) := hx
theorem isReal_truncf (ψ : FTy) (h : ψ.bits < φ.bits) (hx : IsReal x) : IsReal (FloatOps.truncf ψ h x) := hx

end Fields

/-! ## Division -/

/-- The quotient of two reals, the divisor not zero, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem isReal_div {x y : EReal} (hx : IsReal x) (hy : IsReal y) (h0 : y ≠ 0) : IsReal (Ideal.div x y) := by
  obtain ⟨a, rfl⟩ := hx; obtain ⟨b, rfl⟩ := hy
  exact ⟨a / b, div_coe_coe a (EReal.coe_ne_zero.1 h0)⟩
theorem isReal_divf {φ : FTy} {x y : Ideal φ} (hx : IsReal x) (hy : IsReal y) (h0 : y ≠ 0) :
    IsReal (FloatOps.divf x y) := isReal_div hx hy h0
theorem isReal_hostDivf {φ : FTy} {x y : Ideal φ} (hx : IsReal x) (hy : IsReal y) (h0 : y ≠ 0) :
    IsReal (FloatOps.hostDivf x y) := isReal_div hx hy h0

/-- The value of the min–max normalisation in the reals: for `mn < mx` the quotient `(x - mn) / (mx - mn)`. -/
theorem div_sub_sub_coe (x mn mx : ℝ) (hlt : mn < mx) :
    Ideal.div ((x : EReal) - mn) ((mx : EReal) - mn) = (((x - mn) / (mx - mn) : ℝ) : EReal) := by
  rw [← EReal.coe_sub, ← EReal.coe_sub]
  exact div_coe_coe _ (sub_ne_zero.2 hlt.ne')
/-- The min–max normalisation: for reals with `mn < mx` the quotient `(x - mn) / (mx - mn)` is real. -/
theorem isReal_div_sub_sub {x mn mx : EReal} (hx : IsReal x) (hmn : IsReal mn) (hmx : IsReal mx) (hlt : mn < mx) :
    IsReal (Ideal.div (x - mn) (mx - mn)) := by
  obtain ⟨a, rfl⟩ := hx; obtain ⟨b, rfl⟩ := hmn; obtain ⟨c, rfl⟩ := hmx
  exact ⟨_, div_sub_sub_coe a b c (EReal.coe_lt_coe_iff.1 hlt)⟩

/-! ## Comparisons -/

theorem cmp_ogt_eq_one_iff {a b : EReal} : Ideal.cmp .ogt a b = 1#1 ↔ b < a := by
  show BitVec.ofBool (decide (b < a)) = 1#1 ↔ b < a
  by_cases h : b < a <;> simp [h]
theorem lt_of_cmp_ogt {a b : EReal} (h : Ideal.cmp .ogt a b = 1#1) : b < a := cmp_ogt_eq_one_iff.1 h
theorem lt_of_cmpf_ogt {φ : FTy} {a b : Ideal φ} (h : FloatOps.cmpf .ogt a b = 1#1) : b < a := cmp_ogt_eq_one_iff.1 h
theorem le_of_cmpf_ogt_ne {φ : FTy} {a b : Ideal φ} (h : FloatOps.cmpf .ogt a b ≠ 1#1) : a ≤ b :=
  not_lt.1 fun hlt => h (cmp_ogt_eq_one_iff.2 hlt)

/-! ## Bit patterns -/

theorem ofBits_one_f32 : Ideal.ofBits .f32 0x3F800000#32 = ((1 : ℝ) : EReal) := by
  simp [Ideal.ofBits, Ideal.ieee, -EReal.coe_mul, -EReal.coe_one]; norm_num
theorem ofBits_neg_half_f32 : Ideal.ofBits .f32 0xBF000000#32 = ((-1 / 2 : ℝ) : EReal) := by
  simp [Ideal.ofBits, Ideal.ieee, -EReal.coe_mul, -EReal.coe_neg]; norm_num
theorem ofBits_zero_f32 : Ideal.ofBits .f32 0x00000000#32 = 0 := Ideal.ofBits_zero_f32
theorem ofBits_neg_inf_f32 : Ideal.ofBits .f32 0xFF800000#32 = ⊥ := by simp [Ideal.ofBits, Ideal.ieee]
theorem ofBits_pos_inf_f32 : Ideal.ofBits .f32 0x7F800000#32 = ⊤ := by simp [Ideal.ofBits, Ideal.ieee]
/-- The pattern `0x3C23D70A` (the f32 nearest one hundredth) is a positive real. -/
theorem ofBits_hundredth_f32_pos : ∃ r : ℝ, 0 < r ∧ Ideal.ofBits .f32 0x3C23D70A#32 = (r : EReal) := by
  have h : Ideal.ofBits .f32 0x3C23D70A#32 = (((10737418 : ℝ) * (2 : ℝ) ^ (-30 : ℤ) : ℝ) : EReal) := by
    simp [Ideal.ofBits, Ideal.ieee, -EReal.coe_mul] <;> norm_num
  exact ⟨_, by positivity, h⟩
theorem isReal_ofBits_one_f32 : IsReal (Ideal.ofBits .f32 0x3F800000#32) := ⟨_, ofBits_one_f32⟩
theorem isReal_ofBits_neg_half_f32 : IsReal (Ideal.ofBits .f32 0xBF000000#32) := ⟨_, ofBits_neg_half_f32⟩
theorem isReal_ofBits_zero_f32 : IsReal (Ideal.ofBits .f32 0x00000000#32) := ⟨0, ofBits_zero_f32⟩
theorem isReal_ofBits_hundredth_f32 : IsReal (Ideal.ofBits .f32 0x3C23D70A#32) :=
  let ⟨r, _, h⟩ := ofBits_hundredth_f32_pos; ⟨r, h⟩

/-! ## The power `v ^ (-1/2)` at `v ≥ 1` -/

/-- For a real `v ≥ 1` the power `v ^ (-1/2)` is a positive real. -/
theorem pow_neg_half_coe {v : ℝ} (hv : 1 ≤ v) :
    ∃ r : ℝ, 0 < r ∧ Ideal.pow (v : EReal) ((-1 / 2 : ℝ) : EReal) = (r : EReal) :=
  ⟨Real.rpow v (-1 / 2), Real.rpow_pos_of_pos (lt_of_lt_of_le one_pos hv) _, Ideal.pow_coe_coe v (-1 / 2)⟩
/-- The same for an extended real known to be real and at least one, the exponent the pattern of `-0.5`. -/
theorem pow_neg_half_of_one_le {v : EReal} (hv : IsReal v) (h1 : 1 ≤ v) :
    ∃ r : ℝ, 0 < r ∧ Ideal.pow v (Ideal.ofBits .f32 0xBF000000#32) = (r : EReal) := by
  obtain ⟨r, rfl⟩ := hv
  rw [ofBits_neg_half_f32]
  exact pow_neg_half_coe (EReal.coe_le_coe_iff.1 (by rwa [EReal.coe_one]))
/-- As a program spells it: the host power of `max deg 1` to the pattern of `-0.5`, `deg` real. -/
theorem hostPowf_max_one_neg_half {deg : Ideal .f32} (hd : IsReal deg) :
    ∃ r : ℝ, 0 < r ∧ FloatOps.hostPowf (FloatOps.maximumf deg (Ideal.ofBits .f32 0x3F800000#32))
      (Ideal.ofBits .f32 0xBF000000#32) = (r : EReal) := by
  show ∃ r : ℝ, 0 < r ∧ Ideal.pow (max deg (Ideal.ofBits .f32 0x3F800000#32)) (Ideal.ofBits .f32 0xBF000000#32) = (r : EReal)
  have h1 : (1 : EReal) ≤ Ideal.ofBits .f32 0x3F800000#32 := by rw [ofBits_one_f32, EReal.coe_one]
  exact pow_neg_half_of_one_le (hd.max isReal_ofBits_one_f32) (le_max_of_le_right h1)

/-! ## The exponential -/

theorem exp_pos_of_isReal {x : EReal} (hx : IsReal x) : ∃ r : ℝ, 0 < r ∧ Ideal.exp x = (r : EReal) := by
  obtain ⟨a, rfl⟩ := hx; exact ⟨Real.exp a, Real.exp_pos a, Ideal.exp_coe a⟩
theorem isReal_exp {x : EReal} (hx : IsReal x) : IsReal (Ideal.exp x) :=
  let ⟨r, _, h⟩ := exp_pos_of_isReal hx; ⟨r, h⟩
theorem exp_pos {x : EReal} (hx : IsReal x) : 0 < Ideal.exp x := by
  obtain ⟨r, hr, h⟩ := exp_pos_of_isReal hx; rw [h]; exact EReal.coe_pos.2 hr
theorem isReal_hostExp {φ : FTy} {x : Ideal φ} (hx : IsReal x) : IsReal (FloatOps.hostUnary .exp x) := isReal_exp hx
theorem hostExp_pos {φ : FTy} {x : Ideal φ} (hx : IsReal x) : 0 < FloatOps.hostUnary .exp x := exp_pos hx
theorem isReal_expf {φ : FTy} {x : Ideal φ} (hx : IsReal x) : IsReal (FloatOps.exp x) := isReal_exp hx
theorem expf_pos {φ : FTy} {x : Ideal φ} (hx : IsReal x) : 0 < FloatOps.exp x := exp_pos hx

/-! ## Column reductions by maximum and minimum -/

section Columns
variable {R C : Nat}

/-- Over axis 0 of an `R × C` array the indices that drop to column `j` are those whose column is `j`. -/
theorem drop_eq_iff_col (h : (⟨2, ![R, C]⟩ : Shape).ReducesTo [0] (⟨1, ![C]⟩ : Shape))
    (i : (⟨2, ![R, C]⟩ : Shape).Idx) (j : (⟨1, ![C]⟩ : Shape).Idx) : h.drop i = j ↔ i 1 = j 0 := by
  have hv : (h.drop i 0 : Nat) = i 1 := Shape.ReducesTo.drop_apply_val h i 0
  constructor
  · intro e; apply Fin.ext; rw [← hv, e]
  · intro e; funext b
    obtain rfl : b = 0 := Subsingleton.elim _ _
    exact Fin.ext (hv.trans (congrArg Fin.val e))

/-- Entry `(r, j)` drops to column `j`. -/
theorem ix2_mem_fiber (h : (⟨2, ![R, C]⟩ : Shape).ReducesTo [0] (⟨1, ![C]⟩ : Shape)) (r : Fin R)
    (j : (⟨1, ![C]⟩ : Shape).Idx) :
    (ix2 r (j 0 : Fin C) : (⟨2, ![R, C]⟩ : Shape).Idx) ∈ Finset.univ.filter fun i : (⟨2, ![R, C]⟩ : Shape).Idx => h.drop i = j :=
  by rw [Finset.mem_filter]; exact ⟨Finset.mem_univ _, (drop_eq_iff_col h _ j).2 rfl⟩

/-- The column maximum from `-∞` of a real-valued array with at least one row is real and is at least every entry of the
    column. -/
theorem hostReduce_max_col (hR : 0 < R) (x : FVec Ideal ⟨2, ![R, C]⟩ .f32) (hx : ∀ i, IsReal (x i)) {u : Shape}
    (init : u.Idx → Ideal .f32) (hu : 0 < u.numel) (hinit : init (Shape.Idx.first hu) = ⊥)
    (h : (⟨2, ![R, C]⟩ : Shape).ReducesTo [0] (⟨1, ![C]⟩ : Shape)) (j : (⟨1, ![C]⟩ : Shape).Idx) :
    IsReal (Host.reduce (FloatOps.maximumf (F := Ideal) (φ := .f32)) x init h hu j)
      ∧ ∀ r : Fin R, x (ix2 r (j 0 : Fin C)) ≤ Host.reduce (FloatOps.maximumf (F := Ideal) (φ := .f32)) x init h hu j := by
  have key : Host.reduce (FloatOps.maximumf (F := Ideal) (φ := .f32)) x init h hu j
      = (Finset.univ.filter fun i : (⟨2, ![R, C]⟩ : Shape).Idx => h.drop i = j).fold max ⊥ x := by
    rw [Host.reduce_eq_fold, hinit]; rfl
  rw [key]
  have h0 := ix2_mem_fiber h ⟨0, hR⟩ j
  refine ⟨isReal_of_ne ?_ ?_, fun r => (Finset.le_fold_max _).2 (Or.inr ⟨_, ix2_mem_fiber h r j, le_rfl⟩)⟩
  · exact ((Finset.lt_fold_max _).2 (Or.inr ⟨_, h0, bot_lt_iff_ne_bot.2 (hx _).ne_bot⟩)).ne'
  · exact ((Finset.fold_max_lt _).2 ⟨bot_lt_top, fun i _ => lt_top_iff_ne_top.2 (hx i).ne_top⟩).ne

/-- The column minimum from `+∞` of a real-valued array with at least one row is real and is at most every entry of the
    column. -/
theorem hostReduce_min_col (hR : 0 < R) (x : FVec Ideal ⟨2, ![R, C]⟩ .f32) (hx : ∀ i, IsReal (x i)) {u : Shape}
    (init : u.Idx → Ideal .f32) (hu : 0 < u.numel) (hinit : init (Shape.Idx.first hu) = ⊤)
    (h : (⟨2, ![R, C]⟩ : Shape).ReducesTo [0] (⟨1, ![C]⟩ : Shape)) (j : (⟨1, ![C]⟩ : Shape).Idx) :
    IsReal (Host.reduce (FloatOps.minimumf (F := Ideal) (φ := .f32)) x init h hu j)
      ∧ ∀ r : Fin R, Host.reduce (FloatOps.minimumf (F := Ideal) (φ := .f32)) x init h hu j ≤ x (ix2 r (j 0 : Fin C)) := by
  have key : Host.reduce (FloatOps.minimumf (F := Ideal) (φ := .f32)) x init h hu j
      = (Finset.univ.filter fun i : (⟨2, ![R, C]⟩ : Shape).Idx => h.drop i = j).fold min ⊤ x := by
    rw [Host.reduce_eq_fold, hinit]; rfl
  rw [key]
  have h0 := ix2_mem_fiber h ⟨0, hR⟩ j
  refine ⟨isReal_of_ne ?_ ?_, fun r => (Finset.fold_min_le _).2 (Or.inr ⟨_, ix2_mem_fiber h r j, le_rfl⟩)⟩
  · exact ((Finset.lt_fold_min _).2 ⟨bot_lt_top, fun i _ => bot_lt_iff_ne_bot.2 (hx i).ne_bot⟩).ne'
  · exact ((Finset.fold_min_lt _).2 (Or.inr ⟨_, h0, lt_top_iff_ne_top.2 (hx _).ne_top⟩)).ne

/-- The same with the initial value the constant a program prints, the pattern of `-∞`. -/
theorem hostReduce_max_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.maximumf (F := Ideal) (φ := .f32)) x (constant (F := Ideal) u .f32 0xFF800000#32) h hu j)
      ∧ ∀ r : Fin R, x (ix2 r (j 0 : Fin C)) ≤ Host.reduce (FloatOps.maximumf (F := Ideal) (φ := .f32)) x (constant (F := Ideal) u .f32 0xFF800000#32) h hu j :=
  hostReduce_max_col hR x hx _ hu ofBits_neg_inf_f32 h j

/-- The same with the initial value the constant a program prints, the pattern of `+∞`. -/
theorem hostReduce_min_col_const (hR : 0 < R) (x : FVec Ideal ⟨2, ![R, C]⟩ .f32) (hx : ∀ i, IsReal (x i)) {u : Shape}
    (hu : 0 < u.numel) (h : (⟨2, ![R, C]⟩ : Shape).ReducesTo [0] (⟨1, ![C]⟩ : Shape)) (j : (⟨1, ![C]⟩ : Shape).Idx) :
    IsReal (Host.reduce (FloatOps.minimumf (F := Ideal) (φ := .f32)) x (constant (F := Ideal) u .f32 0x7F800000#32) h hu j)
      ∧ ∀ r : Fin R, Host.reduce (FloatOps.minimumf (F := Ideal) (φ := .f32)) x (constant (F := Ideal) u .f32 0x7F800000#32) h hu j ≤ x (ix2 r (j 0 : Fin C)) :=
  hostReduce_min_col hR x hx _ hu ofBits_pos_inf_f32 h j

/-- The column minimum is at most the column maximum. -/
theorem hostReduce_min_le_max_col (hR : 0 < R) (x : FVec Ideal ⟨2, ![R, C]⟩ .f32) (hx : ∀ i, IsReal (x i)) {u u' : Shape}
    (init : u.Idx → Ideal .f32) (hu : 0 < u.numel) (hinit : init (Shape.Idx.first hu) = ⊤)
    (init' : u'.Idx → Ideal .f32) (hu' : 0 < u'.numel) (hinit' : init' (Shape.Idx.first hu') = ⊥)
    (h h' : (⟨2, ![R, C]⟩ : Shape).ReducesTo [0] (⟨1, ![C]⟩ : Shape)) (j : (⟨1, ![C]⟩ : Shape).Idx) :
    Host.reduce (FloatOps.minimumf (F := Ideal) (φ := .f32)) x init h hu j
      ≤ Host.reduce (FloatOps.maximumf (F := Ideal) (φ := .f32)) x init' h' hu' j :=
  ((hostReduce_min_col hR x hx init hu hinit h j).2 ⟨0, hR⟩).trans
    ((hostReduce_max_col hR x hx init' hu' hinit' h' j).2 ⟨0, hR⟩)

/-- The column sum from a real initial value of a real-valued array is real; from zero, of positive entries over at least
    one row, it is positive. -/
theorem hostReduceAdd_col_pos (hR : 0 < R) (x : (⟨2, ![R, C]⟩ : Shape).Idx → EReal) (hx : ∀ i, IsReal (x i))
    (hp : ∀ i, 0 < x i) (h : (⟨2, ![R, C]⟩ : Shape).ReducesTo [0] (⟨1, ![C]⟩ : Shape)) (j : (⟨1, ![C]⟩ : Shape).Idx) :
    0 < Ideal.hostReduceAdd h x 0 j := by
  show 0 < (0 : EReal) + ∑ i ∈ Finset.univ.filter (fun i => h.drop i = j), x i
  rw [zero_add]
  exact sum_pos_of_isReal _ x (fun i _ => hx i) (fun i _ => hp i) ⟨_, ix2_mem_fiber h ⟨0, hR⟩ j⟩

/-- The same for the host sum as a program spells it, its initial value zero. -/
theorem reduceAdd_col_pos (hR : 0 < R) {φ : FTy} (x : FVec Ideal ⟨2, ![R, C]⟩ φ) (hx : ∀ i, IsReal (x i))
    (hp : ∀ i, 0 < x i) {u : Shape} (init : u.Idx → Ideal φ) (hu : 0 < u.numel) (hinit : init (Shape.Idx.first hu) = 0)
    (h : (⟨2, ![R, C]⟩ : Shape).ReducesTo [0] (⟨1, ![C]⟩ : Shape)) (j : (⟨1, ![C]⟩ : Shape).Idx) :
    0 < Host.reduceAdd x init h hu j := by
  show 0 < Ideal.hostReduceAdd h x (init (Shape.Idx.first hu)) j
  rw [hinit]
  exact hostReduceAdd_col_pos hR x hx hp h j

end Columns

/-! ## Contractions, scatters and sums -/

section Contract
variable {sl sr so : Shape}

theorem isReal_matmul (d : DotDims sl sr so) (lhs : sl.Idx → EReal) (rhs : sr.Idx → EReal) (acc : so.Idx → EReal)
    (hl : ∀ i, IsReal (lhs i)) (hr : ∀ i, IsReal (rhs i)) (ha : ∀ j, IsReal (acc j)) (j : so.Idx) :
    IsReal (Ideal.matmul d lhs rhs acc j) :=
  (ha j).add (isReal_sum_univ _ fun k => (hl _).mul (hr _))

theorem isReal_matmulf {φ₁ φ₂ : FTy} (d : DotDims sl sr so) (prec : Option ContractPrecision) (lhs : FVec Ideal sl φ₁)
    (rhs : FVec Ideal sr φ₂) (acc : FVec Ideal so .f32) (hl : ∀ i, IsReal (lhs i)) (hr : ∀ i, IsReal (rhs i))
    (ha : ∀ j, IsReal (acc j)) (j : so.Idx) : IsReal (FloatOps.matmul d prec lhs rhs acc j) :=
  isReal_matmul d lhs rhs acc hl hr ha j

theorem isReal_dotGeneral {φ₁ φ₂ : FTy} (d : DotDims sl sr so) (prec : Option ContractPrecision) (sched : HostSchedule)
    (lhs : FVec Ideal sl φ₁) (rhs : FVec Ideal sr φ₂) (hl : ∀ i, IsReal (lhs i)) (hr : ∀ i, IsReal (rhs i)) (j : so.Idx) :
    IsReal (FloatOps.dotGeneral d prec sched lhs rhs j) :=
  isReal_matmul d lhs rhs (fun _ => 0) hl hr (fun _ => isReal_zero) j

theorem isReal_hostDotGeneral {φ₁ φ₂ : FTy} (d : DotDims sl sr so) (prec : Option ContractPrecision)
    (lhs : FVec Ideal sl φ₁) (rhs : FVec Ideal sr φ₂) (hl : ∀ i, IsReal (lhs i)) (hr : ∀ i, IsReal (rhs i)) (j : so.Idx) :
    IsReal (Host.dotGeneral d prec lhs rhs j) :=
  isReal_dotGeneral d prec .single lhs rhs hl hr j

end Contract

/-- A gather reads the operand: real when the operand is. -/
theorem isReal_gather {s si t : Shape} {w : Nat} (d : GatherDims s si t) (x : s.Idx → EReal) (idx : IVec si w)
    (hx : ∀ i, IsReal (x i)) (j : t.Idx) : IsReal (Host.gather d x idx j) :=
  hx _

theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) :=
  (hx i).add (isReal_sum _ _ fun j _ => hu j)

theorem isReal_scatterAdd {s si su : Shape} {φ : FTy} (d : ScatterDims s si su) {w : Nat} (x : FVec Ideal s φ)
    (idx : IVec si w) (upd : FVec Ideal su φ) (hx : ∀ i, IsReal (x i)) (hu : ∀ j, IsReal (upd j)) (i : s.Idx) :
    IsReal (Host.scatterAdd d x idx upd i) :=
  isReal_hostScatterAdd d x idx upd hx hu i

theorem isReal_hostReduceAdd {s t : Shape} {axes : List (Fin s.rank)} (h : s.ReducesTo axes t) (x : s.Idx → EReal)
    (init : EReal) (hx : ∀ i, IsReal (x i)) (hi : IsReal init) (j : t.Idx) :
    IsReal (Ideal.hostReduceAdd h x init j) :=
  hi.add (isReal_sum _ _ fun i _ => hx i)

theorem isReal_reduceAdd {s t u : Shape} {φ : FTy} {axes : List (Fin s.rank)} (x : FVec Ideal s φ)
    (init : u.Idx → Ideal φ) (h : s.ReducesTo axes t) (hu : 0 < u.numel) (hx : ∀ i, IsReal (x i))
    (hi : IsReal (init (Shape.Idx.first hu))) (j : t.Idx) : IsReal (Host.reduceAdd x init h hu j) :=
  isReal_hostReduceAdd h x _ hx hi j

end RealClosure
-- ==== Proof.KIBlocks.lean ====
/-
  The blocks the kernel's body is handed at a grid point, read at an index, as functions of the three argument
  arrays: point t is class tile t / 8 and batch tile t % 8. The batch tile is rows (t % 8)·1024 … of the batch; the label
  tile the same stretch of the labels; the prototype tile is rows (t / 8)·1280 … of the prototypes padded with 240
  zero rows and doubled; the squared lengths are those of the padded prototypes' rows.
-/
import proofs.«414162_j54133767799349_3_alg».proof.Proof.KIData
import proofs.«414162_j54133767799349_3_alg».proof.Proof.Spec
import proofs.«414162_j54133767799349_3_alg».proof.Proof.LibRealClosure
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

set_option maxRecDepth 16384

open scoped BigOperators

noncomputable section

namespace Cert.KernelIdeal.Val

open Cert.KernelIdeal Cert.KernelIdeal.Gen
open Idealize.ShloMosaic Idealize.ShloMosaic.TcCoe Idealize.ShloMosaic.ValueIdx
open Idealize.SL.Sem
open RealClosure

variable (m : (ℓ : Loc nD τ sig) → Buf (Elt Ideal) ℓ)

/-- The batch, the labels and the prototypes as launched on core `c`. -/
abbrev argE (c : Dev nD) : Cert.Spec.SE.Idx → EReal := m ((c : Thread nD τ).loc main_arg0)
abbrev argL (c : Dev nD) : Cert.Spec.SL.Idx → BitVec 32 := m ((c : Thread nD τ).loc main_arg1)
abbrev argP (c : Dev nD) : Cert.Spec.SP.Idx → EReal := m ((c : Thread nD τ).loc main_arg2)

/-- The prototypes padded to 10240 rows with zero rows. -/
def padP (p : Cert.Spec.SP.Idx → EReal) (r : Fin 10240) (d : Fin 128) : EReal :=
  if h : r.val < 10000 then p (ix2 ⟨r.val, h⟩ d) else 0

/-- The grid is 8 by 8 and is walked row by row: point `t` has class tile t / 8 and batch tile t % 8. -/
theorem coords_both : ∀ t : Fin grid0.N, ((grid0.coords t) 0).val = t.val / 8 ∧ ((grid0.coords t) 1).val = t.val % 8 := by
  decide +kernel

/-- Point `t`'s class tile and batch tile. -/
theorem coords_0 (t : Fin cfg0.N) : ((grid0.coords t) 0).val = t.val / 8 := (coords_both t).1
theorem coords_1 (t : Fin cfg0.N) : ((grid0.coords t) 1).val = t.val % 8 := (coords_both t).2

/-- Which block of its array each input window holds at point `t`: the batch and the label row are one block each
    (block 0 on both axes); the doubled prototypes are cut into row blocks and the squared lengths into column blocks,
    and both take block t / 8. -/
theorem idx_facts : ∀ t : Fin grid0.N,
    win0_0.index t (0 : Fin 2) = 0 ∧ win0_0.index t (1 : Fin 2) = 0 ∧ win0_1.index t (0 : Fin 2) = 0 ∧ win0_1.index t (1 : Fin 2) = 0 ∧
    win0_2.index t (0 : Fin 2) = t.val / 8 ∧ win0_2.index t (1 : Fin 2) = 0 ∧ win0_3.index t (0 : Fin 2) = 0 ∧ win0_3.index t (1 : Fin 2) = t.val / 8 := by
  decide +kernel

/-! ## The batch tile -/

/-- The batch tile of a point with batch tile `i 1` is 1024 consecutive rows of the resident batch, from row
    1024 · (i 1): entry (b, d) of the tile is entry (1024 · (i 1) + b, d) of the batch. -/
theorem etile_at (i : grid0.Coords) (x0 : Vec Ideal S8192x128 .f32) (b : Fin 1024) (d : Fin 128) (r : Fin 8192)
    (hr : r.val = 1024 * (i 1).val + b.val) : etile i x0 (ix2 b d) = x0 (ix2 r d) := by
  unfold etile
  show x0 ((Rect.unit (s := S8192x128) (k0_off1 i) S1024x128.size (k0_off1_inb i)).idx (ix2 b d)) = _
  refine congrArg x0 (funext fun a => Fin.ext ?_)
  match a with
  | ⟨0, _⟩ =>
    show k0_off1 i 0 + 1 * b.val = r.val
    rw [k0_off1_eq]
    show 1024 * (i 1).val + 1 * b.val = r.val
    omega
  | ⟨1, _⟩ =>
    show k0_off1 i 1 + 1 * d.val = d.val
    rw [k0_off1_eq]
    show 0 + 1 * d.val = d.val
    omega

/-- The resident batch at any point is the whole batch as launched: its window has one block, and no host operation
    writes the batch before the region. -/
theorem eblk_at (c : Dev nD) (t : Fin cfg0.N) (r : Fin 8192) (d : Fin 128) : eblk m c t (ix2 r d) = argE m c (ix2 r d) := by
  show V m c main_arg0 (((cfg0.win 0).blk t).view.emb (ix2 r d)) = _
  refine (congrFun (V_main_arg0 m c) _).trans ?_
  refine congrArg (m ((c : Thread nD τ).loc main_arg0)) (funext fun a => Fin.ext ?_)
  obtain ⟨e0, e1, -⟩ := idx_facts t
  match a with
  | ⟨0, _⟩ =>
    show win0_0.index t (0 : Fin 2) * 8192 + 1 * r.val = r.val
    rw [e0]; omega
  | ⟨1, _⟩ =>
    show win0_0.index t (1 : Fin 2) * 128 + 1 * d.val = d.val
    rw [e1]; omega

/-- Row `b` of point `t`'s batch tile is row (t % 8)·1024 + b of the batch. -/
theorem etile_apply (c : Dev nD) (t : Fin cfg0.N) (b : Fin 1024) (d : Fin 128) :
    etile (grid0.coords t) (eblk m c t) (ix2 b d)
      = argE m c (ix2 ⟨t.val % 8 * 1024 + b.val, by have := b.isLt; omega⟩ d) := by
  refine (etile_at (grid0.coords t) (eblk m c t) b d ⟨t.val % 8 * 1024 + b.val, by have := b.isLt; omega⟩ ?_).trans
    (eblk_at m c t _ d)
  show t.val % 8 * 1024 + b.val = 1024 * ((grid0.coords t) 1).val + b.val
  rw [coords_1]; omega

/-! ## The label tile -/

/-- The label row as the region finds it: the labels, recast from one axis to a leading unit axis. -/
theorem v6_eq (c : Dev nD) : (V m c main_v6 : S1x8192.Idx → BitVec 32)
    = shapeCast S1x8192 (m ((c : Thread nD τ).loc main_arg1)) shapeCasts_S8192_S1x8192 := by
  dsimp only [Gen.V, Gen.V0]
  simp only [Gen.hostOps0, Gen.hostOps0_1, Gen.hostOps0_2, List.flatten_cons, List.flatten_nil, List.append_nil,
    List.cons_append, List.nil_append]
  after_results
  rfl

/-- Entry (0, r) of the recast labels is label r: the two have the same place in row-major order. -/
theorem reshapeL_at (x : S8192.Idx → BitVec 32) (j : S1x8192.Idx) (r : Fin 8192) (h0 : (j 0).val = 0)
    (h1 : (j 1).val = r.val) : shapeCast S1x8192 x shapeCasts_S8192_S1x8192 j = x (ix1 r) := by
  refine shapeCast_apply x shapeCasts_S8192_S1x8192 j (ix1 r) ?_
  rw [Shape.rowMajor_val_one, Shape.rowMajor_val_two]
  show r.val = (j 0).val * 8192 + (j 1).val
  omega

/-- The label tile of a point with batch tile `i 1` is 1024 consecutive entries of the resident label row, from
    entry 1024 · (i 1). -/
theorem ltile_at (i : grid0.Coords) (x1 : Vec Ideal S1x8192 .i32) (b : Fin 1024) (r : Fin 8192)
    (hr : r.val = 1024 * (i 1).val + b.val) : ltile i x1 (ix2 (0 : Fin 1) b) = x1 (ix2 (0 : Fin 1) r) := by
  unfold ltile
  show x1 ((Rect.unit (s := S1x8192) (k0_off2 i) S1x1024.size (k0_off2_inb i)).idx (ix2 (0 : Fin 1) b)) = _
  refine congrArg x1 (funext fun a => Fin.ext ?_)
  match a with
  | ⟨0, _⟩ =>
    show k0_off2 i 0 + 1 * 0 = 0
    rw [k0_off2_eq]
    rfl
  | ⟨1, _⟩ =>
    show k0_off2 i 1 + 1 * b.val = r.val
    rw [k0_off2_eq]
    show 1024 * (i 1).val + 1 * b.val = r.val
    omega

/-- The resident label row at any point is the whole recast label array: entry (0, r) is label r as launched. -/
theorem lblk_at (c : Dev nD) (t : Fin cfg0.N) (r : Fin 8192) : lblk m c t (ix2 (0 : Fin 1) r) = argL m c (ix1 r) := by
  show V m c main_v6 (((cfg0.win 1).blk t).view.emb (ix2 (0 : Fin 1) r)) = _
  refine (congrFun (v6_eq m c) _).trans ?_
  obtain ⟨-, -, e0, e1, -⟩ := idx_facts t
  refine reshapeL_at _ _ r ?_ ?_
  · show win0_1.index t (0 : Fin 2) * 1 + 1 * 0 = 0
    rw [e0]
  · show win0_1.index t (1 : Fin 2) * 8192 + 1 * r.val = r.val
    rw [e1]; omega

/-- Label `b` of point `t`'s label tile is label (t % 8)·1024 + b. -/
theorem ltile_apply (c : Dev nD) (t : Fin cfg0.N) (b : Fin 1024) :
    ltile (grid0.coords t) (lblk m c t) (ix2 (0 : Fin 1) b)
      = argL m c (ix1 ⟨t.val % 8 * 1024 + b.val, by have := b.isLt; omega⟩) := by
  refine (ltile_at (grid0.coords t) (lblk m c t) b ⟨t.val % 8 * 1024 + b.val, by have := b.isLt; omega⟩ ?_).trans
    (lblk_at m c t _)
  show t.val % 8 * 1024 + b.val = 1024 * ((grid0.coords t) 1).val + b.val
  rw [coords_1]; omega

/-! ## The prototype tile and the squared lengths -/

/-- The prototypes as the host operations pad them: 240 rows below, filled with the integer 0 turned into a float. -/
def hostPad (p : S10000x128.Idx → EReal) : S10240x128.Idx → EReal :=
  pad S10240x128 ![0, 0] ![240, 0] ![0, 0] p (sitofp (F := Ideal) .f32 (constantI S_ 32 0#32))
    pads_S10000x128_S10240x128_02400_000 h_S_

/-- Read at row r and coordinate d, that padding is the prototype's entry on rows below 10000 and zero on the rest. -/
theorem hostPad_apply (p : S10000x128.Idx → EReal) (r : Fin 10240) (d : Fin 128) :
    hostPad p (ix2 r d) = padP p r d := by
  unfold hostPad padP pad
  by_cases h : r.val < 10000
  · rw [dif_pos h]
    have hin : ∀ a : Fin 2, (![0, 0] : Fin 2 → Nat) a ≤ ((ix2 r d) (a.cast pads_S10000x128_S10240x128_02400_000.1)).val
        ∧ (((ix2 r d) (a.cast pads_S10000x128_S10240x128_02400_000.1)).val - (![0, 0] : Fin 2 → Nat) a) % ((![0, 0] : Fin 2 → Nat) a + 1) = 0
        ∧ (((ix2 r d) (a.cast pads_S10000x128_S10240x128_02400_000.1)).val - (![0, 0] : Fin 2 → Nat) a) / ((![0, 0] : Fin 2 → Nat) a + 1) < S10000x128.size a := fun a => by
      match a with
      | ⟨0, _⟩ => show 0 ≤ r.val ∧ (r.val - 0) % (0 + 1) = 0 ∧ (r.val - 0) / (0 + 1) < 10000; omega
      | ⟨1, _⟩ => show 0 ≤ d.val ∧ (d.val - 0) % (0 + 1) = 0 ∧ (d.val - 0) / (0 + 1) < 128; have := d.isLt; omega
    rw [dif_pos hin]
    refine congrArg p (funext fun a => Fin.ext ?_)
    match a with
    | ⟨0, _⟩ => show (r.val - 0) / (0 + 1) = r.val; omega
    | ⟨1, _⟩ => show (d.val - 0) / (0 + 1) = d.val; omega
  · rw [dif_neg h]
    rw [dif_neg (fun hin => h (by
      have h0 := (hin (0 : Fin 2)).2.2
      have h0' : (r.val - 0) / (0 + 1) < 10000 := h0
      omega))]
    show (((0#32 : BitVec 32).toInt : ℝ) : EReal) = 0
    simp

/-- The doubled padded prototypes, as the host operations build them: the float 2, spread over the padded shape,
    times the padded prototypes. -/
def dblPad (p : S10000x128.Idx → EReal) : FVec Ideal S10240x128 .f32 :=
  mulf (F := Ideal) (broadcastInDim S10240x128 ![] bcast_S_S10240x128 (constant (F := Ideal) S_ .f32 0x40000000#32))
    (hostPad p)

/-- Its entry (r, d) is twice the padded prototypes' entry (r, d). -/
theorem dblPad_apply (p : S10000x128.Idx → EReal) (r : Fin 10240) (d : Fin 128) :
    dblPad p (ix2 r d) = Cert.Spec.two * padP p r d := by
  unfold dblPad
  rw [mulf_apply, hostPad_apply]
  rfl

/-- The array the prototype window stages, as the region finds it. -/
theorem v5_eq (c : Dev nD) : (V m c main_v5 : S10240x128.Idx → EReal) = dblPad (m ((c : Thread nD τ).loc main_arg2)) := by
  dsimp only [Gen.V, Gen.V0]
  simp only [Gen.hostOps0, Gen.hostOps0_1, Gen.hostOps0_2, List.flatten_cons, List.flatten_nil, List.append_nil,
    List.cons_append, List.nil_append]
  after_results
  rfl

/-- Row `j` of point `t`'s prototype tile is row (t / 8)·1280 + j of that array. -/
theorem pblk_at (c : Dev nD) (t : Fin cfg0.N) (j : Fin 1280) (d : Fin 128) (r : Fin 10240)
    (hr : r.val = t.val / 8 * 1280 + j.val) : pblk m c t (ix2 j d) = Cert.Spec.two * padP (argP m c) r d := by
  show V m c main_v5 (((cfg0.win 2).blk t).view.emb (ix2 j d)) = _
  refine (congrFun (v5_eq m c) _).trans ?_
  refine (congrArg (dblPad (m ((c : Thread nD τ).loc main_arg2))) (?_ : _ = ix2 r d)).trans (dblPad_apply _ r d)
  obtain ⟨-, -, -, -, e0, e1, -⟩ := idx_facts t
  refine funext fun a => Fin.ext ?_
  match a with
  | ⟨0, _⟩ =>
    show win0_2.index t (0 : Fin 2) * 1280 + 1 * j.val = r.val
    rw [e0]; omega
  | ⟨1, _⟩ =>
    show win0_2.index t (1 : Fin 2) * 128 + 1 * d.val = d.val
    rw [e1]; omega

/-- Row `j` of point `t`'s prototype tile is twice row (t / 8)·1280 + j of the padded prototypes. -/
theorem pblk_apply (c : Dev nD) (t : Fin cfg0.N) (j : Fin 1280) (d : Fin 128) :
    pblk m c t (ix2 j d)
      = Cert.Spec.two * padP (argP m c) ⟨t.val / 8 * 1280 + j.val, by
          have := j.isLt; have := lt_of_lt_of_eq t.isLt (show cfg0.N = 64 from N_0); omega⟩ d :=
  pblk_at m c t j d _ rfl

/-- The host's sum along the rows of an array of the padded shape, started from the zero word: entry r is the sum of
    row r. -/
theorem rowSum_apply (y0 : FVec Ideal S10240x128 .f32) (r : Fin 10240) :
    Host.reduceAdd (F := Ideal) y0 (constant (F := Ideal) S_ .f32 0x00000000#32) reducesTo_S10240x128_S10240_d1 h_S_ (ix1 r)
      = ∑ d : Fin 128, y0 (ix2 r d) := by
  simp only [Host.reduceAdd, Ideal.hostReduceAdd_def]
  rw [Ideal.hostReduceAdd_single reducesTo_S10240x128_S10240_d1 (by decide)]
  rw [constant_apply, Ideal.ofBits_zero_f32, zero_add]
  refine Finset.sum_congr rfl fun k _ => ?_
  exact congrArg y0 (funext fun a => Fin.ext (by match a with | ⟨0, _⟩ => rfl | ⟨1, _⟩ => rfl))

/-- The squared lengths of the padded prototypes' rows, as the host operations build them: the row sums of the
    entrywise squares, laid out as one row. -/
def sqLen (p : S10000x128.Idx → EReal) : FVec Ideal S1x10240 .f32 :=
  broadcastInDim S1x10240 ![1] bcast_S10240_S1x10240_1
    (Host.reduceAdd (F := Ideal) (mulf (F := Ideal) (hostPad p) (hostPad p)) (constant (F := Ideal) S_ .f32 0x00000000#32)
      reducesTo_S10240x128_S10240_d1 h_S_)

/-- Its entry (0, r) is the squared length of row r of the padded prototypes. -/
theorem sqLen_apply (p : S10000x128.Idx → EReal) (r : Fin 10240) :
    sqLen p (ix2 (0 : Fin 1) r) = ∑ d : Fin 128, padP p r d * padP p r d := by
  unfold sqLen
  refine (broadcastInDim_apply _ bcast_S10240_S1x10240_1 _ (ix2 (0 : Fin 1) r) (ix1 r) (fun a => ?_)).trans ?_
  · match a with
    | ⟨0, _⟩ =>
      show r.val = if (10240 : Nat) = 1 then 0 else r.val
      rw [if_neg (by decide)]
  · refine (rowSum_apply _ r).trans (Finset.sum_congr rfl fun d _ => ?_)
    rw [mulf_apply, hostPad_apply]

/-- The array the squared-length window stages, as the region finds it. -/
theorem v3_eq (c : Dev nD) : (V m c main_v3 : S1x10240.Idx → EReal) = sqLen (m ((c : Thread nD τ).loc main_arg2)) := by
  dsimp only [Gen.V, Gen.V0]
  simp only [Gen.hostOps0, Gen.hostOps0_1, Gen.hostOps0_2, List.flatten_cons, List.flatten_nil, List.append_nil,
    List.cons_append, List.nil_append]
  after_results
  rfl

/-- Entry `j` of point `t`'s squared lengths is entry (t / 8)·1280 + j of that array. -/
theorem qblk_at (c : Dev nD) (t : Fin cfg0.N) (j : Fin 1280) (r : Fin 10240) (hr : r.val = t.val / 8 * 1280 + j.val) :
    qblk m c t (ix2 (0 : Fin 1) j) = ∑ d : Fin 128, padP (argP m c) r d * padP (argP m c) r d := by
  show V m c main_v3 (((cfg0.win 3).blk t).view.emb (ix2 (0 : Fin 1) j)) = _
  refine (congrFun (v3_eq m c) _).trans ?_
  refine (congrArg (sqLen (m ((c : Thread nD τ).loc main_arg2))) (?_ : _ = ix2 (0 : Fin 1) r)).trans (sqLen_apply _ r)
  obtain ⟨-, -, -, -, -, -, e0, e1⟩ := idx_facts t
  refine funext fun a => Fin.ext ?_
  match a with
  | ⟨0, _⟩ =>
    show win0_3.index t (0 : Fin 2) * 1 + 1 * 0 = 0
    rw [e0]
  | ⟨1, _⟩ =>
    show win0_3.index t (1 : Fin 2) * 1280 + 1 * j.val = r.val
    rw [e1]; omega

/-- Entry `j` of point `t`'s squared lengths is the squared length of row (t / 8)·1280 + j of the padded prototypes. -/
theorem qblk_apply (c : Dev nD) (t : Fin cfg0.N) (j : Fin 1280) :
    qblk m c t (ix2 (0 : Fin 1) j)
      = ∑ d : Fin 128, padP (argP m c) ⟨t.val / 8 * 1280 + j.val, by
          have := j.isLt; have := lt_of_lt_of_eq t.isLt (show cfg0.N = 64 from N_0); omega⟩ d
        * padP (argP m c) ⟨t.val / 8 * 1280 + j.val, by
          have := j.isLt; have := lt_of_lt_of_eq t.isLt (show cfg0.N = 64 from N_0); omega⟩ d :=
  qblk_at m c t j _ rfl

end Cert.KernelIdeal.Val

end
-- ==== Proof.KIScores.lean ====
/-
  The scores array after the kernel's run: every point writes back the part inside the array of its scores block,
  and entry (b, j) of that block is the score of batch row (t % 8)·1024 + b against class (t / 8)·1280 + j; the blocks'
  parts inside the array cover it, so the array ends holding every score.
-/
import proofs.«414162_j54133767799349_3_alg».proof.Proof.KIBlocks

set_option maxRecDepth 16384

open scoped BigOperators

noncomputable section

namespace Cert.KernelIdeal.Val

open Cert.KernelIdeal Cert.KernelIdeal.Gen
open Idealize.ShloMosaic Idealize.ShloMosaic.TcCoe Idealize.ShloMosaic.ValueIdx
open Idealize.SL.Sem
open RealClosure

/-! ## The scalar law

  Over the reals a factor leaves a sum, and the smaller of x − a − b and 0 is minus the larger of (a + b) − x and 0. -/

/-- For real rows `e`, `p` and a real factor `t`: the clamped difference the kernel forms from the inner products of
    `e` with `t · p` is minus the clamped squared distance with the factor outside the inner product. -/
theorem score_law {ι : Type} [Fintype ι] (e p : ι → EReal) (t : EReal) (he : ∀ d, IsReal (e d)) (hp : ∀ d, IsReal (p d))
    (ht : IsReal t) :
    min ((∑ d, e d * (t * p d)) - (∑ d, e d * e d) - ∑ d, p d * p d) 0
      = -(max (((∑ d, e d * e d) + ∑ d, p d * p d) - t * ∑ d, e d * p d) 0) := by
  obtain ⟨e', rfl⟩ := exists_real_fun he
  obtain ⟨p', rfl⟩ := exists_real_fun hp
  obtain ⟨t', rfl⟩ := ht
  simp only [← EReal.coe_mul, ← coe_finset_sum, ← EReal.coe_sub, ← EReal.coe_add]
  rw [← EReal.coe_zero, ← EReal.coe_strictMono.monotone.map_min, ← EReal.coe_strictMono.monotone.map_max, ← EReal.coe_neg]
  congr 1
  have hs : ∑ d, e' d * (t' * p' d) = t' * ∑ d, e' d * p' d := by
    rw [Finset.mul_sum]; exact Finset.sum_congr rfl fun d _ => by ring
  have hm : ∀ x : ℝ, min x 0 = -max (-x) 0 := fun x => by
    have h := max_neg_neg x 0
    rw [neg_zero] at h
    rw [h, neg_neg]
  rw [hs, hm]
  congr 2
  ring

/-! ## The scores block at an index

  The block's entry (b, j) from the batch tile, the prototype tile and the squared lengths the body is handed: the
  inner product of batch row b with prototype row j, less batch row b's squared length, less entry j of the squared
  lengths, clamped above at zero. -/

/-- The sum over the lanes of a [1024, 128] tile, at row `b`. -/
theorem laneSum_apply (v : FVec Ideal S1024x128 .f32) (b : Fin 1024) :
    multiReduction (F := Ideal) .add [1] S1024 v 0x00000000#32 reduces_S1024x128_S1024 (.inl rfl) rfl (ix1 b)
      = ∑ d : Fin 128, v (ix2 b d) := by
  refine (Ideal.multiReduction_add_single v 0x00000000#32 reduces_S1024x128_S1024 (.inl rfl) rfl (ix1 b)).trans ?_
  show ∑ d : Fin 128, v (reduces_S1024x128_S1024.lift (ix1 b) d) = _
  refine Finset.sum_congr rfl fun d _ => congrArg v (funext fun a => Fin.ext ?_)
  match a with
  | ⟨0, _⟩ => rfl
  | ⟨1, _⟩ => rfl

/-- A column of 1024 entries written as a [1024, 1] tile. -/
theorem column_apply (v : FVec Ideal S1024 .f32) (b : Fin 1024) :
    shapeCast S1024x1 v shapeCasts_S1024_S1024x1 (ix2 b (0 : Fin 1)) = v (ix1 b) :=
  shapeCast_apply v shapeCasts_S1024_S1024x1 _ _ (by
    rw [Shape.rowMajor_val_two, Shape.rowMajor_val_one]
    show b.val = b.val * 1 + 0
    omega)

/-- A [1024, 1] column spread over 1280 lanes: entry (b, j) is the column's entry b. -/
theorem spreadColumn_apply (v : FVec Ideal S1024x1 .f32) (b : Fin 1024) (j : Fin 1280) :
    broadcastTo S1024x1280 v broadcasts_S1024x1_S1024x1280 (ix2 b j) = v (ix2 b (0 : Fin 1)) := by
  refine broadcastTo_apply v broadcasts_S1024x1_S1024x1280 (ix2 b j) (ix2 b (0 : Fin 1)) fun ax => ?_
  match ax with
  | ⟨0, _⟩ =>
    show b.val = if (1024 : Nat) = 1 then 0 else b.val
    rw [if_neg (by decide)]
  | ⟨1, _⟩ =>
    show 0 = if (1 : Nat) = 1 then 0 else j.val
    rw [if_pos rfl]

theorem lhs_scores_0 (i : S1024x1280.Idx) (q : dot_S1024x128_S1280x128_S1024x1280_1_1_0_0_n_n.contr.Idx) :
    (dot_S1024x128_S1280x128_S1024x1280_1_1_0_0_n_n.lhsIdx i q 0).val = (i 0).val := by
  unfold DotDims.lhsIdx
  rw [dif_neg (show ¬(0 : Fin S1024x128.rank) ∈ dot_S1024x128_S1280x128_S1024x1280_1_1_0_0_n_n.lhsBatch by decide), dif_pos (show (0 : Fin S1024x128.rank) ∈ dot_S1024x128_S1280x128_S1024x1280_1_1_0_0_n_n.lhsNonContracting by decide)]
  rfl
theorem lhs_scores_1 (i : S1024x1280.Idx) (q : dot_S1024x128_S1280x128_S1024x1280_1_1_0_0_n_n.contr.Idx) :
    (dot_S1024x128_S1280x128_S1024x1280_1_1_0_0_n_n.lhsIdx i q 1).val = (q ⟨0, by decide⟩).val :=
  dot_S1024x128_S1280x128_S1024x1280_1_1_0_0_n_n.lhsIdx_val_of_single rfl i q
theorem rhs_scores_0 (i : S1024x1280.Idx) (q : dot_S1024x128_S1280x128_S1024x1280_1_1_0_0_n_n.contr.Idx) :
    (dot_S1024x128_S1280x128_S1024x1280_1_1_0_0_n_n.rhsIdx i q 0).val = (i 1).val := by
  unfold DotDims.rhsIdx
  rw [dif_neg (show ¬(0 : Fin S1280x128.rank) ∈ dot_S1024x128_S1280x128_S1024x1280_1_1_0_0_n_n.rhsBatch by decide), dif_pos (show (0 : Fin S1280x128.rank) ∈ dot_S1024x128_S1280x128_S1024x1280_1_1_0_0_n_n.rhsNonContracting by decide)]
  rfl
theorem rhs_scores_1 (i : S1024x1280.Idx) (q : dot_S1024x128_S1280x128_S1024x1280_1_1_0_0_n_n.contr.Idx) :
    (dot_S1024x128_S1280x128_S1024x1280_1_1_0_0_n_n.rhsIdx i q 1).val = (q ⟨0, by decide⟩).val :=
  dot_S1024x128_S1280x128_S1024x1280_1_1_0_0_n_n.rhsIdx_val_of_single rfl i q

/-- The product of a [1024, 128] tile with the transpose of a [1280, 128] tile into a zero accumulator: entry (b, j) is
    the inner product of row b of the first with row j of the second. -/
theorem rowsDot_apply {φ₁ φ₂ : FTy} (l : FVec Ideal S1024x128 φ₁) (r : FVec Ideal S1280x128 φ₂) (b : Fin 1024) (j : Fin 1280) :
    matmul dot_S1024x128_S1280x128_S1024x1280_1_1_0_0_n_n none l r (constant (F := Ideal) S1024x1280 .f32 0x00000000#32) (ix2 b j)
      = ∑ d : Fin 128, l (ix2 b d) * r (ix2 j d) := by
  refine (Ideal.matmul_constant_zero_apply dot_S1024x128_S1280x128_S1024x1280_1_1_0_0_n_n none l r (ix2 b j)).trans ?_
  rw [← Equiv.sum_comp (ValueIdx.contrEquiv1 dot_S1024x128_S1280x128_S1024x1280_1_1_0_0_n_n 128 rfl rfl).symm]
  refine Finset.sum_congr rfl fun k _ => ?_
  have hk := ValueIdx.contrEquiv1_symm_val dot_S1024x128_S1280x128_S1024x1280_1_1_0_0_n_n 128 rfl rfl k
  have el : dot_S1024x128_S1280x128_S1024x1280_1_1_0_0_n_n.lhsIdx (ix2 b j) ((ValueIdx.contrEquiv1 dot_S1024x128_S1280x128_S1024x1280_1_1_0_0_n_n 128 rfl rfl).symm k) = ix2 b k := funext fun a => Fin.ext (by
    match a with
    | ⟨0, _⟩ => exact lhs_scores_0 _ _
    | ⟨1, _⟩ => exact (lhs_scores_1 _ _).trans hk)
  have er : dot_S1024x128_S1280x128_S1024x1280_1_1_0_0_n_n.rhsIdx (ix2 b j) ((ValueIdx.contrEquiv1 dot_S1024x128_S1280x128_S1024x1280_1_1_0_0_n_n 128 rfl rfl).symm k) = ix2 j k := funext fun a => Fin.ext (by
    match a with
    | ⟨0, _⟩ => exact rhs_scores_0 _ _
    | ⟨1, _⟩ => exact (rhs_scores_1 _ _).trans hk)
  rw [el, er]

/-- Entry (b, j) of the scores block the body computes from a batch tile `v6`, a prototype tile `v10` and a row of
    squared lengths `v12`. -/
theorem pay6_apply (v6 : Vec Ideal S1024x128 .f32) (v10 : Vec Ideal S1280x128 .f32) (v12 : Vec Ideal S1x1280 .f32)
    (b : Fin 1024) (j : Fin 1280) :
    k0_pay6 (F := Ideal) v6 v10 v12 (ix2 b j)
      = min ((∑ d : Fin 128, v6 (ix2 b d) * v10 (ix2 j d)) - (∑ d : Fin 128, v6 (ix2 b d) * v6 (ix2 b d))
          - v12 (ix2 (0 : Fin 1) j)) 0 := by
  unfold k0_pay6 k0_pay5
  simp only [shapeCast_self]
  have h1 := rowsDot_apply (truncf (F := Ideal) .bf16 v6 bitsLt_bf16_f32) (truncf (F := Ideal) .bf16 v10 bitsLt_bf16_f32) b j
  have h2 : broadcastTo S1024x1280 (shapeCast S1024x1 (multiReduction (F := Ideal) .add [1] S1024 (mulf v6 v6)
      0x00000000#32 reduces_S1024x128_S1024 (.inl rfl) rfl) shapeCasts_S1024_S1024x1) broadcasts_S1024x1_S1024x1280 (ix2 b j)
      = ∑ d : Fin 128, v6 (ix2 b d) * v6 (ix2 b d) :=
    (spreadColumn_apply _ b j).trans ((column_apply _ b).trans (laneSum_apply (mulf v6 v6) b))
  have h3 := broadcastTo_1b_ab_apply v12 broadcasts_S1x1280_S1024x1280 b j
  exact congrArg₂ min (congrArg₂ (· - ·) (congrArg₂ (· - ·) h1 h2) h3) Ideal.ofBits_zero_f32

/-! ## The block's entries are scores -/

/-- The factor both programs spell as the float 2.0 is a real number. -/
theorem isReal_two : IsReal Cert.Spec.two := by
  refine ⟨2, ?_⟩
  unfold Cert.Spec.two
  simp [Ideal.ofBits, Ideal.ieee, -EReal.coe_mul]
  norm_num

variable (m : (ℓ : Loc nD τ sig) → Buf (Elt Ideal) ℓ)

/-- Entry (b, j) of point `t`'s scores block, from the arguments: batch row (t % 8)·1024 + b against row (t / 8)·1280 + j of
    the padded prototypes, the prototype row doubled inside the inner product. -/
theorem out4_apply (c : Dev nD) (t : Fin cfg0.N) (b : Fin 1024) (j : Fin 1280) :
    out4 (grid0.coords t) (eblk m c t) (pblk m c t) (qblk m c t) (ix2 b j)
      = min ((∑ d : Fin 128, argE m c (ix2 ⟨t.val % 8 * 1024 + b.val, by have := b.isLt; omega⟩ d)
              * (Cert.Spec.two * padP (argP m c) ⟨t.val / 8 * 1280 + j.val, by
                  have := j.isLt; have := lt_of_lt_of_eq t.isLt (show cfg0.N = 64 from N_0); omega⟩ d))
          - (∑ d : Fin 128, argE m c (ix2 ⟨t.val % 8 * 1024 + b.val, by have := b.isLt; omega⟩ d)
              * argE m c (ix2 ⟨t.val % 8 * 1024 + b.val, by have := b.isLt; omega⟩ d))
          - ∑ d : Fin 128, padP (argP m c) ⟨t.val / 8 * 1280 + j.val, by
                have := j.isLt; have := lt_of_lt_of_eq t.isLt (show cfg0.N = 64 from N_0); omega⟩ d
              * padP (argP m c) ⟨t.val / 8 * 1280 + j.val, by
                have := j.isLt; have := lt_of_lt_of_eq t.isLt (show cfg0.N = 64 from N_0); omega⟩ d) 0 := by
  unfold out4
  refine (pay6_apply (etile (grid0.coords t) (eblk m c t)) (pblk m c t) (qblk m c t) b j).trans ?_
  refine congrArg₂ min (congrArg₂ (· - ·) (congrArg₂ (· - ·) ?_ ?_) (qblk_apply m c t j)) rfl
  · exact Finset.sum_congr rfl fun d _ => congrArg₂ (· * ·) (etile_apply m c t b d) (pblk_apply m c t j d)
  · exact Finset.sum_congr rfl fun d _ => congrArg₂ (· * ·) (etile_apply m c t b d) (etile_apply m c t b d)

/-- Where row (t / 8)·1280 + j is a class (below 10000), the entry is that class's score for the batch row: the padded
    row is the prototype, and over the reals the scalar law applies. -/
theorem out4_score (c : Dev nD) (hE : ∀ i, IsReal (argE m c i)) (hP : ∀ i, IsReal (argP m c i)) (t : Fin cfg0.N)
    (b : Fin 1024) (j : Fin 1280) (hj : t.val / 8 * 1280 + j.val < 10000) :
    out4 (grid0.coords t) (eblk m c t) (pblk m c t) (qblk m c t) (ix2 b j)
      = Cert.Spec.scoreAt (argE m c) (argP m c) ⟨t.val % 8 * 1024 + b.val, by have := b.isLt; omega⟩
          ⟨t.val / 8 * 1280 + j.val, hj⟩ := by
  rw [out4_apply]
  have hpad : ∀ d : Fin 128, padP (argP m c) ⟨t.val / 8 * 1280 + j.val, by
      have := j.isLt; have := lt_of_lt_of_eq t.isLt (show cfg0.N = 64 from N_0); omega⟩ d
      = argP m c (ix2 ⟨t.val / 8 * 1280 + j.val, hj⟩ d) := fun d => dif_pos hj
  simp only [hpad]
  exact score_law (fun d : Fin 128 => argE m c (ix2 ⟨t.val % 8 * 1024 + b.val, by have := b.isLt; omega⟩ d))
    (fun d : Fin 128 => argP m c (ix2 ⟨t.val / 8 * 1280 + j.val, hj⟩ d)) Cert.Spec.two (fun d => hE _) (fun d => hP _)
    isReal_two

/-! ## From the blocks to the array -/

/-- The scores window's block index at point `t` is (t % 8, t / 8); no block overhangs the batch axis, and on the
    class axis only the last class tile's does: it keeps 1040 of its 1280 columns. -/
theorem scores_idx : ∀ t : Fin cfg0.N, win0_4.index t 0 = t.val % 8 ∧ win0_4.index t 1 = t.val / 8
    ∧ win0_4.xsize (grid0.coords t) 0 = 1024
    ∧ win0_4.xsize (grid0.coords t) 1 = if t.val / 8 = 7 then 1040 else 1280 :=
  (by decide +kernel : ∀ t : Fin grid0.N, win0_4.index t 0 = t.val % 8 ∧ win0_4.index t 1 = t.val / 8
    ∧ win0_4.xsize (grid0.coords t) 0 = 1024
    ∧ win0_4.xsize (grid0.coords t) 1 = if t.val / 8 = 7 then 1040 else 1280)

/-- A score depends on its row and class numbers only. -/
theorem scoreAt_congr (e : Cert.Spec.SE.Idx → EReal) (p : Cert.Spec.SP.Idx → EReal) {b b' : Fin 8192} {j j' : Fin 10000}
    (hb : b.val = b'.val) (hj : j.val = j'.val) : Cert.Spec.scoreAt e p b j = Cert.Spec.scoreAt e p b' j' := by
  rw [Fin.ext hb, Fin.ext hj]

/-- What point `t` writes back — the part of its scores block inside the array — is the specification's scores read
    through the block's rectangle: the block's entry (b, j) lands at row (t % 8)·1024 + b and class (t / 8)·1280 + j. -/
theorem flushed_scores (c : Dev nD) (hE : ∀ i, IsReal (argE m c i)) (hP : ∀ i, IsReal (argP m c i)) (t : Fin cfg0.N) :
    (dats m 0 c).flushed 4 t
      = ((cfg0.win 4).blk t).view.read (Elt Ideal) (Cert.Spec.scores (argE m c) (argP m c)) := by
  funext y
  obtain ⟨hi0, hi1, -, -⟩ := scores_idx t
  have hy0 : (y 0).val < 1024 := Nat.lt_of_lt_of_le (y 0).isLt (win0_4.xsize_le (grid0.coords t) 0)
  have hy1 : (y 1).val < 1280 := Nat.lt_of_lt_of_le (y 1).isLt (win0_4.xsize_le (grid0.coords t) 1)
  have he0 : ((((cfg0.win 4).blk t).view.emb y) 0).val = win0_4.index t 0 * 1024 + 1 * (y 0).val := rfl
  have he1 : ((((cfg0.win 4).blk t).view.emb y) 1).val = win0_4.index t 1 * 1280 + 1 * (y 1).val := rfl
  have hlt1 : ((((cfg0.win 4).blk t).view.emb y) 1).val < 10000 := ((((cfg0.win 4).blk t).view.emb y) 1).isLt
  have hj : t.val / 8 * 1280 + (y 1).val < 10000 := by rw [he1, hi1] at hlt1; omega
  have hx : win0_4.xinj (grid0.coords t) y = ix2 (⟨(y 0).val, hy0⟩ : Fin 1024) (⟨(y 1).val, hy1⟩ : Fin 1280) :=
    funext fun a => Fin.ext (by
      match a with
      | ⟨0, _⟩ => rfl
      | ⟨1, _⟩ => rfl)
  show (cfg0.win 4).cut (grid0.coords t) ((dats m 0 c).after 4 t) y = _
  rw [after0_4, View.read_apply]
  show out4 (grid0.coords t) (eblk m c t) (pblk m c t) (qblk m c t) (win0_4.xinj (grid0.coords t) y)
    = Cert.Spec.scoreAt (argE m c) (argP m c) ⟨((((cfg0.win 4).blk t).view.emb y) 0).val, _⟩
        ⟨((((cfg0.win 4).blk t).view.emb y) 1).val, _⟩
  rw [hx, out4_score m c hE hP t ⟨(y 0).val, hy0⟩ ⟨(y 1).val, hy1⟩ hj]
  refine scoreAt_congr _ _ ?_ ?_
  · show t.val % 8 * 1024 + (y 0).val = _
    rw [he0, hi0]; omega
  · show t.val / 8 * 1280 + (y 1).val = _
    rw [he1, hi1]; omega

/-- Every entry of the scores array lies in some point's block: entry (r, k) in that of the point with class tile
    k / 1280 and batch tile r / 1024. -/
theorem scores_cover (i : Cert.Spec.SS.Idx) :
    ∃ t : Fin cfg0.N, (cfg0.win 4).flush t = true ∧ i ∈ ((cfg0.win 4).blk t).view.set := by
  have h0 : (i 0).val < 8192 := (i 0).isLt
  have h1 : (i 1).val < 10000 := (i 1).isLt
  have hlt : (i 1).val / 1280 * 8 + (i 0).val / 1024 < 64 := by omega
  obtain ⟨t, ht⟩ : ∃ t : Fin cfg0.N, t.val = (i 1).val / 1280 * 8 + (i 0).val / 1024 :=
    ⟨⟨_, lt_of_lt_of_eq hlt N_0.symm⟩, rfl⟩
  refine ⟨t, flush0_4 t, ?_⟩
  obtain ⟨hi0, hi1, hx0, hx1⟩ := scores_idx t
  show _ ∈ ((View.whole main_v7_0).slice (win0_4.rect t)).set
  rw [View.set_slice_whole, Rect.mem_set_unit]
  intro a
  match a with
  | ⟨0, _⟩ =>
    show win0_4.index t 0 * 1024 ≤ (i 0).val ∧ (i 0).val < win0_4.index t 0 * 1024 + win0_4.xsize (grid0.coords t) 0
    rw [hi0, hx0, ht]
    omega
  | ⟨1, _⟩ =>
    show win0_4.index t 1 * 1280 ≤ (i 1).val ∧ (i 1).val < win0_4.index t 1 * 1280 + win0_4.xsize (grid0.coords t) 1
    rw [hi1, hx1, ht]
    split <;> omega

/-- The scores array after the run is the specification's, for a real-valued batch and real-valued prototypes. -/
theorem scores_final (c : Dev nD) (hE : ∀ i, IsReal (argE m c i)) (hP : ∀ i, IsReal (argP m c i)) :
    (dats m 0 c).arrAt 4 cfg0.N = Cert.Spec.scores (argE m c) (argP m c) :=
  (dats m 0 c).arrAt_eq_of_cover 4 (Cert.Spec.scores (argE m c) (argP m c))
    (fun t _ => flushed_scores m c hE hP t) scores_cover

end Cert.KernelIdeal.Val

end
-- ==== Proof.KIUpdates.lean ====
/-
  The class-sum array after the kernel's run: the block of class tile q is written back once, after batch tile 7,
  holding the sum over the eight batch tiles of each tile's contribution; row j of it, inside the array, is the sum of
  the batch rows labelled (q·1280 + j); the eight class tiles' parts inside the array cover it.

  The steps. At a point (class tile q, batch tile s) the body forms the 1280 × 1024 matrix h whose entry (j, b) is 1
  when the 32-bit word of class q·1280 + j equals label s·1024 + b and 0 otherwise, and adds to the block three
  products h·e, h·(e − e), h·((e − e) − (e − e)) of it with the batch tile e; for a real-valued batch e − e = 0, so the
  last two vanish and row j grows by the sum of the tile's rows whose label word is the class word. Over the eight
  batch tiles, started from the zero block, row j ends at the sum over all 8192 batch rows (eight tiles of 1024 rows
  are the 8192 rows). For a class below 10000 the class word equals a label word exactly when the label, read as a
  signed integer, is the class: that is the specification's sum.
-/
import proofs.«414162_j54133767799349_3_alg».proof.Proof.KIBlocks

set_option maxRecDepth 16384

open scoped BigOperators

noncomputable section

namespace Cert.KernelIdeal.Val

open Cert.KernelIdeal Cert.KernelIdeal.Gen
open Idealize.ShloMosaic Idealize.ShloMosaic.TcCoe Idealize.ShloMosaic.ValueIdx
open Idealize.SL.Sem
open RealClosure

variable (m : (ℓ : Loc nD τ sig) → Buf (Elt Ideal) ℓ)

namespace ClassSums

/-! ## The indicator matrix of a point -/

/-- The 32-bit word of class q·1280 + j as the body forms it: the word of q times the word 1280, plus the word of j. -/
def classWord (q j : ℕ) : BitVec 32 := Scalar.muli (BitVec.ofNat 32 q) 1280#32 + BitVec.ofNat 32 j

/-- An equality test of two words, widened from one bit to a word and converted to a float, is 1 or 0. -/
theorem eqTest_conv (x y : BitVec 32) :
    (((((IntOp.cmpi .eq x y).setWidth 32).toInt : ℤ) : ℝ) : EReal) = if x = y then 1 else 0 := by
  unfold IntOp.cmpi
  by_cases h : x = y
  · rw [if_pos h]; subst h
    simp
  · rw [if_neg h]
    have : (x == y) = false := by simpa using h
    simp [this]

/-- Entry (j, b) of the indicator matrix at class tile `i 0`: 1 when the class word of row j is label b of the tile,
    else 0. The class words run down a column (the class tile's first word plus the row number) and are spread along
    the rows; the labels lie along a row and are spread down the columns. -/
theorem oneHot_apply (i : grid0.Coords) (v8 : Vec Ideal S1x1024 .i32) (j : Fin 1280) (b : Fin 1024) :
    k0_pay7 (F := Ideal) i v8 (ix2 j b) = if classWord (i 0).val j.val = v8 (ix2 (0 : Fin 1) b) then 1 else 0 := by
  unfold k0_pay7
  dsimp only
  refine (eqTest_conv _ _).trans ?_
  have e1 : broadcastTo S1280x1024
            (addi (broadcast S1280x1 (Scalar.muli (BitVec.ofNat 32 (i 0).val) 1280#32))
              (iota Kind.tc S1280x1 32 [0] iota_S1280x1_d0_w32))
            broadcasts_S1280x1_S1280x1024 (ix2 j b) = classWord (i 0).val j.val := by
    refine (broadcastTo_apply _ _ (ix2 j b) (ix2 j (0 : Fin 1)) (fun a => ?_)).trans ?_
    · match a with
      | ⟨0, _⟩ => show j.val = if (1280 : Nat) = 1 then 0 else j.val; rw [if_neg (by decide)]
      | ⟨1, _⟩ => show 0 = if (1 : Nat) = 1 then 0 else b.val; rw [if_pos rfl]
    · show IntOp.addi _ (iota Kind.tc S1280x1 32 [0] iota_S1280x1_d0_w32 (ix2 j (0 : Fin 1))) = _
      rw [iota_single_apply]
      rfl
  have e2 : broadcastTo S1280x1024 (shapeCast S1x1024 v8 shapeCasts_S1x1024_S1x1024) broadcasts_S1x1024_S1280x1024 (ix2 j b)
      = v8 (ix2 (0 : Fin 1) b) := by
    rw [shapeCast_self]
    refine broadcastTo_apply _ _ (ix2 j b) (ix2 (0 : Fin 1) b) (fun a => ?_)
    match a with
    | ⟨0, _⟩ => show 0 = if (1 : Nat) = 1 then 0 else j.val; rw [if_pos rfl]
    | ⟨1, _⟩ => show b.val = if (1024 : Nat) = 1 then 0 else b.val; rw [if_neg (by decide)]
  rw [e1, e2]

/-! ## The product of the indicator matrix with a batch tile

The contraction runs over the 1024 batch rows of the tile: axis 1 of the left factor, axis 0 of the right one. -/

theorem lhs_tileDot_0 (i : S1280x128.Idx) (q : dot_S1280x1024_S1024x128_S1280x128_1_0_0_1_n_n.contr.Idx) :
    (dot_S1280x1024_S1024x128_S1280x128_1_0_0_1_n_n.lhsIdx i q 0).val = (i 0).val := by
  unfold DotDims.lhsIdx
  rw [dif_neg (show ¬(0 : Fin S1280x1024.rank) ∈ dot_S1280x1024_S1024x128_S1280x128_1_0_0_1_n_n.lhsBatch by decide), dif_pos (show (0 : Fin S1280x1024.rank) ∈ dot_S1280x1024_S1024x128_S1280x128_1_0_0_1_n_n.lhsNonContracting by decide)]
  rfl
theorem lhs_tileDot_1 (i : S1280x128.Idx) (q : dot_S1280x1024_S1024x128_S1280x128_1_0_0_1_n_n.contr.Idx) :
    (dot_S1280x1024_S1024x128_S1280x128_1_0_0_1_n_n.lhsIdx i q 1).val = (q ⟨0, by decide⟩).val :=
  dot_S1280x1024_S1024x128_S1280x128_1_0_0_1_n_n.lhsIdx_val_of_single rfl i q
theorem rhs_tileDot_0 (i : S1280x128.Idx) (q : dot_S1280x1024_S1024x128_S1280x128_1_0_0_1_n_n.contr.Idx) :
    (dot_S1280x1024_S1024x128_S1280x128_1_0_0_1_n_n.rhsIdx i q 0).val = (q ⟨0, by decide⟩).val :=
  dot_S1280x1024_S1024x128_S1280x128_1_0_0_1_n_n.rhsIdx_val_of_single rfl i q
theorem rhs_tileDot_1 (i : S1280x128.Idx) (q : dot_S1280x1024_S1024x128_S1280x128_1_0_0_1_n_n.contr.Idx) :
    (dot_S1280x1024_S1024x128_S1280x128_1_0_0_1_n_n.rhsIdx i q 1).val = (i 1).val := by
  unfold DotDims.rhsIdx
  rw [dif_neg (show ¬(1 : Fin S1024x128.rank) ∈ dot_S1280x1024_S1024x128_S1280x128_1_0_0_1_n_n.rhsBatch by decide), dif_pos (show (1 : Fin S1024x128.rank) ∈ dot_S1280x1024_S1024x128_S1280x128_1_0_0_1_n_n.rhsNonContracting by decide)]
  rfl

/-- The block product into a zero accumulator, at entry (j, d): the sum over the tile's 1024 batch rows b of
    l(j, b) · r(b, d). -/
theorem tileDot_apply (l : FVec Ideal S1280x1024 .bf16) (r : FVec Ideal S1024x128 .bf16) (j : Fin 1280) (d : Fin 128) :
    matmul dot_S1280x1024_S1024x128_S1280x128_1_0_0_1_n_n none l r (constant S1280x128 .f32 0x00000000#32) (ix2 j d)
      = ∑ b : Fin 1024, l (ix2 j b) * r (ix2 b d) := by
  refine (Ideal.matmul_constant_zero_apply dot_S1280x1024_S1024x128_S1280x128_1_0_0_1_n_n none l r (ix2 j d)).trans ?_
  rw [← Equiv.sum_comp (ValueIdx.contrEquiv1 dot_S1280x1024_S1024x128_S1280x128_1_0_0_1_n_n 1024 rfl rfl).symm]
  refine Finset.sum_congr rfl fun k _ => ?_
  have hk := ValueIdx.contrEquiv1_symm_val dot_S1280x1024_S1024x128_S1280x128_1_0_0_1_n_n 1024 rfl rfl k
  have el : dot_S1280x1024_S1024x128_S1280x128_1_0_0_1_n_n.lhsIdx (ix2 j d) ((ValueIdx.contrEquiv1 dot_S1280x1024_S1024x128_S1280x128_1_0_0_1_n_n 1024 rfl rfl).symm k) = ix2 j k := funext fun a => Fin.ext (by
    match a with
    | ⟨0, _⟩ => exact lhs_tileDot_0 _ _
    | ⟨1, _⟩ => exact (lhs_tileDot_1 _ _).trans hk)
  have er : dot_S1280x1024_S1024x128_S1280x128_1_0_0_1_n_n.rhsIdx (ix2 j d) ((ValueIdx.contrEquiv1 dot_S1280x1024_S1024x128_S1280x128_1_0_0_1_n_n 1024 rfl rfl).symm k) = ix2 k d := funext fun a => Fin.ext (by
    match a with
    | ⟨0, _⟩ => exact (rhs_tileDot_0 _ _).trans hk
    | ⟨1, _⟩ => exact rhs_tileDot_1 _ _)
  rw [el, er]

/-! ## One point's step on the class-sum block -/

/-- A real number minus itself is zero (false at ±∞). -/
theorem sub_self_of_isReal {x : EReal} (h : IsReal x) : x - x = 0 := by
  obtain ⟨r, rfl⟩ := h
  rw [← EReal.coe_sub, sub_self, EReal.coe_zero]

/-- The new block at entry (j, d), for a real-valued batch tile `v6`: the old entry plus the sum over the tile's rows b
    of w(j, b) · v6(b, d). The body adds three products, of `w` with v6, with v6 − v6 and with
    (v6 − v6) − (v6 − v6); the last two factors are zero, and a product with zero is zero whatever `w` holds. -/
theorem addTile_apply (v6 : Vec Ideal S1024x128 .f32) (v36 : FVec Ideal S1280x1024 .bf16) (y : Vec Ideal S1280x128 .f32)
    (hv : ∀ i, IsReal (v6 i)) (j : Fin 1280) (d : Fin 128) :
    k0_pay2 (F := Ideal) v6 (k0_pay5 v6) v36 y (ix2 j d) = y (ix2 j d) + ∑ b : Fin 1024, v36 (ix2 j b) * v6 (ix2 b d) := by
  unfold k0_pay2 k0_pay5
  dsimp only
  rw [addf_apply, addf_apply, addf_apply, shapeCast_self, tileDot_apply, tileDot_apply, tileDot_apply]
  have z2 : ∑ b : Fin 1024, v36 (ix2 j b) * (truncf .bf16 (subf v6 v6) bitsLt_bf16_f32 : FVec Ideal S1024x128 .bf16) (ix2 b d) = 0 :=
    Finset.sum_eq_zero fun b _ => by
      show v36 (ix2 j b) * (v6 (ix2 b d) - v6 (ix2 b d)) = 0
      rw [sub_self_of_isReal (hv _), mul_zero]
  have z3 : ∑ b : Fin 1024, v36 (ix2 j b) * (truncf .bf16 (subf (subf v6 v6) (subf v6 v6)) bitsLt_bf16_f32 : FVec Ideal S1024x128 .bf16) (ix2 b d) = 0 :=
    Finset.sum_eq_zero fun b _ => by
      show v36 (ix2 j b) * ((v6 (ix2 b d) - v6 (ix2 b d)) - (v6 (ix2 b d) - v6 (ix2 b d))) = 0
      rw [sub_self_of_isReal (hv _), sub_zero, mul_zero]
  rw [z2, z3, add_zero, add_zero]
  rfl

/-- What batch row `r` adds to coordinate `d` of the class whose word is `w`: the row's coordinate when its label word is
    `w`, else nothing. -/
def rowShare (c : Dev nD) (w : BitVec 32) (d : Fin 128) (r : Fin 8192) : EReal :=
  if w = argL m c (ix1 r) then argE m c (ix2 r d) else 0

/-- At point `t` (class tile t / 8, batch tile t % 8) entry (j, d) of the class-sum block grows by the shares of the
    batch rows (t % 8)·1024 … (t % 8)·1024 + 1023 in class (t / 8)·1280 + j. -/
theorem out5_apply (c : Dev nD) (hE : ∀ i, IsReal (argE m c i)) (t : Fin cfg0.N) (y : Vec Ideal S1280x128 .f32)
    (j : Fin 1280) (d : Fin 128) :
    out5 (grid0.coords t) (eblk m c t) (lblk m c t) y (ix2 j d)
      = y (ix2 j d) + ∑ b : Fin 1024, rowShare m c (classWord (t.val / 8) j.val) d
          ⟨t.val % 8 * 1024 + b.val, by have := b.isLt; omega⟩ := by
  unfold out5 k0_pay8
  dsimp only
  refine (addTile_apply _ _ y (fun i => ?_) j d).trans ?_
  · obtain ⟨p, q, rfl⟩ : ∃ (p : Fin 1024) (q : Fin 128), i = ix2 p q := ⟨i 0, i 1, eq_ix2 i⟩
    rw [etile_apply m c t p q]; exact hE _
  · refine congrArg (y (ix2 j d) + ·) (Finset.sum_congr rfl fun b _ => ?_)
    rw [truncf_apply, oneHot_apply, ltile_apply m c t b, etile_apply m c t b d, coords_0 t]
    unfold rowShare
    split_ifs <;> simp

/-! ## The eight batch tiles of a class tile -/

/-- The class-sum block after batch tile `k` of class tile `q`: the shares of batch tiles 0 … k, added to zero. By
    induction on `k`: batch tile 0 starts from the zero block, a later one from what the point before left, which lies
    in the same class tile. -/
theorem acc5_partial (c : Dev nD) (hE : ∀ i, IsReal (argE m c i)) :
    ∀ (k : ℕ) (hk : k < 8) (t : Fin cfg0.N) (q : ℕ), t.val % 8 = k → t.val / 8 = q → ∀ (j : Fin 1280) (d : Fin 128),
      acc5 m c t.val t.isLt (ix2 j d)
        = ∑ s : Fin (k + 1), ∑ b : Fin 1024, rowShare m c (classWord q j.val) d
            ⟨s.val * 1024 + b.val, by have := b.isLt; have := s.isLt; omega⟩
  | 0, hk, t, q, ht, hq, j, d => by
    obtain rfl := hq
    rw [acc5_reset m c t ht, out5_apply m c hE t (k0_pay3 (F := Ideal)) j d]
    refine Eq.trans ?_ (Fin.sum_univ_one _).symm
    show Ideal.ofBits .f32 0x00000000#32 + _ = _
    rw [Ideal.ofBits_zero_f32, zero_add]
    refine Finset.sum_congr rfl fun b _ => congrArg _ (Fin.ext ?_)
    show t.val % 8 * 1024 + b.val = 0 * 1024 + b.val
    rw [ht]
  | k + 1, hk, t, q, ht, hq, j, d => by
    obtain rfl := hq
    have hlt : t.val < 64 := lt_of_lt_of_eq t.isLt (show cfg0.N = 64 from N_0)
    have h0 : ¬ t.val % 8 = 0 := by omega
    have ih := acc5_partial c hE k (by omega) ⟨t.val - 1, Nat.lt_of_le_of_lt (Nat.sub_le _ _) t.isLt⟩ (t.val / 8)
      (by show (t.val - 1) % 8 = k; omega) (by show (t.val - 1) / 8 = t.val / 8; omega) j d
    rw [acc5_step m c t h0, out5_apply m c hE t _ j d]
    refine Eq.trans ?_ (Fin.sum_univ_castSucc _).symm
    refine congrArg₂ (· + ·) ih ?_
    refine Finset.sum_congr rfl fun b _ => congrArg _ (Fin.ext ?_)
    show t.val % 8 * 1024 + b.val = (k + 1) * 1024 + b.val
    rw [ht]

/-- Eight tiles of 1024 rows are the 8192 rows: row s·1024 + b is counted once. -/
theorem sum_tiles (g : Fin 8192 → EReal) :
    ∑ s : Fin 8, ∑ b : Fin 1024, g ⟨s.val * 1024 + b.val, by have := s.isLt; have := b.isLt; omega⟩ = ∑ r : Fin 8192, g r := by
  refine (Fintype.sum_prod_type' (fun (s : Fin 8) (b : Fin 1024) =>
    g ⟨s.val * 1024 + b.val, by have := s.isLt; have := b.isLt; omega⟩)).symm.trans ?_
  refine Fintype.sum_equiv (finProdFinEquiv.trans (finCongr (by norm_num))) _ _ fun x => congrArg g (Fin.ext ?_)
  simp [finProdFinEquiv]
  omega

/-! ## The class word and the label -/

/-- The body's class word is the class number as a 32-bit word: nothing wraps. -/
theorem classWord_eq (q j : ℕ) : classWord q j = BitVec.ofNat 32 (q * 1280 + j) := by
  unfold classWord Scalar.muli IntOp.muli
  apply BitVec.eq_of_toNat_eq
  simp only [BitVec.toNat_add, BitVec.toNat_mul, BitVec.toNat_ofNat]
  omega

/-- A label word equals the word of a class below 10000 exactly when it reads, signed, as the class: the class is below
    2³¹, so a word that reads as it signed is nonnegative and reads the same unsigned. -/
theorem word_eq_iff (r : ℕ) (hr : r < 10000) (w : BitVec 32) : BitVec.ofNat 32 r = w ↔ w.toInt = (r : ℤ) := by
  have hw : w.toNat < 2 ^ 32 := w.isLt
  have key : BitVec.ofNat 32 r = w ↔ w.toNat = r :=
    ⟨fun h => by rw [← h, BitVec.toNat_ofNat]; exact Nat.mod_eq_of_lt (by omega),
     fun h => BitVec.eq_of_toNat_eq (by rw [BitVec.toNat_ofNat, h]; exact Nat.mod_eq_of_lt (by omega))⟩
  rw [key, BitVec.toInt_eq_toNat_cond]
  split_ifs <;> omega

/-- After batch tile 7 of a class tile, a row of the class-sum block that lies inside the array holds the sum of the
    batch rows labelled with its class. -/
theorem acc5_total (c : Dev nD) (hE : ∀ i, IsReal (argE m c i)) (t : Fin cfg0.N) (ht : t.val % 8 = 7)
    (j : Fin 1280) (d : Fin 128) (hr : t.val / 8 * 1280 + j.val < 10000) :
    acc5 m c t.val t.isLt (ix2 j d)
      = Cert.Spec.updateAt (argE m c) (argL m c) ⟨t.val / 8 * 1280 + j.val, hr⟩ d := by
  rw [acc5_partial m c hE 7 (by decide) t (t.val / 8) ht rfl j d]
  refine (sum_tiles (rowShare m c (classWord (t.val / 8) j.val) d)).trans ?_
  unfold Cert.Spec.updateAt
  refine Finset.sum_congr rfl fun r _ => ?_
  unfold rowShare
  refine if_congr ?_ rfl rfl
  rw [classWord_eq]
  exact word_eq_iff _ hr _

/-! ## From the blocks to the array -/

/-- Window 5's block index at a point: class tile t / 8, column block 0. -/
theorem block_index : ∀ t : Fin cfg0.N, win0_5.index t 0 = t.val / 8 ∧ win0_5.index t 1 = 0 :=
  (by decide +kernel : ∀ t : Fin grid0.N, win0_5.index t 0 = t.val / 8 ∧ win0_5.index t 1 = 0)

/-- How much of window 5's block at a point lies inside the array: all 1280 rows, but 1040 of them in the last class
    tile, and all 128 columns. -/
theorem block_inside : ∀ t : Fin cfg0.N, win0_5.xsize (grid0.coords t) 0 = min 1280 (10000 - t.val / 8 * 1280)
      ∧ win0_5.xsize (grid0.coords t) 1 = 128 :=
  (by decide +kernel : ∀ t : Fin grid0.N, win0_5.xsize (grid0.coords t) 0 = min 1280 (10000 - t.val / 8 * 1280)
      ∧ win0_5.xsize (grid0.coords t) 1 = 128)

/-- The specification's class sum depends on the class and the coordinate as numbers only. -/
theorem updateAt_congr (e : Cert.Spec.SE.Idx → EReal) (lab : Cert.Spec.SL.Idx → BitVec 32) {a a' b b' : ℕ}
    (ha : a < 10000) (ha' : a' < 10000) (hb : b < 128) (hb' : b' < 128) (h1 : a = a') (h2 : b = b') :
    Cert.Spec.updateAt e lab ⟨a, ha⟩ ⟨b, hb⟩ = Cert.Spec.updateAt e lab ⟨a', ha'⟩ ⟨b', hb'⟩ := by
  subst h1 h2; rfl

/-- What a point after batch tile 7 writes back — the rows of its block inside the array — is the specification's
    class sums read through the block: entry (y₀, y₁) of the part sits at row (t / 8)·1280 + y₀, column y₁ of the array. -/
theorem flushed_eq (c : Dev nD) (hE : ∀ i, IsReal (argE m c i)) (t : Fin cfg0.N) (hf : (cfg0.win 5).flush t = true) :
    (dats m 0 c).flushed 5 t
      = ((cfg0.win 5).blk t).view.read (Elt Ideal) (Cert.Spec.updates (argE m c) (argL m c)) := by
  have ht : t.val % 8 = 7 := (flush0_5 t).mp hf
  show (cfg0.win 5).cut (grid0.coords t) ((dats m 0 c).after 5 t) = _
  rw [after0_5]
  funext y
  rw [View.read_apply]
  show acc5 m c t.val t.isLt ((cfg0.win 5).xinj (grid0.coords t) y)
    = Cert.Spec.updates (argE m c) (argL m c) (((cfg0.win 5).blk t).view.emb y)
  have hy0 : (y 0).val < 1280 := Nat.lt_of_lt_of_le (y 0).isLt ((cfg0.win 5).xsize_le (grid0.coords t) 0)
  have hy1 : (y 1).val < 128 := Nat.lt_of_lt_of_le (y 1).isLt ((cfg0.win 5).xsize_le (grid0.coords t) 1)
  have hx : (cfg0.win 5).xinj (grid0.coords t) y = ix2 (⟨(y 0).val, hy0⟩ : Fin 1280) (⟨(y 1).val, hy1⟩ : Fin 128) :=
    funext fun a => match a with
      | ⟨0, _⟩ => rfl
      | ⟨1, _⟩ => rfl
  have e0 : ((((cfg0.win 5).blk t).view.emb y) 0).val = win0_5.index t 0 * 1280 + 1 * (y 0).val := rfl
  have e1 : ((((cfg0.win 5).blk t).view.emb y) 1).val = win0_5.index t 1 * 128 + 1 * (y 1).val := rfl
  have hl0 : ((((cfg0.win 5).blk t).view.emb y) 0).val < 10000 := ((((cfg0.win 5).blk t).view.emb y) 0).isLt
  rw [(block_index t).1] at e0
  rw [(block_index t).2] at e1
  have hr : t.val / 8 * 1280 + (y 0).val < 10000 := by omega
  rw [hx, acc5_total m c hE t ht ⟨(y 0).val, hy0⟩ ⟨(y 1).val, hy1⟩ hr]
  exact updateAt_congr _ _ _ _ _ _ (by show t.val / 8 * 1280 + (y 0).val = _; omega) (by show (y 1).val = _; omega)

end ClassSums

/-- The class-sum array after the run is the specification's, for a real-valued batch. Class r of the array lies in the
    block of class tile r / 1280, which is written back at the point after that tile's batch tile 7. -/
theorem updates_final (c : Dev nD) (hE : ∀ i, IsReal (argE m c i)) :
    (dats m 0 c).arrAt 5 cfg0.N = Cert.Spec.updates (argE m c) (argL m c) :=
  (dats m 0 c).arrAt_eq_of_cover 5 (Cert.Spec.updates (argE m c) (argL m c))
    (fun t hf => ClassSums.flushed_eq m c hE t hf) fun i => by
      have hi0 : (i 0).val < 10000 := (i 0).isLt
      have hi1 : (i 1).val < 128 := (i 1).isLt
      have hN : cfg0.N = 64 := N_0
      have hlt : (i 0).val / 1280 * 8 + 7 < cfg0.N := lt_of_lt_of_eq (by omega) hN.symm
      refine ⟨⟨(i 0).val / 1280 * 8 + 7, hlt⟩, (flush0_5 _).mpr (by show ((i 0).val / 1280 * 8 + 7) % 8 = 7; omega), ?_⟩
      have hq : (⟨(i 0).val / 1280 * 8 + 7, hlt⟩ : Fin cfg0.N).val / 8 = (i 0).val / 1280 := by
        show ((i 0).val / 1280 * 8 + 7) / 8 = (i 0).val / 1280; omega
      show i ∈ ((View.whole main_v7_1).slice (win0_5.rect ⟨(i 0).val / 1280 * 8 + 7, hlt⟩)).set
      rw [View.set_slice_whole, Rect.mem_set_unit]
      intro a
      match a with
      | ⟨0, _⟩ =>
        show win0_5.index ⟨(i 0).val / 1280 * 8 + 7, hlt⟩ 0 * 1280 ≤ (i 0 : Nat)
          ∧ (i 0 : Nat) < win0_5.index ⟨(i 0).val / 1280 * 8 + 7, hlt⟩ 0 * 1280
              + win0_5.xsize (grid0.coords ⟨(i 0).val / 1280 * 8 + 7, hlt⟩) 0
        rw [(ClassSums.block_index _).1, (ClassSums.block_inside _).1, hq]
        omega
      | ⟨1, _⟩ =>
        show win0_5.index ⟨(i 0).val / 1280 * 8 + 7, hlt⟩ 1 * 128 ≤ (i 1 : Nat)
          ∧ (i 1 : Nat) < win0_5.index ⟨(i 0).val / 1280 * 8 + 7, hlt⟩ 1 * 128
              + win0_5.xsize (grid0.coords ⟨(i 0).val / 1280 * 8 + 7, hlt⟩) 1
        rw [(ClassSums.block_index _).2, (ClassSums.block_inside _).2]
        omega

end Cert.KernelIdeal.Val

end
-- ==== Proof.KICounts.lean ====
/-
  The class-count row after the kernel's run and the result the program reshapes it into: the block of class tile q is
  written back once, after batch tile 7, holding the sum over the eight batch tiles of each tile's counts; entry j of
  it, inside the array, is the number of batch rows labelled (q·1280 + j).

  A tile's count for row j is a sum over its 1024 labels of 1 or 0: the label word against the word q·1280 + j. The
  running block restarts from zero at batch tile 0 and adds a tile's counts at every point, so after batch tile 7 it
  holds the sum over the eight tiles; the eight tiles of 1024 rows are the 8192 batch rows, and for a class below
  10000 the word test is the test that the label, read as a signed integer, is the class. The last class tile's
  block reaches 240 columns past the array; only its first 1040 columns are written back.
-/
import proofs.«414162_j54133767799349_3_alg».proof.Proof.KIBlocks

set_option maxRecDepth 16384

open scoped BigOperators

noncomputable section

namespace Cert.KernelIdeal.Val

open Cert.KernelIdeal Cert.KernelIdeal.Gen
open Idealize.ShloMosaic Idealize.ShloMosaic.TcCoe Idealize.ShloMosaic.ValueIdx
open Idealize.SL.Sem
open RealClosure

variable (m : (ℓ : Loc nD τ sig) → Buf (Elt Ideal) ℓ)

/-- The class word of row `j` of class tile `q`: the 32-bit word q·1280 + j. -/
def clsWord (q : Nat) (j : Fin 1280) : BitVec 32 := BitVec.ofNat 32 q * 1280#32 + BitVec.ofNat 32 j.val

/-- A one-bit word widened to 32 bits and read as a signed integer is 1 or 0. -/
theorem bit_toReal (c : BitVec 1) : ((((c.setWidth 32).toInt : ℤ) : ℝ) : EReal) = if c = 1#1 then (1 : EReal) else 0 := by
  rcases BitVec.eq_zero_or_eq_one c with h | h <;> subst h <;> simp

/-- Entry (j, b) of the one-hot block: 1 when label `b` of the batch tile is the class word of row `j`, else 0. -/
theorem pay7_apply (i : grid0.Coords) (v8 : Vec Ideal S1x1024 .i32) (j : Fin 1280) (b : Fin 1024) :
    k0_pay7 (F := Ideal) i v8 (ix2 j b)
      = if clsWord (i 0).val j = v8 (ix2 (0 : Fin 1) b) then (1 : EReal) else 0 := by
  unfold k0_pay7
  dsimp only
  have e1 : broadcastTo S1280x1024 (addi (broadcast S1280x1 (Scalar.muli (BitVec.ofNat 32 (i 0).val) 1280#32))
        (iota .tc S1280x1 32 [0] iota_S1280x1_d0_w32)) broadcasts_S1280x1_S1280x1024 (ix2 j b)
      = clsWord (i 0).val j := by
    refine (broadcastTo_apply _ _ (ix2 j b) (ix2 j (0 : Fin 1)) ?_).trans ?_
    · intro a; match a with | ⟨0, _⟩ => rfl | ⟨1, _⟩ => rfl
    · show IntOp.addi _ (iota .tc S1280x1 32 [0] iota_S1280x1_d0_w32 (ix2 j (0 : Fin 1))) = _
      rw [iota_single_apply]; rfl
  have e2 : broadcastTo S1280x1024 (shapeCast S1x1024 v8 shapeCasts_S1x1024_S1x1024) broadcasts_S1x1024_S1280x1024 (ix2 j b)
      = v8 (ix2 (0 : Fin 1) b) := by
    refine (broadcastTo_apply _ _ (ix2 j b) (ix2 (0 : Fin 1) b) ?_).trans ?_
    · intro a; match a with | ⟨0, _⟩ => rfl | ⟨1, _⟩ => rfl
    · rw [shapeCast_self]
  show ((((IntOp.cmpi .eq _ _).setWidth 32).toInt : ℝ) : EReal) = _
  rw [e1, e2, bit_toReal]
  unfold IntOp.cmpi
  dsimp only
  by_cases h : clsWord (i 0).val j = v8 (ix2 (0 : Fin 1) b)
  · rw [if_pos h, if_pos (by rw [h]; simp)]
  · have hb : (clsWord (i 0).val j == v8 (ix2 (0 : Fin 1) b)) = false := by simpa using h
    rw [if_neg h, hb, if_neg (by decide)]

/-- Row `j` of the one-hot block summed over the batch tile's 1024 labels, kept as a column. -/
theorem pay9_apply (i : grid0.Coords) (v8 : Vec Ideal S1x1024 .i32) (j : Fin 1280) :
    k0_pay9 (F := Ideal) i v8 (ix2 j (0 : Fin 1)) = ∑ b : Fin 1024, k0_pay7 (F := Ideal) i v8 (ix2 j b) := by
  unfold k0_pay9
  dsimp only
  refine (shapeCast_apply _ _ (ix2 j (0 : Fin 1)) (ix1 j) ?_).trans ?_
  · rw [Shape.rowMajor_val_one, Shape.rowMajor_val_two]
    show j.val = j.val * 1 + 0
    omega
  · refine (Ideal.multiReduction_add_single (k0_pay7 (F := Ideal) i v8) 0x00000000#32 reduces_S1280x1024_S1280
      (.inl rfl) rfl (ix1 j)).trans ?_
    show ∑ k : Fin 1024, _ = _
    refine Finset.sum_congr rfl fun b _ => congrArg _ ?_
    funext a
    match a with
    | ⟨0, _⟩ => rfl
    | ⟨1, _⟩ => rfl

/-- The column of counts laid along the row and added to the row already there. -/
theorem pay1_apply (v39 : FVec Ideal S1280x1 .f32) (v40 : Vec Ideal S1x1280 .f32) (j : Fin 1280) :
    k0_pay1 (F := Ideal) v39 v40 (ix2 (0 : Fin 1) j) = v40 (ix2 (0 : Fin 1) j) + v39 (ix2 j (0 : Fin 1)) := by
  unfold k0_pay1
  dsimp only
  rw [shapeCast_self]
  show v40 _ + transpose S1x1280 [1, 0] v39 transposes_S1280x1_p1_0_S1x1280 (ix2 (0 : Fin 1) j) = _
  refine congrArg (v40 (ix2 (0 : Fin 1) j) + ·) ?_
  refine transpose_apply _ _ _ (ix2 (0 : Fin 1) j) (ix2 j (0 : Fin 1)) ?_
  intro b
  match b with
  | ⟨0, _⟩ => rfl
  | ⟨1, _⟩ => rfl

/-- Entry `j` of the class-count block after a point: what was there plus the number of the point's 1024 labels
    whose word is the class word of row `j` of the point's class tile. -/
theorem out6_apply (i : grid0.Coords) (x1 : Vec Ideal S1x8192 .i32) (y : Vec Ideal S1x1280 .f32) (j : Fin 1280) :
    out6 (F := Ideal) i x1 y (ix2 (0 : Fin 1) j)
      = y (ix2 (0 : Fin 1) j)
        + ∑ b : Fin 1024, if clsWord (i 0).val j = ltile i x1 (ix2 (0 : Fin 1) b) then (1 : EReal) else 0 := by
  unfold out6
  refine (pay1_apply _ y j).trans ?_
  refine congrArg (y (ix2 (0 : Fin 1) j) + ·) ?_
  refine (pay9_apply i _ j).trans ?_
  exact Finset.sum_congr rfl fun b _ => pay7_apply i _ j b

/-- Label `b` of batch tile `n % 8`. -/
def lab (c : Dev nD) (n : Nat) (b : Fin 1024) : BitVec 32 :=
  argL m c (ix1 ⟨n % 8 * 1024 + b.val, by have := b.isLt; omega⟩)

/-- The number of labels of batch tile `n % 8` whose word is the class word of row `j` of class tile `n / 8`. -/
def tileCount (c : Dev nD) (n : Nat) (j : Fin 1280) : EReal :=
  ∑ b : Fin 1024, if clsWord (n / 8) j = lab m c n b then (1 : EReal) else 0

/-- The same at grid point `t`: class tile t / 8, the labels of batch tile t % 8. -/
theorem out6_point (c : Dev nD) (t : Fin cfg0.N) (y : Vec Ideal S1x1280 .f32) (j : Fin 1280) :
    out6 (F := Ideal) (grid0.coords t) (lblk m c t) y (ix2 (0 : Fin 1) j)
      = y (ix2 (0 : Fin 1) j) + tileCount m c t.val j := by
  refine (out6_apply (grid0.coords t) (lblk m c t) y j).trans ?_
  refine congrArg (y (ix2 (0 : Fin 1) j) + ·) ?_
  unfold tileCount lab
  refine Finset.sum_congr rfl fun b _ => ?_
  rw [coords_0, ltile_apply]

/-- The row the running block restarts from is zero. -/
theorem pay4_apply (j : Fin 1280) : k0_pay4 (F := Ideal) (ix2 (0 : Fin 1) j) = 0 := by
  unfold k0_pay4
  exact Ideal.ofBits_zero_f32

/-- After batch tile `k` of class tile `q`, entry `j` of the running block is the sum of the counts of batch tiles 0 … k. -/
theorem acc6_run (c : Dev nD) (q : Nat) :
    ∀ (k : Nat) (_ : k < 8) (h : 8 * q + k < cfg0.N) (j : Fin 1280),
      acc6 m c (8 * q + k) h (ix2 (0 : Fin 1) j) = ∑ s ∈ Finset.range (k + 1), tileCount m c (8 * q + s) j
  | 0, _, h, j => by
    have h0 := acc6_reset m c ⟨8 * q + 0, h⟩ (by show (8 * q + 0) % 8 = 0; omega)
    refine (congrFun h0 (ix2 (0 : Fin 1) j)).trans ?_
    refine (out6_point m c ⟨8 * q + 0, h⟩ (k0_pay4 (F := Ideal)) j).trans ?_
    rw [pay4_apply, zero_add, Finset.sum_range_one]
  | k + 1, hk, h, j => by
    have hs := acc6_step m c ⟨8 * q + (k + 1), h⟩ (by show ¬(8 * q + (k + 1)) % 8 = 0; omega)
    refine (congrFun hs (ix2 (0 : Fin 1) j)).trans ?_
    refine (out6_point m c ⟨8 * q + (k + 1), h⟩ _ j).trans ?_
    rw [Finset.sum_range_succ _ (k + 1)]
    refine congrArg (· + tileCount m c (8 * q + (k + 1)) j) ?_
    exact acc6_run c q k (by omega) (Nat.lt_of_succ_lt h) j

/-- Inside the array's classes the class word is the class number, so a label word equals it exactly when the label,
    read as a signed integer, is that class. -/
theorem clsWord_eq_iff (q : Nat) (j : Fin 1280) (hq : q < 8) (w : BitVec 32) :
    clsWord q j = w ↔ w.toInt = ((q * 1280 + j.val : Nat) : Int) := by
  have hj := j.isLt
  have hc : clsWord q j = BitVec.ofNat 32 (q * 1280 + j.val) := by
    unfold clsWord
    apply BitVec.eq_of_toNat_eq
    rw [BitVec.toNat_add, BitVec.toNat_mul, BitVec.toNat_ofNat, BitVec.toNat_ofNat, BitVec.toNat_ofNat, BitVec.toNat_ofNat]
    omega
  rw [hc]
  have e := BitVec.toInt_eq_toNat_cond w
  have hw := w.isLt
  constructor
  · intro h
    subst h
    rw [BitVec.toInt_eq_toNat_cond, BitVec.toNat_ofNat]
    omega
  · intro h
    apply BitVec.eq_of_toNat_eq
    rw [BitVec.toNat_ofNat]
    omega

/-- Batch row n is row n % 1024 of batch tile n / 1024. -/
def tileEquiv : Fin 8 × Fin 1024 ≃ Fin 8192 where
  toFun p := ⟨p.1.val * 1024 + p.2.val, by have := p.1.isLt; have := p.2.isLt; omega⟩
  invFun n := (⟨n.val / 1024, by have := n.isLt; omega⟩, ⟨n.val % 1024, by omega⟩)
  left_inv p := by
    have h1 := p.1.isLt
    have h2 := p.2.isLt
    refine Prod.ext (Fin.ext ?_) (Fin.ext ?_)
    · show (p.1.val * 1024 + p.2.val) / 1024 = p.1.val
      omega
    · show (p.1.val * 1024 + p.2.val) % 1024 = p.2.val
      omega
  right_inv n := Fin.ext (by show n.val / 1024 * 1024 + n.val % 1024 = n.val; omega)

/-- A sum over the eight batch tiles of sums over a tile's rows is the sum over the batch. -/
theorem sum_tiles (f : Fin 8192 → EReal) :
    ∑ s ∈ Finset.range 8, ∑ b : Fin 1024, f ⟨s % 8 * 1024 + b.val, by have := b.isLt; omega⟩ = ∑ n : Fin 8192, f n := by
  rw [Finset.sum_range (fun s => ∑ b : Fin 1024, f ⟨s % 8 * 1024 + b.val, by have := b.isLt; omega⟩)]
  rw [← Fintype.sum_prod_type' (fun (s : Fin 8) (b : Fin 1024) => f ⟨s.val % 8 * 1024 + b.val, by have := b.isLt; omega⟩)]
  exact Fintype.sum_equiv tileEquiv _ _ fun p => congrArg f (Fin.ext (by
    show p.1.val % 8 * 1024 + p.2.val = p.1.val * 1024 + p.2.val
    have := p.1.isLt
    omega))

/-- One label of one batch tile against one class inside the array: the word test is the specification's. -/
theorem hit_eq (c : Dev nD) (q : Nat) (hq : q < 8) (j : Fin 1280) (hr : q * 1280 + j.val < 10000) (s : Nat) (hs : s < 8) (b : Fin 1024) :
    (if clsWord ((8 * q + s) / 8) j = lab m c (8 * q + s) b then (1 : EReal) else 0)
      = if Cert.Spec.Labelled (argL m c) ⟨s % 8 * 1024 + b.val, by have := b.isLt; omega⟩ ⟨q * 1280 + j.val, hr⟩
          then (1 : EReal) else 0 := by
  have e1 : (8 * q + s) / 8 = q := by omega
  have e2 : lab m c (8 * q + s) b = argL m c (ix1 ⟨s % 8 * 1024 + b.val, by have := b.isLt; omega⟩) := by
    unfold lab
    exact congrArg (fun n => argL m c (ix1 n)) (Fin.ext (by
      show (8 * q + s) % 8 * 1024 + b.val = s % 8 * 1024 + b.val
      omega))
  rw [e1, e2]
  exact if_congr (clsWord_eq_iff q j hq _) rfl rfl

/-- The eight batch tiles' counts for row `j` of class tile `q`, inside the array, add up to the class's count. -/
theorem tiles_sum (c : Dev nD) (q : Nat) (hq : q < 8) (j : Fin 1280) (hr : q * 1280 + j.val < 10000) :
    ∑ s ∈ Finset.range 8, tileCount m c (8 * q + s) j = Cert.Spec.countAt (argL m c) ⟨q * 1280 + j.val, hr⟩ := by
  unfold Cert.Spec.countAt
  rw [← sum_tiles (fun n => if Cert.Spec.Labelled (argL m c) n ⟨q * 1280 + j.val, hr⟩ then (1 : EReal) else 0)]
  refine Finset.sum_congr rfl fun s hs => ?_
  unfold tileCount
  exact Finset.sum_congr rfl fun b _ => hit_eq m c q hq j hr s (Finset.mem_range.mp hs) b

/-- The 1 × 10000 row of the class counts. -/
def countRow (c : Dev nD) : Vec Ideal S1x10000 .f32 :=
  fun i => Cert.Spec.countAt (argL m c) ⟨(i 1).val, (i 1).isLt⟩

/-- The count block of point `t` is block (0, t / 8). -/
theorem idx6 : ∀ t : Fin cfg0.N, win0_6.index t 0 = 0 ∧ win0_6.index t 1 = t.val / 8 :=
  (by decide +kernel : ∀ t : Fin grid0.N, win0_6.index t 0 = 0 ∧ win0_6.index t 1 = t.val / 8)

/-- What a write-back of the count block writes — the block's part inside the array, after batch tile 7 — is that
    part of the row of class counts. -/
theorem flushed6 (c : Dev nD) (t : Fin cfg0.N) (hf : (cfg0.win 6).flush t = true) :
    (dats m 0 c).flushed 6 t = ((cfg0.win 6).blk t).view.read (Elt Ideal) (countRow m c) := by
  have h7 : t.val % 8 = 7 := (flush0_6 t).mp hf
  have hN : cfg0.N = 64 := N_0
  have htN : t.val < 64 := lt_of_lt_of_eq t.isLt hN
  show (cfg0.win 6).cut (grid0.coords t) ((dats m 0 c).after 6 t) = _
  rw [after0_6]
  funext y
  rw [View.read_apply]
  show acc6 m c t.val t.isLt ((cfg0.win 6).xinj (grid0.coords t) y) = countRow m c (((cfg0.win 6).blk t).view.emb y)
  have hb1 : win0_6.index t 1 * win0_6.size 1 + win0_6.xsize (grid0.coords t) 1 ≤ win0_6.shape.size 1 :=
    Pipeline.Clip.inb (win0_6.hclip (grid0.coords t) 1)
  rw [(idx6 t).2] at hb1
  have hb1' : t.val / 8 * 1280 + win0_6.xsize (grid0.coords t) 1 ≤ 10000 := hb1
  have hx0 : win0_6.xsize (grid0.coords t) 0 ≤ 1 := win0_6.xsize_le (grid0.coords t) 0
  have hx1 : win0_6.xsize (grid0.coords t) 1 ≤ 1280 := win0_6.xsize_le (grid0.coords t) 1
  have hy0 : (y 0).val < win0_6.xsize (grid0.coords t) 0 := (y 0).isLt
  have hy1 : (y 1).val < win0_6.xsize (grid0.coords t) 1 := (y 1).isLt
  have hxinj : (cfg0.win 6).xinj (grid0.coords t) y = ix2 (0 : Fin 1) (⟨(y 1).val, by omega⟩ : Fin 1280) := by
    funext a
    match a with
    | ⟨0, _⟩ => exact Fin.ext (by show (y 0).val = 0; omega)
    | ⟨1, _⟩ => rfl
  have same : ∀ (u : Nat) (hu : u < cfg0.N), u = t.val → acc6 m c u hu = acc6 m c t.val t.isLt :=
    fun u hu e => by subst e; rfl
  have ht : 8 * (t.val / 8) + 7 = t.val := by omega
  have hlt : 8 * (t.val / 8) + 7 < cfg0.N := lt_of_lt_of_eq (by omega : 8 * (t.val / 8) + 7 < 64) hN.symm
  rw [← same _ hlt ht, hxinj]
  refine (acc6_run m c (t.val / 8) 7 (by omega) hlt _).trans ?_
  refine (tiles_sum m c (t.val / 8) (by omega) _ (by show t.val / 8 * 1280 + (y 1).val < 10000; omega)).trans ?_
  unfold countRow
  refine congrArg (Cert.Spec.countAt (argL m c)) (Fin.ext ?_)
  show t.val / 8 * 1280 + (y 1).val = win0_6.index t 1 * 1280 + 1 * (y 1).val
  rw [(idx6 t).2]
  omega

/-- The part of the count block inside the array: one row, and 1280 columns but for the last class tile's 1040. -/
theorem xsize6 : ∀ t : Fin cfg0.N, win0_6.xsize (grid0.coords t) 0 = 1
      ∧ win0_6.xsize (grid0.coords t) 1 = if t.val / 8 = 7 then 1040 else 1280 :=
  (by decide +kernel : ∀ t : Fin grid0.N, win0_6.xsize (grid0.coords t) 0 = 1
      ∧ win0_6.xsize (grid0.coords t) 1 = if t.val / 8 = 7 then 1040 else 1280)

/-- Class r is written back with the block of its class tile r / 1280, at that tile's last batch tile. -/
theorem cover6 (i : S1x10000.Idx) :
    ∃ t : Fin cfg0.N, (cfg0.win 6).flush t = true ∧ i ∈ ((cfg0.win 6).blk t).view.set := by
  have hN : cfg0.N = 64 := N_0
  have h0 : (i 0 : Nat) < 1 := (i 0).isLt
  have h1 : (i 1 : Nat) < 10000 := (i 1).isLt
  have hlt : (i 1 : Nat) / 1280 * 8 + 7 < cfg0.N := lt_of_lt_of_eq (by omega : (i 1 : Nat) / 1280 * 8 + 7 < 64) hN.symm
  refine ⟨⟨(i 1 : Nat) / 1280 * 8 + 7, hlt⟩, (flush0_6 _).mpr (by show ((i 1 : Nat) / 1280 * 8 + 7) % 8 = 7; omega), ?_⟩
  show i ∈ ((View.whole main_v7_2).slice (win0_6.rect ⟨(i 1 : Nat) / 1280 * 8 + 7, hlt⟩)).set
  rw [View.set_slice_whole, Rect.mem_set_unit]
  have hi := idx6 ⟨(i 1 : Nat) / 1280 * 8 + 7, hlt⟩
  have hx := xsize6 ⟨(i 1 : Nat) / 1280 * 8 + 7, hlt⟩
  intro a
  match a with
  | ⟨0, _⟩ =>
    show win0_6.index ⟨(i 1 : Nat) / 1280 * 8 + 7, hlt⟩ 0 * 1 ≤ (i 0 : Nat)
      ∧ (i 0 : Nat) < win0_6.index ⟨(i 1 : Nat) / 1280 * 8 + 7, hlt⟩ 0 * 1
          + win0_6.xsize (grid0.coords ⟨(i 1 : Nat) / 1280 * 8 + 7, hlt⟩) 0
    rw [hi.1, hx.1]
    omega
  | ⟨1, _⟩ =>
    show win0_6.index ⟨(i 1 : Nat) / 1280 * 8 + 7, hlt⟩ 1 * 1280 ≤ (i 1 : Nat)
      ∧ (i 1 : Nat) < win0_6.index ⟨(i 1 : Nat) / 1280 * 8 + 7, hlt⟩ 1 * 1280
          + win0_6.xsize (grid0.coords ⟨(i 1 : Nat) / 1280 * 8 + 7, hlt⟩) 1
    rw [hi.2, hx.2]
    show ((i 1 : Nat) / 1280 * 8 + 7) / 8 * 1280 ≤ (i 1 : Nat)
      ∧ (i 1 : Nat) < ((i 1 : Nat) / 1280 * 8 + 7) / 8 * 1280 + if ((i 1 : Nat) / 1280 * 8 + 7) / 8 = 7 then 1040 else 1280
    split <;> omega

/-- After the kernel's run the 1 × 10000 result holds the class counts. -/
theorem row6 (c : Dev nD) : (dats m 0 c).arrAt 6 cfg0.N = countRow m c :=
  (dats m 0 c).arrAt_eq_of_cover 6 (countRow m c) (flushed6 m c) cover6

/-- The result the program returns for the counts — the 1 × 10000 row the kernel leaves, reshaped to 10000 — is the
    specification's. -/
theorem counts_final (c : Dev nD) :
    Pipeline.afterTail₀ cfgs (dats m) 0 (V0 m) [hostOps1] c main_v8 = Cert.Spec.counts (argL m c) := by
  unfold Pipeline.afterTail₀
  show StableHlo.after hostOps1 _ (Proc.devRef .tc main_v8) = _
  after_results
  have hrow : Pipeline.withArrays (cfgs 0).spec c (V0 m c) (fun w => (dats m 0 c).arrAt w (cfgs 0).N)
      (Proc.tc.devRef main_v7_2) = countRow m c :=
    (Pipeline.withArrays_arr spec0 launch0.win.arr_inj c _ _ 6).trans (row6 m c)
  funext i
  obtain ⟨r, rfl⟩ : ∃ r : Fin 10000, i = ix1 r := ⟨i 0, eq_ix1 i⟩
  show shapeCast S10000 (Pipeline.withArrays (cfgs 0).spec c (V0 m c) (fun w => (dats m 0 c).arrAt w (cfgs 0).N)
      (Proc.tc.devRef main_v7_2)) shapeCasts_S1x10000_S10000 (ix1 r) = _
  refine (shapeCast_apply _ _ (ix1 r) (ix2 (0 : Fin 1) r) ?_).trans ?_
  · rw [Shape.rowMajor_val_two, Shape.rowMajor_val_one]
    show 0 * 10000 + r.val = r.val
    omega
  · exact congrFun hrow (ix2 (0 : Fin 1) r)

end Cert.KernelIdeal.Val

end
-- ==== Proof.Ref.lean ====
/-
  The reference program's scores, read one operation at a time, are the specification's: minus the squared distance
  |e_b|² + |p_j|² − 2 e_b·p_j clamped below at zero, the two squared lengths and the inner product plain sums over the
  128 coordinates.
-/
import proofs.«414162_j54133767799349_3_alg».proof.Proof.Gen.ReferenceIdeal.Read
import proofs.«414162_j54133767799349_3_alg».proof.Proof.Spec
import Idealize.ShloMosaic.Lib.ValueIdx
import Idealize.ShloMosaic.PureOps.Ideal.Laws

set_option maxRecDepth 16384

open scoped BigOperators

noncomputable section

namespace Cert.RefBridge

open Cert.ReferenceIdeal Cert.ReferenceIdeal.Gen Cert.ReferenceIdeal.Read
open Idealize.ShloMosaic Idealize.ShloMosaic.ValueIdx

/-- The row of the batch that the first squared length sums over: the score's row, coordinate by coordinate. -/
theorem idx_sqE (b : Fin 8192) (j : Fin 10000) (k : Fin 128) :
    idx_main_v1 (idx_main_v2 (idx_main_v6 (ix2 b j))) k = ix2 b k :=
  funext fun a => Fin.ext (by match a with | ⟨0, _⟩ => rfl | ⟨1, _⟩ => rfl)

/-- The prototype that the second squared length sums over: the score's class, coordinate by coordinate. -/
theorem idx_sqP (b : Fin 8192) (j : Fin 10000) (k : Fin 128) :
    idx_main_v4 (idx_main_v5 (idx_main_v7 (ix2 b j))) k = ix2 j k :=
  funext fun a => Fin.ext (by match a with | ⟨0, _⟩ => rfl | ⟨1, _⟩ => rfl)

/-- The inner product's left factor is read from the score's batch row. -/
theorem idx_dotL (b : Fin 8192) (j : Fin 10000) (k : Fin 128) :
    lidx_main_v9 (ix2 b j) k = ix2 b k :=
  funext fun a => Fin.ext (by match a with | ⟨0, _⟩ => rfl | ⟨1, _⟩ => rfl)

/-- The inner product's right factor is read from the score's prototype. -/
theorem idx_dotR (b : Fin 8192) (j : Fin 10000) (k : Fin 128) :
    ridx_main_v9 (ix2 b j) k = ix2 j k :=
  funext fun a => Fin.ext (by match a with | ⟨0, _⟩ => rfl | ⟨1, _⟩ => rfl)

/-- Reading the score stage at row `b` and class `j` through every operation gives
    `-(max ((0 + ∑ e²) + (0 + ∑ p²) - 2 * ∑ e·p) 0)`; the two zeros are the sums' initial values and drop out,
    leaving the specification's score term for term. -/
theorem ref_scores (x0 : Cert.Spec.SE.Idx → EReal) (x2 : Cert.Spec.SP.Idx → EReal) :
    val_main_v15 (F := Ideal) x0 x2 = Cert.Spec.scores x0 x2 := by
  funext i
  obtain ⟨b, j, rfl⟩ : ∃ (b : Fin 8192) (j : Fin 10000), i = ix2 b j := ⟨i 0, i 1, eq_ix2 i⟩
  rw [val_main_v15_apply, val_main_v14_apply, val_main_v13_apply, val_main_cst_2_apply, val_main_v12_apply,
    val_main_v11_apply, val_main_v10_apply, val_main_cst_1_apply, val_main_v9_apply, val_main_v8_apply,
    val_main_v7_apply, val_main_v5_apply, val_main_v4_apply, val_main_cst_0_apply,
    val_main_v6_apply, val_main_v2_apply, val_main_v1_apply, val_main_cst_apply]
  show _ = Cert.Spec.scoreAt x0 x2 b j
  unfold Cert.Spec.scoreAt Cert.Spec.sqE Cert.Spec.sqP Cert.Spec.dotEP Cert.Spec.two
  simp only [val_main_v0_apply, val_main_v3_apply, idx_sqE, idx_sqP, idx_dotL, idx_dotR,
    Ideal.hostNegf_def, Ideal.negf_def, Ideal.maximumf_def, Ideal.subf_def, Ideal.addf_def, Ideal.mulf_def,
    Ideal.ofBits_def, Ideal.ofBits_zero_f32, zero_add]

end Cert.RefBridge

end
-- ==== Proof.RefScatter.lean ====
/-
  The reference program's class sums and class counts are the specification's: a scatter-addition into a zero array
  adds, at class j, the batch rows (or ones) whose label, read signed, is j, and drops a row whose label is no class.
-/
import proofs.«414162_j54133767799349_3_alg».proof.Proof.Gen.ReferenceIdeal.Read
import proofs.«414162_j54133767799349_3_alg».proof.Proof.Spec
import Idealize.ShloMosaic.Lib.ValueIdx
import Idealize.ShloMosaic.PureOps.Ideal.Laws

set_option maxRecDepth 16384

open scoped BigOperators

noncomputable section

namespace Cert.RefBridge

open Cert.ReferenceIdeal Cert.ReferenceIdeal.Gen Cert.ReferenceIdeal.Read
open Idealize.ShloMosaic Idealize.ShloMosaic.ValueIdx

/-- On the class axis the window of update row `p` starts at the row's label, read signed. -/
theorem dU_start0 {w : Nat} (p : Fin 8192) (q : Fin 128) (idx : IVec S8192x1 w) :
    scatter_S10000x128_S8192x1_S8192x128_1_0_0_1.start (ix2 p q) idx 0 = (idx (ix2 p 0)).toInt := by
  unfold ScatterDims.start
  rw [dif_pos (show (0 : Fin 2) ∈ scatter_S10000x128_S8192x1_S8192x128_1_0_0_1.scatterDimsToOperandDims from List.mem_singleton.mpr rfl)]
  have hsi : scatter_S10000x128_S8192x1_S8192x128_1_0_0_1.siIdx (ix2 p q) ⟨List.idxOf (0 : Fin 2) scatter_S10000x128_S8192x1_S8192x128_1_0_0_1.scatterDimsToOperandDims,
      List.idxOf_lt_length_iff.2 (List.mem_singleton.mpr rfl)⟩ = ix2 p 0 := by
    funext b; refine Fin.ext ?_
    match b with
    | ⟨0, _⟩ => rfl
    | ⟨1, _⟩ => rfl
  rw [hsi]

/-- On the coordinate axis the window starts at zero. -/
theorem dU_start1 {w : Nat} (p : Fin 8192) (q : Fin 128) (idx : IVec S8192x1 w) :
    scatter_S10000x128_S8192x1_S8192x128_1_0_0_1.start (ix2 p q) idx 1 = 0 := by
  unfold ScatterDims.start
  rw [dif_neg (show ¬ (1 : Fin 2) ∈ scatter_S10000x128_S8192x1_S8192x128_1_0_0_1.scatterDimsToOperandDims from by decide)]

/-- The class axis is an inserted one: no window coordinate on it. -/
theorem dU_window0 (p : Fin 8192) (q : Fin 128) :
    scatter_S10000x128_S8192x1_S8192x128_1_0_0_1.window (ix2 p q) 0 = 0 := by
  unfold ScatterDims.window
  rw [dif_neg (show ¬ (0 : Fin 2) ∈ scatter_S10000x128_S8192x1_S8192x128_1_0_0_1.sKept from by decide)]

/-- The window coordinate on the coordinate axis is the update's own coordinate. -/
theorem dU_window1 (p : Fin 8192) (q : Fin 128) :
    scatter_S10000x128_S8192x1_S8192x128_1_0_0_1.window (ix2 p q) 1 = q.val := by
  unfold ScatterDims.window
  rw [dif_pos (show (1 : Fin 2) ∈ scatter_S10000x128_S8192x1_S8192x128_1_0_0_1.sKept from by decide)]
  rfl

/-- Update element `(p, q)` lands on `(c, r)` exactly when row `p`'s label, read signed, is `c` and `q = r`. -/
theorem dU_lands_iff {w : Nat} (p : Fin 8192) (q : Fin 128) (idx : IVec S8192x1 w) (c : Fin 10000) (r : Fin 128) :
    scatter_S10000x128_S8192x1_S8192x128_1_0_0_1.resultIdx? (ix2 p q) idx = some (ix2 c r)
      ↔ ((idx (ix2 p 0)).toInt = (c.val : Int) ∧ q = r) := by
  have hc : c.val < 10000 := c.isLt
  have hq : q.val < 128 := q.isLt
  unfold ScatterDims.resultIdx?
  split
  next h =>
    rw [Option.some.injEq]
    constructor
    · intro e
      have e0 := congrArg (fun f => (f 0).val) e
      have e1 := congrArg (fun f => (f 1).val) e
      have h0 := (h 0).1
      simp only [dU_start0, dU_window0, dU_start1, dU_window1] at e0 e1 h0
      refine ⟨?_, Fin.ext ?_⟩
      · have : ((ix2 c r : S10000x128.Idx) 0).val = c.val := rfl
        rw [this] at e0
        omega
      · have : ((ix2 c r : S10000x128.Idx) 1).val = r.val := rfl
        rw [this] at e1
        omega
    · rintro ⟨e0, rfl⟩
      funext a
      refine Fin.ext ?_
      match a with
      | ⟨0, _⟩ =>
        show (scatter_S10000x128_S8192x1_S8192x128_1_0_0_1.start (ix2 p q) idx 0 + (scatter_S10000x128_S8192x1_S8192x128_1_0_0_1.window (ix2 p q) 0 : Nat)).toNat = c.val
        rw [dU_start0, dU_window0, e0]; omega
      | ⟨1, _⟩ =>
        show (scatter_S10000x128_S8192x1_S8192x128_1_0_0_1.start (ix2 p q) idx 1 + (scatter_S10000x128_S8192x1_S8192x128_1_0_0_1.window (ix2 p q) 1 : Nat)).toNat = q.val
        rw [dU_start1, dU_window1]; omega
  next h =>
    constructor
    · intro e; exact absurd e (by simp)
    · rintro ⟨e0, rfl⟩
      exfalso; apply h
      intro a
      match a with
      | ⟨0, _⟩ =>
        show 0 ≤ scatter_S10000x128_S8192x1_S8192x128_1_0_0_1.start (ix2 p q) idx 0 + (scatter_S10000x128_S8192x1_S8192x128_1_0_0_1.window (ix2 p q) 0 : Nat)
          ∧ scatter_S10000x128_S8192x1_S8192x128_1_0_0_1.start (ix2 p q) idx 0 + (scatter_S10000x128_S8192x1_S8192x128_1_0_0_1.window (ix2 p q) 0 : Nat) < (10000 : Nat)
        rw [dU_start0, dU_window0, e0]; omega
      | ⟨1, _⟩ =>
        show 0 ≤ scatter_S10000x128_S8192x1_S8192x128_1_0_0_1.start (ix2 p q) idx 1 + (scatter_S10000x128_S8192x1_S8192x128_1_0_0_1.window (ix2 p q) 1 : Nat)
          ∧ scatter_S10000x128_S8192x1_S8192x128_1_0_0_1.start (ix2 p q) idx 1 + (scatter_S10000x128_S8192x1_S8192x128_1_0_0_1.window (ix2 p q) 1 : Nat) < (128 : Nat)
        rw [dU_start1, dU_window1]; omega

/-- The broadcast label array at `(p, 0)` is row `p`'s label. -/
private theorem labels_at (x1 : Cert.Spec.SL.Idx → BitVec 32) (p : Fin 8192) :
    val_main_v17 (F := Ideal) x1 (ix2 p 0) = x1 (ix1 p) := by
  rw [val_main_v17_apply]
  exact congrArg x1 (funext fun a => Fin.ext (by match a with | ⟨0, _⟩ => rfl))

theorem ref_updates (x0 : Cert.Spec.SE.Idx → EReal) (x1 : Cert.Spec.SL.Idx → BitVec 32) :
    val_main_v18 (F := Ideal) x0 x1 = Cert.Spec.updates x0 x1 := by
  funext i
  obtain ⟨c, r, rfl⟩ : ∃ (c : Fin 10000) (r : Fin 128), i = ix2 c r := ⟨i 0, i 1, eq_ix2 i⟩
  show Ideal.hostScatterAdd scatter_S10000x128_S8192x1_S8192x128_1_0_0_1 (val_main_v16 (F := Ideal))
      (val_main_v17 (F := Ideal) x1) x0 (ix2 c r) = Cert.Spec.updateAt x0 x1 c r
  unfold Ideal.hostScatterAdd Cert.Spec.updateAt
  rw [val_main_v16_apply, val_main_cst_3_apply, Ideal.ofBits_def, Ideal.ofBits_zero_f32, zero_add,
    Finset.sum_filter, sum_idx2]
  refine Finset.sum_congr rfl fun b _ => ?_
  simp only [dU_lands_iff, labels_at]
  by_cases hL : Cert.Spec.Labelled x1 b c
  · rw [if_pos hL]
    have hL' : (x1 (ix1 b)).toInt = (c.val : Int) := hL
    simp only [hL', true_and]
    rw [Finset.sum_ite_eq' Finset.univ r (fun q => x0 (ix2 b q)), if_pos (Finset.mem_univ r)]
  · rw [if_neg hL]
    refine Finset.sum_eq_zero fun q _ => ?_
    rw [if_neg]
    rintro ⟨e, _⟩
    exact hL e

/-- For the counts, update `p`'s window starts at row `p`'s label, read signed. -/
theorem dC_start0 {w : Nat} (p : Fin 8192) (idx : IVec S8192x1 w) :
    scatter_S10000_S8192x1_S8192_n_0_0_1.start (ix1 p) idx 0 = (idx (ix2 p 0)).toInt := by
  unfold ScatterDims.start
  rw [dif_pos (show (0 : Fin 1) ∈ scatter_S10000_S8192x1_S8192_n_0_0_1.scatterDimsToOperandDims from List.mem_singleton.mpr rfl)]
  have hsi : scatter_S10000_S8192x1_S8192_n_0_0_1.siIdx (ix1 p) ⟨List.idxOf (0 : Fin 1) scatter_S10000_S8192x1_S8192_n_0_0_1.scatterDimsToOperandDims,
      List.idxOf_lt_length_iff.2 (List.mem_singleton.mpr rfl)⟩ = ix2 p 0 := by
    funext b; refine Fin.ext ?_
    match b with
    | ⟨0, _⟩ => rfl
    | ⟨1, _⟩ => rfl
  rw [hsi]

/-- The one operand axis is an inserted one: no window coordinate. -/
theorem dC_window0 (p : Fin 8192) :
    scatter_S10000_S8192x1_S8192_n_0_0_1.window (ix1 p) 0 = 0 := by
  unfold ScatterDims.window
  rw [dif_neg (show ¬ (0 : Fin 1) ∈ scatter_S10000_S8192x1_S8192_n_0_0_1.sKept from by decide)]

/-- Update `p` lands on class `c` exactly when row `p`'s label, read signed, is `c`. -/
theorem dC_lands_iff {w : Nat} (p : Fin 8192) (idx : IVec S8192x1 w) (c : Fin 10000) :
    scatter_S10000_S8192x1_S8192_n_0_0_1.resultIdx? (ix1 p) idx = some (ix1 c)
      ↔ (idx (ix2 p 0)).toInt = (c.val : Int) := by
  have hc : c.val < 10000 := c.isLt
  unfold ScatterDims.resultIdx?
  split
  next h =>
    rw [Option.some.injEq]
    constructor
    · intro e
      have e0 := congrArg (fun f => (f 0).val) e
      have h0 := (h 0).1
      simp only [dC_start0, dC_window0] at e0 h0
      have : ((ix1 c : S10000.Idx) 0).val = c.val := rfl
      rw [this] at e0
      omega
    · intro e0
      funext a
      refine Fin.ext ?_
      match a with
      | ⟨0, _⟩ =>
        show (scatter_S10000_S8192x1_S8192_n_0_0_1.start (ix1 p) idx 0 + (scatter_S10000_S8192x1_S8192_n_0_0_1.window (ix1 p) 0 : Nat)).toNat = c.val
        rw [dC_start0, dC_window0, e0]; omega
  next h =>
    constructor
    · intro e; exact absurd e (by simp)
    · intro e0
      exfalso; apply h
      intro a
      match a with
      | ⟨0, _⟩ =>
        show 0 ≤ scatter_S10000_S8192x1_S8192_n_0_0_1.start (ix1 p) idx 0 + (scatter_S10000_S8192x1_S8192_n_0_0_1.window (ix1 p) 0 : Nat)
          ∧ scatter_S10000_S8192x1_S8192_n_0_0_1.start (ix1 p) idx 0 + (scatter_S10000_S8192x1_S8192_n_0_0_1.window (ix1 p) 0 : Nat) < (10000 : Nat)
        rw [dC_start0, dC_window0, e0]; omega

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ fun i => ?_
  exact congrArg f (eq_ix1 i)

/-- The word `0x3F800000` is the float one. -/
private theorem ofBits_one : Ideal.ofBits .f32 0x3F800000#32 = (1 : EReal) := by
  have h : Ideal.ofBits .f32 0x3F800000#32 = ((1 : ℝ) : EReal) := by
    simp [Ideal.ofBits, Ideal.ieee, -EReal.coe_mul, -EReal.coe_one]; norm_num
  rw [h, EReal.coe_one]

/-- The broadcast label array of the counts at `(p, 0)` is row `p`'s label. -/
private theorem labels_at' (x1 : Cert.Spec.SL.Idx → BitVec 32) (p : Fin 8192) :
    val_main_v21 (F := Ideal) x1 (ix2 p 0) = x1 (ix1 p) := by
  rw [val_main_v21_apply]
  exact congrArg x1 (funext fun a => Fin.ext (by match a with | ⟨0, _⟩ => rfl))

theorem ref_counts (x1 : Cert.Spec.SL.Idx → BitVec 32) :
    val_main_v22 (F := Ideal) x1 = Cert.Spec.counts x1 := by
  funext i
  obtain ⟨c, rfl⟩ : ∃ c : Fin 10000, i = ix1 c := ⟨i 0, eq_ix1 i⟩
  show Ideal.hostScatterAdd scatter_S10000_S8192x1_S8192_n_0_0_1 (val_main_v20 (F := Ideal))
      (val_main_v21 (F := Ideal) x1) (val_main_v19 (F := Ideal)) (ix1 c) = Cert.Spec.countAt x1 c
  unfold Ideal.hostScatterAdd Cert.Spec.countAt
  rw [val_main_v20_apply, val_main_cst_5_apply, Ideal.ofBits_def, Ideal.ofBits_zero_f32, zero_add,
    Finset.sum_filter, sum_idx1]
  refine Finset.sum_congr rfl fun b _ => ?_
  rw [val_main_v19_apply, val_main_cst_4_apply, Ideal.ofBits_def, ofBits_one]
  simp only [dC_lands_iff, labels_at']
  rfl

end Cert.RefBridge

end
-- ==== Proof.Finite.lean ====
/-
  From the precondition to real numbers: when the printed predicate "every float input is finite" is all ones, every
  entry of the batch and of the prototypes is a real number.
-/
import proofs.«414162_j54133767799349_3_alg».proof.Proof.Gen.Pre_finite_inputs
import proofs.«414162_j54133767799349_3_alg».proof.Proof.Spec
import proofs.«414162_j54133767799349_3_alg».proof.Proof.LibRealClosure
import Idealize.ShloMosaic.Lib.ReduceAll
import Idealize.ShloMosaic.Lib.ValueIdx

set_option maxRecDepth 16384

noncomputable section

namespace Cert.Finite

open Idealize.ShloMosaic Idealize.ShloMosaic.ValueIdx RealClosure

/-- The comparison "less than" of two extended reals, as a one-bit word, is 1 exactly when the strict inequality
    holds. -/
theorem lt_of_cmp_olt {a b : EReal} (h : Ideal.cmp .olt a b = 1#1) : a < b := by
  have h' : BitVec.ofBool (decide (a < b)) = 1#1 := h
  by_cases hlt : a < b
  · exact hlt
  · rw [decide_eq_false hlt] at h'
    exact absurd h' (by decide)

/-- An extended real whose absolute value, max x (-x), lies strictly below +∞ is neither infinity: x = +∞ makes the
    maximum +∞ through its first argument, x = -∞ through its second. -/
theorem isReal_of_abs_lt_top {x : EReal} (h : max x (-x) < ⊤) : IsReal x := by
  obtain ⟨h1, h2⟩ := max_lt_iff.1 h
  refine isReal_of_ne ?_ h1.ne
  intro hb
  rw [hb, EReal.neg_bot] at h2
  exact lt_irrefl _ h2

/-- One entry of the printed predicate: |x| < (the value of the word 0x7F800000, which is +∞) forces x real. -/
theorem isReal_of_entry {x : Ideal .f32}
    (h : FloatOps.cmpf .olt (FloatOps.hostAbsf x) (FloatOps.ofBits (F := Ideal) .f32 0x7F800000#32) = 1#1) :
    IsReal x := by
  have h' : Ideal.cmp .olt (max (x : EReal) (-(x : EReal))) (Ideal.ofBits .f32 0x7F800000#32) = 1#1 := h
  rw [ofBits_pos_inf_f32] at h'
  exact isReal_of_abs_lt_top (lt_of_cmp_olt h')

/-- The rank-0 shape has one index. -/
instance : Subsingleton Cert.Pre_finite_inputs.S_.Idx := ⟨fun a b => funext fun d => d.elim0⟩

theorem real_of_pre (x0 : Cert.Spec.SE.Idx → EReal) (x1 : Cert.Spec.SL.Idx → BitVec 32) (x2 : Cert.Spec.SP.Idx → EReal)
    (h : Cert.Pre_finite_inputs.fn (F := Ideal) x0 x1 x2 = fun _ => 1#1) :
    (∀ i, IsReal (x0 i)) ∧ (∀ i, IsReal (x2 i)) := by
  have h0 := congrFun h ValueIdx.ix0
  dsimp only [Cert.Pre_finite_inputs.fn] at h0
  obtain ⟨ha, hb⟩ := IntOp.andi_eq_one.1 h0
  refine ⟨fun i => isReal_of_entry ?_, fun i => isReal_of_entry ?_⟩
  · exact Host.reduce_andi_all _ _ _ _ _ ha i
  · exact Host.reduce_andi_all _ _ _ _ _ hb i

end Cert.Finite

end
-- ==== Proof.lean ====
/-
  Nearest-prototype scores with per-class sums and counts: the kernel computes, tile by tile, what the reference
  computes at once. Scores: min(2 e·p − |e|² − |p|², 0) is −max(|e|² + |p|² − 2 e·p, 0) over the reals. Class sums: the
  one-hot rows of a class tile times the batch tile, summed over the batch tiles, add exactly the rows whose label is the
  class; the kernel's split of the batch into three summands is e + 0 + 0 at exact arithmetic. Class counts: the same
  with ones. A label outside the classes matches no row of any tile inside the arrays and is dropped by the reference's
  scatter alike. The kernel's three conversions through the narrow float format are the identity at exact arithmetic.
-/
import proofs.«414162_j54133767799349_3_alg».proof.Defs
import proofs.«414162_j54133767799349_3_alg».proof.Proof.Gen.Kernel
import proofs.«414162_j54133767799349_3_alg».proof.Proof.Gen.Kernel.Skeleton
import proofs.«414162_j54133767799349_3_alg».proof.Proof.Gen.Kernel.Launch
import proofs.«414162_j54133767799349_3_alg».proof.Proof.Gen.Kernel.Points
import proofs.«414162_j54133767799349_3_alg».proof.Proof.Gen.Kernel.Frame
import proofs.«414162_j54133767799349_3_alg».proof.Proof.Gen.KernelIdeal
import proofs.«414162_j54133767799349_3_alg».proof.Proof.Gen.KernelIdeal.Skeleton
import proofs.«414162_j54133767799349_3_alg».proof.Proof.Gen.KernelIdeal.Launch
import proofs.«414162_j54133767799349_3_alg».proof.Proof.Gen.KernelIdeal.Points
import proofs.«414162_j54133767799349_3_alg».proof.Proof.Gen.KernelIdeal.Frame
import proofs.«414162_j54133767799349_3_alg».proof.Proof.Gen.ReferenceIdeal
import proofs.«414162_j54133767799349_3_alg».proof.Proof.Gen.ReferenceIdeal.Run
import proofs.«414162_j54133767799349_3_alg».proof.Proof.Gen.ReferenceIdeal.Read
import proofs.«414162_j54133767799349_3_alg».proof.Proof.Gen.Pre_finite_inputs
import proofs.«414162_j54133767799349_3_alg».proof.Proof.KIBody
import proofs.«414162_j54133767799349_3_alg».proof.Proof.KBBody
import proofs.«414162_j54133767799349_3_alg».proof.Proof.KIScores
import proofs.«414162_j54133767799349_3_alg».proof.Proof.KIUpdates
import proofs.«414162_j54133767799349_3_alg».proof.Proof.KICounts
import proofs.«414162_j54133767799349_3_alg».proof.Proof.Ref
import proofs.«414162_j54133767799349_3_alg».proof.Proof.RefScatter
import proofs.«414162_j54133767799349_3_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The three conversions to the narrow format and back that the idealized kernel drops are the identity at exact
    arithmetic. -/
theorem preserves : Cert.preserves_Kernel_KernelIdeal :=
  ⟨IdealRules.truncf_extf.statement _ _ _, IdealRules.truncf_extf.statement _ _ _, IdealRules.truncf_extf.statement _ _ _⟩

/-- Both programs end at the specification's three arrays. -/
theorem algebraic : Cert.algebraic_KernelIdeal_ReferenceIdeal := by
  intro m ρ m' ρ' hpre hagree
  have hreal : ∀ c, (∀ i, RealClosure.IsReal (Cert.KernelIdeal.Val.argE m c i)) ∧ (∀ i, RealClosure.IsReal (Cert.KernelIdeal.Val.argP m c i)) :=
    fun c => Cert.Finite.real_of_pre _ _ _ (hpre c)
  refine ⟨fun c => Cert.Spec.scores (Cert.KernelIdeal.Val.argE m c) (Cert.KernelIdeal.Val.argP m c),
    fun c => Cert.Spec.updates (Cert.KernelIdeal.Val.argE m c) (Cert.KernelIdeal.Val.argL m c),
    fun c => Cert.Spec.counts (Cert.KernelIdeal.Val.argL m c), ?_, ?_⟩
  · -- the kernel: each result array at what the proof data computes, which is the specification's
    refine (θ_run Cert.KernelIdeal.defs _ _).mono (fun r h c => ?_) (Cert.KernelIdeal.Gen.run_main (F := Ideal) m ρ)
    have h1 := (h c).1
    have h2 := (h c).2
    refine ⟨(h1 4).trans (Cert.KernelIdeal.Val.scores_final m c (hreal c).1 (hreal c).2),
      (h1 5).trans (Cert.KernelIdeal.Val.updates_final m c (hreal c).1),
      (h2 Cert.KernelIdeal.main_v8 (Pipeline.mem_restRefs_of Cert.KernelIdeal.main_v8 (by decide) (by decide))).trans
        (Cert.KernelIdeal.Val.counts_final m c),
      (h1 0).trans (((Cert.KernelIdeal.Gen.dats m 0 c).arrAt_in 0 rfl _).trans
        ((Cert.KernelIdeal.Gen.A_eq m c 0).trans (Cert.KernelIdeal.Gen.V_main_arg0 m c))),
      (h2 Cert.KernelIdeal.main_arg1 (Pipeline.mem_restRefs_of Cert.KernelIdeal.main_arg1 (by decide) (by decide))).trans
        (Cert.KernelIdeal.Gen.W_main_arg1 m (Cert.KernelIdeal.Gen.dats m) c),
      (h2 Cert.KernelIdeal.main_arg2 (Pipeline.mem_restRefs_of Cert.KernelIdeal.main_arg2 (by decide) (by decide))).trans
        (Cert.KernelIdeal.Gen.W_main_arg2 m (Cert.KernelIdeal.Gen.dats m) c)⟩
  · -- the reference: its generated run, read one operation at a time
    refine (θ_run Cert.ReferenceIdeal.defs _ _).mono (fun r h c => ?_) (Cert.ReferenceIdeal.Value.run (F := Ideal) m' ρ')
    obtain ⟨e15, e18, e22, ea0, ea1, ea2⟩ := h c
    refine ⟨?_, ?_, ?_, ea0, ea1, ea2⟩
    · rw [e15, Cert.ReferenceIdeal.Read.val_main_v15_eq, Cert.RefBridge.ref_scores, (hagree c).1, (hagree c).2.2]
    · rw [e18, Cert.ReferenceIdeal.Read.val_main_v18_eq, Cert.RefBridge.ref_updates, (hagree c).1, (hagree c).2.1]
    · rw [e22, Cert.ReferenceIdeal.Read.val_main_v22_eq, Cert.RefBridge.ref_counts, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
